-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v49)) (v2 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_v51) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072 : Shape := ⟨1, ![131072]⟩
abbrev S19x256 : Shape := ⟨2, ![19, 256]⟩
abbrev S19 : Shape := ⟨1, ![19]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S19x256 : S_.BroadcastsInDim S19x256 (![] : Fin 0 → Fin S19x256.rank)
  reducesTo_S19x256_S_d0_1 : S19x256.ReducesTo [0, 1] S_
  bcast_S_S19 : S_.BroadcastsInDim S19 (![] : Fin 0 → Fin S19.rank)
  reducesTo_S19_S_d0 : S19.ReducesTo [0] S_

variable [Facts]

def fn_part1 {F : FTy → Type} [FloatOps F] (main_v13 : IVec S_ 1) (main_v16 : IVec S19 1) : IVec S_ 1 :=
  let main_c_5 : IVec S_ 1 := constantI S_ 1 1#1
  let main_v17 : IVec S_ 1 := (fun x v => Host.reduce IntOp.andi x v reducesTo_S19_S_d0 h_S_) main_v16 main_c_5
  let main_v18 : IVec S_ 1 := andi main_v13 main_v17
  main_v18

def fn {F : FTy → Type} [FloatOps F] (main_arg0 : FVec F S131072x256 .f32) (main_arg1 : IVec S131072 32) (main_arg2 : FVec F S19x256 .f32) (main_arg3 : FVec F S19x256 .f32) (main_arg4 : FVec F S19 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S19x256 .f32 := Host.absf main_arg2
  let main_cst_0 : FVec F S_ .f32 := constant S_ .f32 0x7F800000#32
  let main_v5 : FVec F S19x256 .f32 := broadcastInDim S19x256 ![] bcast_S_S19x256 main_cst_0
  let main_v6 : IVec S19x256 1 := cmpf .olt main_v4 main_v5
  let main_c_1 : IVec S_ 1 := constantI S_ 1 1#1
  let main_v7 : IVec S_ 1 := (fun x v => Host.reduce IntOp.andi x v reducesTo_S19x256_S_d0_1 h_S_) main_v6 main_c_1
  let main_v8 : IVec S_ 1 := andi main_v3 main_v7
  let main_v9 : FVec F S19x256 .f32 := Host.absf main_arg3
  let main_cst_2 : FVec F S_ .f32 := constant S_ .f32 0x7F800000#32
  let main_v10 : FVec F S19x256 .f32 := broadcastInDim S19x256 ![] bcast_S_S19x256 main_cst_2
  let main_v11 : IVec S19x256 1 := cmpf .olt main_v9 main_v10
  let main_c_3 : IVec S_ 1 := constantI S_ 1 1#1
  let main_v12 : IVec S_ 1 := (fun x v => Host.reduce IntOp.andi x v reducesTo_S19x256_S_d0_1 h_S_) main_v11 main_c_3
  let main_v13 : IVec S_ 1 := andi main_v8 main_v12
  let main_v14 : FVec F S19 .f32 := Host.absf main_arg4
  let main_cst_4 : FVec F S_ .f32 := constant S_ .f32 0x7F800000#32
  let main_v15 : FVec F S19 .f32 := broadcastInDim S19 ![] bcast_S_S19 main_cst_4
  let main_v16 : IVec S19 1 := cmpf .olt main_v14 main_v15
  fn_part1 (F := F) main_v13 main_v16
-- ==== Kernel.lean ====
abbrev S131072x256 : Shape := ⟨2, ![131072, 256]⟩
abbrev S131072 : Shape := ⟨1, ![131072]⟩
abbrev S19x256 : Shape := ⟨2, ![19, 256]⟩
abbrev S19 : Shape := ⟨1, ![19]⟩
abbrev S16x1x8192 : Shape := ⟨3, ![16, 1, 8192]⟩
abbrev S2x19x256 : Shape := ⟨3, ![2, 19, 256]⟩
abbrev S2x19x1 : Shape := ⟨3, ![2, 19, 1]⟩
abbrev S8192x256 : Shape := ⟨2, ![8192, 256]⟩
abbrev S1x1x8192 : Shape := ⟨3, ![1, 1, 8192]⟩
abbrev S1x19x256 : Shape := ⟨3, ![1, 19, 256]⟩
abbrev S1x19x1 : Shape := ⟨3, ![1, 19, 1]⟩
abbrev S19x1 : Shape := ⟨2, ![19, 1]⟩
abbrev S2048x256 : Shape := ⟨2, ![2048, 256]⟩
abbrev S1x1x2048 : Shape := ⟨3, ![1, 1, 2048]⟩
abbrev S1x2048 : Shape := ⟨2, ![1, 2048]⟩
abbrev S19x2048 : Shape := ⟨2, ![19, 2048]⟩
abbrev S2048x512 : Shape := ⟨2, ![2048, 512]⟩
abbrev S19x512 : Shape := ⟨2, ![19, 512]⟩
abbrev S_ : Shape := ⟨0, ![]⟩

abbrev nBuf : Space → Nat
  | .hbm => 75
  | .vmem => 13
  | .smem => 0
  | _ => 0

abbrev bufTy : (tb : Table) → Fin (tcTables nBuf tb) → BufTy
  | .hbm, ⟨0, _⟩ => ⟨S131072x256, .f32⟩
  | .hbm, ⟨1, _⟩ => ⟨S131072, .i32⟩
  | .hbm, ⟨2, _⟩ => ⟨S19x256, .f32⟩
  | .hbm, ⟨3, _⟩ => ⟨S19x256, .f32⟩
  | .hbm, ⟨4, _⟩ => ⟨S19, .f32⟩
  | .hbm, ⟨5, _⟩ => ⟨S16x1x8192, .i32⟩
  | .hbm, ⟨6, _⟩ => ⟨S2x19x256, .f32⟩
  | .hbm, ⟨7, _⟩ => ⟨S2x19x256, .f32⟩
  | .hbm, ⟨8, _⟩ => ⟨S2x19x1, .f32⟩
  | .hbm, ⟨9, _⟩ => ⟨S_, .f32⟩
  | .hbm, ⟨10, _⟩ => ⟨S19x256, .f32⟩
  | .hbm, ⟨11, _⟩ => ⟨S_, .f32⟩
  | .hbm, ⟨12, _⟩ => ⟨S19x256, .f32⟩
  | .hbm, ⟨13, _⟩ => ⟨S_, .f32⟩
  | .hbm, ⟨14, _⟩ => ⟨S19x1, .f32⟩
  | .hbm, ⟨15, _⟩ => ⟨S_, .f32⟩
  | .hbm, ⟨16, _⟩ => ⟨S19x1, .f32⟩
  | .hbm, ⟨17, _⟩ => ⟨S19x1, .f32⟩
  | .hbm, ⟨18, _⟩ => ⟨S19x256, .f32⟩
  | .hbm, ⟨19, _⟩ => ⟨S19x256, .f32⟩
  | .hbm, ⟨20, _⟩ => ⟨S_, .f32⟩
  | .hbm, ⟨21, _⟩ => ⟨S19x256, .f32⟩
  | .hbm, ⟨22, _⟩ => ⟨S19x256, .f32⟩
  | .hbm, ⟨23, _⟩ => ⟨S19x256, .f32⟩
  | .hbm, ⟨24, _⟩ => ⟨S19x256, .f32⟩
  | .hbm, ⟨25, _⟩ => ⟨S19x256, .f32⟩
  | .hbm, ⟨26, _⟩ => ⟨S19x256, .f32⟩
  | .hbm, ⟨27, _⟩ => ⟨S19x256, .f32⟩
  | .hbm, ⟨28, _⟩ => ⟨S19x256, .f32⟩
  | .hbm, ⟨29, _⟩ => ⟨S19x256, .f32⟩
  | .hbm, ⟨30, _⟩ => ⟨S19x256, .f32⟩
  | .hbm, ⟨31, _⟩ => ⟨S19x1, .f32⟩
  | .hbm, ⟨32, _⟩ => ⟨S19x1, .f32⟩
  | .hbm, ⟨33, _⟩ => ⟨S_, .f32⟩
  | .hbm, ⟨34, _⟩ => ⟨S19x1, .f32⟩
  | .hbm, ⟨35, _⟩ => ⟨S19x1, .i1⟩
  | .hbm, ⟨36, _⟩ => ⟨S_, .f32⟩
  | .hbm, ⟨37, _⟩ => ⟨S_, .f32⟩
  | .hbm, ⟨38, _⟩ => ⟨S19x1, .f32⟩
  | .hbm, ⟨39, _⟩ => ⟨S19x1, .f32⟩
  | .hbm, ⟨40, _⟩ => ⟨S_, .f32⟩
  | .hbm, ⟨41, _⟩ => ⟨S19x1, .f32⟩
  | .hbm, ⟨42, _⟩ => ⟨S19x1, .i1⟩
  | .hbm, ⟨43, _⟩ => ⟨S19x1, .f32⟩
  | .hbm, ⟨44, _⟩ => ⟨S_, .f32⟩
  | .hbm, ⟨45, _⟩ => ⟨S_, .f32⟩
  | .hbm, ⟨46, _⟩ => ⟨S19x1, .f32⟩
  | .hbm, ⟨47, _⟩ => ⟨S19x1, .f32⟩
  | .hbm, ⟨48, _⟩ => ⟨S_, .f32⟩
  | .hbm, ⟨49, _⟩ => ⟨S19x1, .f32⟩
  | .hbm, ⟨50, _⟩ => ⟨S19x1, .f32⟩
  | .hbm, ⟨51, _⟩ => ⟨S19x1, .f32⟩
  | .hbm, ⟨52, _⟩ => ⟨S19x256, .f32⟩
  | .hbm, ⟨53, _⟩ => ⟨S19x256, .f32⟩
  | .hbm, ⟨54, _⟩ => ⟨S19x256, .f32⟩
  | .hbm, ⟨55, _⟩ => ⟨S19x256, .f32⟩
  | .hbm, ⟨56, _⟩ => ⟨S_, .f32⟩
  | .hbm, ⟨57, _⟩ => ⟨S19x1, .f32⟩
  | .hbm, ⟨58, _⟩ => ⟨S19x1, .f32⟩
  | .hbm, ⟨59, _⟩ => ⟨S19x256, .f32⟩
  | .hbm, ⟨60, _⟩ => ⟨S19x256, .f32⟩
  | .hbm, ⟨61, _⟩ => ⟨S19x256, .f32⟩
  | .hbm, ⟨62, _⟩ => ⟨S19x256, .f32⟩
  | .hbm, ⟨63, _⟩ => ⟨S19x256, .f32⟩
  | .hbm, ⟨64, _⟩ => ⟨S19x256, .f32⟩
  | .hbm, ⟨65, _⟩ => ⟨S_, .f32⟩
  | .hbm, ⟨66, _⟩ => ⟨S19x1, .f32⟩
  | .hbm, ⟨67, _⟩ => ⟨S19x1, .f32⟩
  | .hbm, ⟨68, _⟩ => ⟨S19x256, .f32⟩
  | .hbm, ⟨69, _⟩ => ⟨S19x256, .f32⟩
  | .hbm, ⟨70, _⟩ => ⟨S19x256, .f32⟩
  | .hbm, ⟨71, _⟩ => ⟨S19x256, .f32⟩
  | .hbm, ⟨72, _⟩ => ⟨S19x256, .f32⟩
  | .hbm, ⟨73, _⟩ => ⟨S19, .f32⟩
  | .hbm, ⟨74, _⟩ => ⟨S19, .f32⟩
  | .local _ .vmem, ⟨0, _⟩ => ⟨S8192x256, .f32⟩
  | .local _ .vmem, ⟨1, _⟩ => ⟨S8192x256, .f32⟩
  | .local _ .vmem, ⟨2, _⟩ => ⟨S1x1x8192, .i32⟩
  | .local _ .vmem, ⟨3, _⟩ => ⟨S1x1x8192, .i32⟩
  | .local _ .vmem, ⟨4, _⟩ => ⟨S1x19x256, .f32⟩
  | .local _ .vmem, ⟨5, _⟩ => ⟨S1x19x256, .f32⟩
  | .local _ .vmem, ⟨6, _⟩ => ⟨S1x19x256, .f32⟩
  | .local _ .vmem, ⟨7, _⟩ => ⟨S1x19x256, .f32⟩
  | .local _ .vmem, ⟨8, _⟩ => ⟨S1x19x1, .f32⟩
  | .local _ .vmem, ⟨9, _⟩ => ⟨S1x19x1, .f32⟩
  | .local _ .vmem, ⟨10, _⟩ => ⟨S19x256, .f32⟩
  | .local _ .vmem, ⟨11, _⟩ => ⟨S19x256, .f32⟩
  | .local _ .vmem, ⟨12, _⟩ => ⟨S19x1, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_call1_v0 : Ref sig .tc := ⟨.hbm, 45, rfl⟩
abbrev main_call1_v1 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_5 : BitVec 32 := 0#32
  let c0_i32_1 : BitVec 32 := 0#32
  let c1_i32 : BitVec 32 := 1#32
  let arg10 : BitVec 32 := Scf.iv c0_i32_1 c1_i32 k0_t1
  let c1_i32_4 : BitVec 32 := 1#32
  let v7 : BitVec 32 := Scalar.muli arg10 c1_i32_4
  let v8 : BitVec 32 := Scalar.addi c0_i32_5 v7
  let c2048_i32 : BitVec 32 := 2048#32
  let v9 : BitVec 32 := Scalar.muli v8 c2048_i32
  v9
def k0_off1 (k0_t1 : Fin k0_t1_loop.trips) : Fin 2 → Nat :=
  let c0_i32_5 : BitVec 32 := 0#32
  let c0_i32_1 : BitVec 32 := 0#32
  let c1_i32 : BitVec 32 := 1#32
  let arg10 : BitVec 32 := Scf.iv c0_i32_1 c1_i32 k0_t1
  let c1_i32_4 : BitVec 32 := 1#32
  let v7 : BitVec 32 := Scalar.muli arg10 c1_i32_4
  let v8 : BitVec 32 := Scalar.addi c0_i32_5 v7
  let c2048_i32 : BitVec 32 := 2048#32
  let v9 : BitVec 32 := Scalar.muli v8 c2048_i32
  let v10 : BitVec 32 := v9
  let v11 : Index := Scalar.indexCast v10
  let c0 : Index := 0#32
  ![v11.toNat, 0]
def k0_off2 (k0_t1 : Fin k0_t1_loop.trips) : Fin 3 → Nat :=
  let c0_6 : Index := 0#32
  let c0_7 : Index := 0#32
  let c0_i32_5 : BitVec 32 := 0#32
  let c0_i32_1 : BitVec 32 := 0#32
  let c1_i32 : BitVec 32 := 1#32
  let arg10 : BitVec 32 := Scf.iv c0_i32_1 c1_i32 k0_t1
  let c1_i32_4 : BitVec 32 := 1#32
  let v7 : BitVec 32 := Scalar.muli arg10 c1_i32_4
  let v8 : BitVec 32 := Scalar.addi c0_i32_5 v7
  let c2048_i32 : BitVec 32 := 2048#32
  let v9 : BitVec 32 := Scalar.muli v8 c2048_i32
  let v10 : BitVec 32 := v9
  let v13 : Index := Scalar.indexCast v10
  ![0, 0, v13.toNat]
def k0_cond2 (i : grid0.Coords) : BitVec 1 :=
  let arg1 : BitVec 32 := BitVec.ofNat 32 (i 1).val
  let c7_i32 : BitVec 32 := 7#32
  let v4 : BitVec 1 := Scalar.cmpi .eq arg1 c7_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x19x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x19x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x19x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S131072_S16x1x8192 : S131072.ShapeCasts S16x1x8192
  inb_S19x256_S19x256_0_0 : ∀ a, (![0, 0] : Fin 2 → Nat) a + S19x256.size a ≤ S19x256.size a
  h_S19x256 : 0 < S19x256.numel
  shapeCasts_S19x256_S19x256 : S19x256.ShapeCasts S19x256
  inb_S19x1_S19x1_0_0 : ∀ a, (![0, 0] : Fin 2 → Nat) a + S19x1.size a ≤ S19x1.size a
  h_S19x1 : 0 < S19x1.numel
  shapeCasts_S19x1_S19x1 : S19x1.ShapeCasts S19x1
  h_S2048x256 : 0 < S2048x256.numel
  h_S1x1x2048 : 0 < S1x1x2048.numel
  shapeCasts_S1x1x2048_S1x2048 : S1x1x2048.ShapeCasts S1x2048
  iota_S19x2048_d0_w32 : S19x2048.Iotas .tc 32 [0]
  broadcasts_S1x2048_S19x2048 : S1x2048.Broadcasts S19x2048
  natLt_1_32 : 1 < 32
  bitsLt_bf16_f32 : FTy.bits .bf16 < FTy.bits .f32
  concatenates_S2048x256_S2048x256_S2048x512_d1 : Shape.Concatenates [S2048x256, S2048x256] S2048x512 1
  slices_S19x512_o0_0_S19x256 : S19x512.Slices ![0, 0] S19x256
  slices_S19x512_o0_256_S19x256 : S19x512.Slices ![0, 256] S19x256
  reduces_S19x2048_S19 : S19x2048.Reduces [1] S19
  shapeCasts_S19_S19x1 : S19.ShapeCasts S19x1
  inb_S1x19x256_S1x19x256_0_0_0 : ∀ a, (![0, 0, 0] : Fin 3 → Nat) a + S1x19x256.size a ≤ S1x19x256.size a
  h_S1x19x256 : 0 < S1x19x256.numel
  shapeCasts_S1x19x256_S19x256 : S1x19x256.ShapeCasts S19x256
  shapeCasts_S19x256_S1x19x256 : S19x256.ShapeCasts S1x19x256
  inb_S1x19x1_S1x19x1_0_0_0 : ∀ a, (![0, 0, 0] : Fin 3 → Nat) a + S1x19x1.size a ≤ S1x19x1.size a
  h_S1x19x1 : 0 < S1x19x1.numel
  shapeCasts_S1x19x1_S19x1 : S1x19x1.ShapeCasts S19x1
  shapeCasts_S19x1_S1x19x1 : S19x1.ShapeCasts S1x19x1
  reducesTo_S2x19x256_S19x256_d0 : S2x19x256.ReducesTo [0] S19x256
  h_S_ : 0 < S_.numel
  reducesTo_S2x19x1_S19x1_d0 : S2x19x1.ReducesTo [0] S19x1
  bcast_S_S19x1 : S_.BroadcastsInDim S19x1 (![] : Fin 0 → Fin S19x1.rank)
  bcast_S19x1_S19x256_0_1 : S19x1.BroadcastsInDim S19x256 (![0, 1] : Fin 2 → Fin S19x256.rank)
  bcast_S_S19x256 : S_.BroadcastsInDim S19x256 (![] : Fin 0 → Fin S19x256.rank)
  shapeCasts_S19x1_S19 : S19x1.ShapeCasts S19
  dot_S19x2048_S2048x512_S19x512_1_0_0_1_n_n_wf : DotDims.WF S19x2048 S2048x512 S19x512 [1] [0] [0] [1] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x256.size a ≤ S8192x256.size a
  k0_off2_inb : ∀ k0_t1 : Fin k0_t1_loop.trips, ∀ a, (k0_off2 k0_t1) a + S1x1x2048.size a ≤ S1x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S131072x256.size a
  hwx0_0 : ∀ i : grid0.Coords, EltTy.bits .f32 = 32 ∨ (Rect.block (s := S131072x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8192.size a ≤ S16x1x8192.size a
  hwx0_1 : ∀ i : grid0.Coords, EltTy.bits .i32 = 32 ∨ (Rect.block (s := S16x1x8192) S1x1x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x19x256.size a ≤ S2x19x256.size a
  hwx0_2 : ∀ i : grid0.Coords, EltTy.bits .f32 = 32 ∨ (Rect.block (s := S2x19x256) S1x19x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x19x256.size a ≤ S2x19x256.size a
  hwx0_3 : ∀ i : grid0.Coords, EltTy.bits .f32 = 32 ∨ (Rect.block (s := S2x19x256) S1x19x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x19x1.size a ≤ S2x19x1.size a
  hwx0_4 : ∀ i : grid0.Coords, EltTy.bits .f32 = 32 ∨ (Rect.block (s := S2x19x1) S1x19x1.size (cc0_transform_4 i) (hinb0_4 i)).WholeWords (EltTy.packing .f32)

variable [Facts₀]

def dot_S19x2048_S2048x512_S19x512_1_0_0_1_n_n : DotDims S19x2048 S2048x512 S19x512 where
  lhsContracting := [1]
  rhsContracting := [0]
  lhsNonContracting := [0]
  rhsNonContracting := [1]
  lhsBatch := []
  rhsBatch := []
  wf := dot_S19x2048_S2048x512_S19x512_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x19x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x19x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x19x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S131072x256 : Shape := ⟨2, ![131072, 256]⟩
abbrev S131072 : Shape := ⟨1, ![131072]⟩
abbrev S19x256 : Shape := ⟨2, ![19, 256]⟩
abbrev S19 : Shape := ⟨1, ![19]⟩
abbrev S_ : Shape := ⟨0, ![]⟩
abbrev S131072x1 : Shape := ⟨2, ![131072, 1]⟩
abbrev S19x1 : Shape := ⟨2, ![19, 1]⟩

abbrev nBuf : Space → Nat
  | .hbm => 81
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072, .i32⟩
  | .hbm, ⟨2, _⟩ => ⟨S19x256, .f32⟩
  | .hbm, ⟨3, _⟩ => ⟨S19x256, .f32⟩
  | .hbm, ⟨4, _⟩ => ⟨S19, .f32⟩
  | .hbm, ⟨5, _⟩ => ⟨S_, .f32⟩
  | .hbm, ⟨6, _⟩ => ⟨S131072, .f32⟩
  | .hbm, ⟨7, _⟩ => ⟨S_, .f32⟩
  | .hbm, ⟨8, _⟩ => ⟨S19, .f32⟩
  | .hbm, ⟨9, _⟩ => ⟨S131072x1, .i32⟩
  | .hbm, ⟨10, _⟩ => ⟨S19, .f32⟩
  | .hbm, ⟨11, _⟩ => ⟨S_, .f32⟩
  | .hbm, ⟨12, _⟩ => ⟨S19x256, .f32⟩
  | .hbm, ⟨13, _⟩ => ⟨S131072x1, .i32⟩
  | .hbm, ⟨14, _⟩ => ⟨S19x256, .f32⟩
  | .hbm, ⟨15, _⟩ => ⟨S131072x256, .f32⟩
  | .hbm, ⟨16, _⟩ => ⟨S_, .f32⟩
  | .hbm, ⟨17, _⟩ => ⟨S19x256, .f32⟩
  | .hbm, ⟨18, _⟩ => ⟨S131072x1, .i32⟩
  | .hbm, ⟨19, _⟩ => ⟨S19x256, .f32⟩
  | .hbm, ⟨20, _⟩ => ⟨S_, .f32⟩
  | .hbm, ⟨21, _⟩ => ⟨S19, .f32⟩
  | .hbm, ⟨22, _⟩ => ⟨S19, .f32⟩
  | .hbm, ⟨23, _⟩ => ⟨S19x1, .f32⟩
  | .hbm, ⟨24, _⟩ => ⟨S19x256, .f32⟩
  | .hbm, ⟨25, _⟩ => ⟨S19x256, .f32⟩
  | .hbm, ⟨26, _⟩ => ⟨S_, .f32⟩
  | .hbm, ⟨27, _⟩ => ⟨S19x256, .f32⟩
  | .hbm, ⟨28, _⟩ => ⟨S19x256, .f32⟩
  | .hbm, ⟨29, _⟩ => ⟨S19x256, .f32⟩
  | .hbm, ⟨30, _⟩ => ⟨S19x256, .f32⟩
  | .hbm, ⟨31, _⟩ => ⟨S19x1, .f32⟩
  | .hbm, ⟨32, _⟩ => ⟨S19x256, .f32⟩
  | .hbm, ⟨33, _⟩ => ⟨S19x256, .f32⟩
  | .hbm, ⟨34, _⟩ => ⟨S19x256, .f32⟩
  | .hbm, ⟨35, _⟩ => ⟨S19x256, .f32⟩
  | .hbm, ⟨36, _⟩ => ⟨S19x256, .f32⟩
  | .hbm, ⟨37, _⟩ => ⟨S19x256, .f32⟩
  | .hbm, ⟨38, _⟩ => ⟨S19, .f32⟩
  | .hbm, ⟨39, _⟩ => ⟨S_, .f32⟩
  | .hbm, ⟨40, _⟩ => ⟨S19, .f32⟩
  | .hbm, ⟨41, _⟩ => ⟨S19, .i1⟩
  | .hbm, ⟨42, _⟩ => ⟨S_, .f32⟩
  | .hbm, ⟨43, _⟩ => ⟨S19, .f32⟩
  | .hbm, ⟨44, _⟩ => ⟨S19, .i1⟩
  | .hbm, ⟨45, _⟩ => ⟨S_, .f32⟩
  | .hbm, ⟨46, _⟩ => ⟨S_, .f32⟩
  | .hbm, ⟨47, _⟩ => ⟨S19, .f32⟩
  | .hbm, ⟨48, _⟩ => ⟨S19, .f32⟩
  | .hbm, ⟨49, _⟩ => ⟨S19, .f32⟩
  | .hbm, ⟨50, _⟩ => ⟨S_, .f32⟩
  | .hbm, ⟨51, _⟩ => ⟨S_, .f32⟩
  | .hbm, ⟨52, _⟩ => ⟨S19, .f32⟩
  | .hbm, ⟨53, _⟩ => ⟨S19, .f32⟩
  | .hbm, ⟨54, _⟩ => ⟨S19x1, .f32⟩
  | .hbm, ⟨55, _⟩ => ⟨S_, .f32⟩
  | .hbm, ⟨56, _⟩ => ⟨S19x1, .f32⟩
  | .hbm, ⟨57, _⟩ => ⟨S19x1, .f32⟩
  | .hbm, ⟨58, _⟩ => ⟨S19x1, .f32⟩
  | .hbm, ⟨59, _⟩ => ⟨S19x256, .f32⟩
  | .hbm, ⟨60, _⟩ => ⟨S19x256, .f32⟩
  | .hbm, ⟨61, _⟩ => ⟨S19x256, .f32⟩
  | .hbm, ⟨62, _⟩ => ⟨S19x256, .f32⟩
  | .hbm, ⟨63, _⟩ => ⟨S_, .f32⟩
  | .hbm, ⟨64, _⟩ => ⟨S19x1, .f32⟩
  | .hbm, ⟨65, _⟩ => ⟨S19x1, .f32⟩
  | .hbm, ⟨66, _⟩ => ⟨S19x256, .f32⟩
  | .hbm, ⟨67, _⟩ => ⟨S19x256, .f32⟩
  | .hbm, ⟨68, _⟩ => ⟨S19x256, .f32⟩
  | .hbm, ⟨69, _⟩ => ⟨S19x256, .f32⟩
  | .hbm, ⟨70, _⟩ => ⟨S19x256, .f32⟩
  | .hbm, ⟨71, _⟩ => ⟨S19x256, .f32⟩
  | .hbm, ⟨72, _⟩ => ⟨S_, .f32⟩
  | .hbm, ⟨73, _⟩ => ⟨S19x1, .f32⟩
  | .hbm, ⟨74, _⟩ => ⟨S19x1, .f32⟩
  | .hbm, ⟨75, _⟩ => ⟨S19x256, .f32⟩
  | .hbm, ⟨76, _⟩ => ⟨S19x256, .f32⟩
  | .hbm, ⟨77, _⟩ => ⟨S19x256, .f32⟩
  | .hbm, ⟨78, _⟩ => ⟨S19x256, .f32⟩
  | .hbm, ⟨79, _⟩ => ⟨S19x256, .f32⟩
  | .hbm, ⟨80, _⟩ => ⟨S19, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_call0_v0 : Ref sig .tc := ⟨.hbm, 46, rfl⟩
abbrev main_call0_v1 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_call1_v0 : Ref sig .tc := ⟨.hbm, 51, rfl⟩
abbrev main_call1_v1 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S_S19 : S_.BroadcastsInDim S19 (![] : Fin 0 → Fin S19.rank)
  bcast_S131072_S131072x1_0 : S131072.BroadcastsInDim S131072x1 (![0] : Fin 1 → Fin S131072x1.rank)
  bcast_S_S19x256 : S_.BroadcastsInDim S19x256 (![] : Fin 0 → Fin S19x256.rank)
  bcast_S19_S19x1_0 : S19.BroadcastsInDim S19x1 (![0] : Fin 1 → Fin S19x1.rank)
  bcast_S19x1_S19x256_0_1 : S19x1.BroadcastsInDim S19x256 (![0, 1] : Fin 2 → Fin S19x256.rank)
  bcast_S_S19x1 : S_.BroadcastsInDim S19x1 (![] : Fin 0 → Fin S19x1.rank)
  scatter_S19_S131072x1_S131072_n_0_0_1_wf : ScatterDims.WF S19 S131072x1 S131072 [] [0] [0] 1
  scatter_S19x256_S131072x1_S131072x256_1_0_0_1_wf : ScatterDims.WF S19x256 S131072x1 S131072x256 [1] [0] [0] 1

variable [Facts₀]

def scatter_S19_S131072x1_S131072_n_0_0_1 : ScatterDims S19 S131072x1 S131072 where
  updateWindowDims := []
  insertedWindowDims := [0]
  scatterDimsToOperandDims := [0]
  indexVectorDim := 1
  wf := scatter_S19_S131072x1_S131072_n_0_0_1_wf
def scatter_S19x256_S131072x1_S131072x256_1_0_0_1 : ScatterDims S19x256 S131072x1 S131072x256 where
  updateWindowDims := [1]
  insertedWindowDims := [0]
  scatterDimsToOperandDims := [0]
  indexVectorDim := 1
  wf := scatter_S19x256_S131072x1_S131072x256_1_0_0_1_wf

class Facts : Prop extends Facts₀ where

variable [Facts]
-- ==== Proof.KernelAround.lean ====
/-
  @main of the program around its one pallas_call: what each TensorCore buffer holds when the region is entered
  (the label array reshaped to sixteen rows of 8192 lanes, every other buffer as launched), the host lines that follow
  the region (the combine of the two cores' partial sums and the update formulas) touching no array the pipeline
  stages, the windows' blocks at a grid point, the two conditions of the body read off the grid position — the
  accumulators are cleared at the first of a core's eight steps and written out at the last — and, from those, where the
  three output windows are idle.
-/
import proofs.«414262_j69063074120047_3_alg».proof.Proof.Gen.Kernel.Launch
import proofs.«414262_j69063074120047_3_alg».proof.Proof.Gen.Kernel.Skeleton
import proofs.«414262_j69063074120047_3_alg».proof.Proof.Gen.Kernel.Points
import proofs.«414262_j69063074120047_3_alg».proof.Proof.Gen.Kernel.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The lines after the region, stretch by stretch: the combine and the update formulas, the two calls of the
    outlined select among them. -/
abbrev tailOps : List (List (HloOp τ sig (Elt F))) := [hostOps1, hostOps1_1, hostOps1_2, hostOps1_3, hostOps1_4]

/-- Core `c`'s buffer contents when the region is entered: after the one reshape of the labels. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the reshape, the region, then the later lines: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- No later line writes an array the pipeline stages: each writes its own result buffer only. -/
theorem keeps_of {ops : List (HloOp τ sig (Elt F))}
    (h : ops.Forall fun op => ∀ w, Proc.devRef .tc (Pipeline.arrRef spec0 w) ∉ op.writes) :
    ∀ op ∈ ops, ∀ w, Proc.devRef .tc (Pipeline.arrRef spec0 w) ∉ op.writes :=
  List.forall_iff_forall_mem.mp h

theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.reshape_writes, Finset.mem_singleton]
  repeat' apply And.intro
  all_goals intro w; fin_cases w <;> exact StableHlo.devRef_ne_of_ne (by decide)

theorem hostOps1_1_keeps : (hostOps1_1 : List (HloOp τ sig (Elt F))).Forall fun op => ∀ w, Proc.devRef .tc (Pipeline.arrRef spec0 w) ∉ op.writes := by
  simp only [hostOps1_1, StableHlo.TRef.unary, StableHlo.TRef.ternary, List.Forall, StableHlo.nullary_writes, StableHlo.unary_writes, StableHlo.binary_writes, StableHlo.ternary_writes, StableHlo.reshape_writes, Finset.mem_singleton]
  repeat' apply And.intro
  all_goals intro w; fin_cases w <;> exact StableHlo.devRef_ne_of_ne (by decide)
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.reshape_writes, Finset.mem_singleton]
  repeat' apply And.intro
  all_goals intro w; fin_cases w <;> exact StableHlo.devRef_ne_of_ne (by decide)
theorem hostOps1_3_keeps : (hostOps1_3 : List (HloOp τ sig (Elt F))).Forall fun op => ∀ w, Proc.devRef .tc (Pipeline.arrRef spec0 w) ∉ op.writes := by
  simp only [hostOps1_3, StableHlo.TRef.unary, StableHlo.TRef.ternary, List.Forall, StableHlo.nullary_writes, StableHlo.unary_writes, StableHlo.binary_writes, StableHlo.ternary_writes, StableHlo.reshape_writes, Finset.mem_singleton]
  repeat' apply And.intro
  all_goals intro w; fin_cases w <;> exact StableHlo.devRef_ne_of_ne (by decide)
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.reshape_writes, Finset.mem_singleton]
  repeat' apply And.intro
  all_goals intro w; fin_cases w <;> exact StableHlo.devRef_ne_of_ne (by decide)

/-- The later lines touch unscoped TensorCore buffers only: with nothing prefetched each is an array of the pipeline or
    a buffer that bypasses the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl
  · exact keeps_of hostOps1_keeps op hop
  · exact keeps_of hostOps1_1_keeps op hop
  · exact keeps_of hostOps1_2_keeps op hop
  · exact keeps_of hostOps1_3_keeps op hop
  · exact keeps_of hostOps1_4_keeps op hop

/-! ## The argument arrays are never written -/

/-- A reference none of the later lines writes and that is no array of the pipeline ends at what the region found. -/
theorem tail_keeps (dats : (p : Fin _) → (c : Dev nD) → Dat τ (Elt F) Unit ℕ (UR sig nD τ) ℕ (cfgs p) c) (c : Dev nD)
    (b : Ref sig .tc) (hb : ∀ w, Pipeline.arrRef spec0 w ≠ b)
    (hw : ∀ op ∈ (tailOps (F := F)).flatten, Proc.devRef (τ := τ) .tc b ∉ op.writes) :
    Pipeline.afterTail₀ cfgs dats 0 (V0 m) tailOps c b = V m c b := by
  unfold Pipeline.afterTail₀
  rw [StableHlo.after_of_forall_not_mem (b := Proc.devRef .tc b) _ _ hw,
    Pipeline.withArrays_of_ne _ c (V0 m c) _ b hb]

/-- The five argument arrays are written by no line of @main. -/
theorem args_unwritten : ((hostOps0 (F := F)) ++ (tailOps (F := F)).flatten).Forall fun op =>
    Proc.devRef (τ := τ) .tc main_arg0 ∉ op.writes ∧ Proc.devRef (τ := τ) .tc main_arg1 ∉ op.writes
    ∧ Proc.devRef (τ := τ) .tc main_arg2 ∉ op.writes ∧ Proc.devRef (τ := τ) .tc main_arg3 ∉ op.writes
    ∧ Proc.devRef (τ := τ) .tc main_arg4 ∉ op.writes := by
  simp only [tailOps, hostOps0, hostOps1, hostOps1_1, hostOps1_2, hostOps1_3, hostOps1_4, StableHlo.TRef.unary, StableHlo.TRef.ternary,
    List.flatten_cons, List.flatten_nil, List.append_nil, List.cons_append, List.nil_append, List.Forall,
    StableHlo.nullary_writes, StableHlo.unary_writes, StableHlo.binary_writes, StableHlo.ternary_writes, StableHlo.reshape_writes, Finset.mem_singleton]
  repeat' apply And.intro
  all_goals exact StableHlo.devRef_ne_of_ne (by decide)

theorem V_of_unwritten (c : Dev nD) (b : Ref sig .tc)
    (hw : ∀ op ∈ (hostOps0 (F := F)), Proc.devRef (τ := τ) .tc b ∉ op.writes) : V m c b = m ((c : Thread nD τ).loc b) :=
  StableHlo.after_of_forall_not_mem (b := Proc.devRef .tc b) _ _ (by
    simpa only [List.flatten_cons, List.flatten_nil, List.append_nil] using hw)

theorem args_unwritten_mem : ∀ op ∈ (hostOps0 (F := F)) ++ (tailOps (F := F)).flatten,
    Proc.devRef (τ := τ) .tc main_arg0 ∉ op.writes ∧ Proc.devRef (τ := τ) .tc main_arg1 ∉ op.writes
    ∧ Proc.devRef (τ := τ) .tc main_arg2 ∉ op.writes ∧ Proc.devRef (τ := τ) .tc main_arg3 ∉ op.writes
    ∧ Proc.devRef (τ := τ) .tc main_arg4 ∉ op.writes := List.forall_iff_forall_mem.mp args_unwritten

theorem V_main_arg0 (c : Dev nD) : V m c main_arg0 = m ((c : Thread nD τ).loc main_arg0) :=
  V_of_unwritten m c _ fun op h => (args_unwritten_mem op (List.mem_append_left _ h)).1
theorem V_main_arg1 (c : Dev nD) : V m c main_arg1 = m ((c : Thread nD τ).loc main_arg1) :=
  V_of_unwritten m c _ fun op h => (args_unwritten_mem op (List.mem_append_left _ h)).2.1
theorem V_main_arg2 (c : Dev nD) : V m c main_arg2 = m ((c : Thread nD τ).loc main_arg2) :=
  V_of_unwritten m c _ fun op h => (args_unwritten_mem op (List.mem_append_left _ h)).2.2.1
theorem V_main_arg3 (c : Dev nD) : V m c main_arg3 = m ((c : Thread nD τ).loc main_arg3) :=
  V_of_unwritten m c _ fun op h => (args_unwritten_mem op (List.mem_append_left _ h)).2.2.2.1
theorem V_main_arg4 (c : Dev nD) : V m c main_arg4 = m ((c : Thread nD τ).loc main_arg4) :=
  V_of_unwritten m c _ fun op h => (args_unwritten_mem op (List.mem_append_left _ h)).2.2.2.2

variable (dats : (p : Fin 1) → (c : Dev nD) → Dat τ (Elt F) Unit ℕ (UR sig nD τ) ℕ (cfgs p) c)

theorem W_main_arg1 (c : Dev nD) : Pipeline.afterTail₀ cfgs dats 0 (V0 m) tailOps c main_arg1 = m ((c : Thread nD τ).loc main_arg1) :=
  (tail_keeps m dats c main_arg1 (by decide) fun op h => (args_unwritten_mem op (List.mem_append_right _ h)).2.1).trans (V_main_arg1 m c)
theorem W_main_arg2 (c : Dev nD) : Pipeline.afterTail₀ cfgs dats 0 (V0 m) tailOps c main_arg2 = m ((c : Thread nD τ).loc main_arg2) :=
  (tail_keeps m dats c main_arg2 (by decide) fun op h => (args_unwritten_mem op (List.mem_append_right _ h)).2.2.1).trans (V_main_arg2 m c)
theorem W_main_arg3 (c : Dev nD) : Pipeline.afterTail₀ cfgs dats 0 (V0 m) tailOps c main_arg3 = m ((c : Thread nD τ).loc main_arg3) :=
  (tail_keeps m dats c main_arg3 (by decide) fun op h => (args_unwritten_mem op (List.mem_append_right _ h)).2.2.2.1).trans (V_main_arg3 m c)
theorem W_main_arg4 (c : Dev nD) : Pipeline.afterTail₀ cfgs dats 0 (V0 m) tailOps c main_arg4 = m ((c : Thread nD τ).loc main_arg4) :=
  (tail_keeps m dats c main_arg4 (by decide) fun op h => (args_unwritten_mem op (List.mem_append_right _ h)).2.2.2.2).trans (V_main_arg4 m c)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the label window's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the frame post read at the five argument
    arrays — the features through their window, the others bypassing the region — is the frame claim's post. -/
theorem frame_of
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c)⟩) h

/-! ## The body's two conditions -/

/-- "This is the first of the core's eight steps": the accumulators are cleared. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is the last of the core's eight steps": the accumulators are written out. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live_in0 : ∀ t : Fin cfg0.N, cfg0.idle 0 (grid0.coords t) = false := by decide +kernel
theorem live_in1 : ∀ t : Fin cfg0.N, cfg0.idle 1 (grid0.coords t) = false := by decide +kernel
/-- Away from a core's last step the three output windows are idle and not written back. -/
theorem idle_out2 : ∀ t : Fin cfg0.N, ¬isLast (grid0.coords t) → cfg0.idle 2 (grid0.coords t) = true := by decide +kernel
theorem idle_out3 : ∀ t : Fin cfg0.N, ¬isLast (grid0.coords t) → cfg0.idle 3 (grid0.coords t) = true := by decide +kernel
theorem idle_out4 : ∀ t : Fin cfg0.N, ¬isLast (grid0.coords t) → cfg0.idle 4 (grid0.coords t) = true := by decide +kernel
theorem noFlush_out2 : ∀ t : Fin cfg0.N, ¬isLast (grid0.coords t) → (cfg0.win 2).flush t = false := by decide +kernel
theorem noFlush_out3 : ∀ t : Fin cfg0.N, ¬isLast (grid0.coords t) → (cfg0.win 3).flush t = false := by decide +kernel
theorem noFlush_out4 : ∀ t : Fin cfg0.N, ¬isLast (grid0.coords t) → (cfg0.win 4).flush t = false := by decide +kernel
/-- At a core's last step they are live. -/
theorem live_out2 : ∀ t : Fin cfg0.N, isLast (grid0.coords t) → cfg0.idle 2 (grid0.coords t) = false := by decide +kernel
theorem live_out3 : ∀ t : Fin cfg0.N, isLast (grid0.coords t) → cfg0.idle 3 (grid0.coords t) = false := by decide +kernel
theorem live_out4 : ∀ t : Fin cfg0.N, isLast (grid0.coords t) → cfg0.idle 4 (grid0.coords t) = false := by decide +kernel

/-! ## The memrefs the body is called with -/

abbrev ms0 (t : Fin cfg0.N) : Memref sig .tc .vmem S8192x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x8192 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x19x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x19x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x19x1 .f32 := win0_4.stage (cfg0.slots t 4)
abbrev hs4 (t : Fin cfg0.N) : (ms4 t).IsWhole := hstage0_4 ((cfg0.slots t 4).cast nbuf0_4)
/-- The three accumulators: running sums of the rows, of their squares, and the running counts. -/
abbrev accS : Memref sig .tc .vmem S19x256 .f32 := Memref.whole cc0_scratch0
abbrev accQ : Memref sig .tc .vmem S19x256 .f32 := Memref.whole cc0_scratch1
abbrev accN : Memref sig .tc .vmem S19x1 .f32 := Memref.whole cc0_scratch2
/-- One staging buffer of each output window, through which its contents are stated. -/
abbrev VO2 : View sig .tc .vmem S1x19x256 .f32 := (Memref.whole cc0_stg2_0 : Memref sig .tc .vmem S1x19x256 .f32).view
abbrev VO3 : View sig .tc .vmem S1x19x256 .f32 := (Memref.whole cc0_stg3_0 : Memref sig .tc .vmem S1x19x256 .f32).view
abbrev VO4 : View sig .tc .vmem S1x19x1 .f32 := (Memref.whole cc0_stg4_0 : Memref sig .tc .vmem S1x19x1 .f32).view

/-- The region's invariant of what is the kernel's own, with the three accumulators owned at some contents. -/
theorem PhiA0_eq (c : Dev nD) :
    (Pipeline.ΦA spec0 c : sProp 𝕄)
      = iprop(iprop((∃ d, owns (c : Thread nD τ) accS fullShare d) ∗ (∃ d, owns (c : Thread nD τ) accQ fullShare d) ∗ (∃ d, owns (c : Thread nD τ) accN fullShare d)) ∗ (∃ r, prngReg c r)) := by
  unfold Pipeline.ΦA; rw [scopedRest0_eq]; simp only [accS, accQ, accN, owns_whole]; try rfl

end Cert.Kernel.Hand

end
-- ==== Proof.KernelRunFirst.lean ====
/-
  The kernel body at the FIRST of a core's eight steps: the three accumulators are cleared, the block's four chunks
  of 2048 rows are added in (the one-hot product with the rows and with their squares, and the lane count of the
  one-hot), and nothing is stored into the output windows. What each accumulator ends with is found by the run, as the
  list of the pieces written into it.
-/
import proofs.«414262_j69063074120047_3_alg».proof.Proof.KernelAround

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two input blocks at their contents, the three idle output buffers handed back untouched, the
    accumulators at anything — the body runs and leaves each accumulator with the run's pieces written. -/
noncomputable def runFirst (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : isFirst i) (hc1 : ¬isLast i)
    (x0 : Vec F S8192x256 .f32) (x1 : Vec F S1x1x8192 .i32) :
    Σ' (LS : List (View.Piece (Elt F) S19x256 .f32)) (LQ : List (View.Piece (Elt F) S19x256 .f32)), { LN : List (View.Piece (Elt F) S19x1 .f32) //
      ∀ (xi2 xi3 : Vec F S1x19x256 .f32) (xi4 : Vec F S1x19x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ) ∗ (∃ f, arg9.view.loc (c : Thread nD τ) ↦[arg9.view.set]{fullShare} arg9.view.writes (Elt F) f LN)) -∗ K ⟨⟩))
          ⊢ wp frame (wpE (defs₀ (F := F)) Variants.none c none) E (cc0__estimator_cv_kernel i arg2 harg2 arg3 harg3 arg4 harg4 arg5 harg5 arg6 harg6 arg7 harg7 arg8 harg8 arg9 harg9) K } := by
  refine ⟨?_, ?_, ?_, fun xi2 xi3 xi4 E K => ?run⟩
  case run =>
    simp only [cc0__estimator_cv_kernel_eq_skeleton]; unfold cc0__estimator_cv_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.KernelRunMid.lean ====
/-
  The kernel body at a MIDDLE step of a core's eight (neither the first nor the last): the block's four chunks are added
  into the accumulators as the step before left them, and nothing is stored into the output windows.
-/
import proofs.«414262_j69063074120047_3_alg».proof.Proof.KernelRunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two input blocks at their contents, the three idle output buffers handed back untouched, the
    accumulators at what the step before left — the body runs and leaves each accumulator with the run's pieces written. -/
noncomputable def runMid (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : ¬isFirst i) (hc1 : ¬isLast i)
    (x0 : Vec F S8192x256 .f32) (x1 : Vec F S1x1x8192 .i32) (xs0 xs1 : Vec F S19x256 .f32) (xs2 : Vec F S19x1 .f32) :
    Σ' (LS : List (View.Piece (Elt F) S19x256 .f32)) (LQ : List (View.Piece (Elt F) S19x256 .f32)), { LN : List (View.Piece (Elt F) S19x1 .f32) //
      ∀ (xi2 xi3 : Vec F S1x19x256 .f32) (xi4 : Vec F S1x19x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ) ∗ (∃ f, arg9.view.loc (c : Thread nD τ) ↦[arg9.view.set]{fullShare} arg9.view.writes (Elt F) f LN)) -∗ K ⟨⟩))
          ⊢ wp frame (wpE (defs₀ (F := F)) Variants.none c none) E (cc0__estimator_cv_kernel i arg2 harg2 arg3 harg3 arg4 harg4 arg5 harg5 arg6 harg6 arg7 harg7 arg8 harg8 arg9 harg9) K } := by
  refine ⟨?_, ?_, ?_, fun xi2 xi3 xi4 E K => ?run⟩
  case run =>
    simp only [cc0__estimator_cv_kernel_eq_skeleton]; unfold cc0__estimator_cv_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.KernelRunLast.lean ====
/-
  The kernel body at the LAST of a core's eight steps: the block's four chunks are added into the accumulators as the
  step before left them, and the three accumulators are then copied into the output windows' buffers, which the
  pipeline writes back to the core's slot of the partial-sum arrays.
-/
import proofs.«414262_j69063074120047_3_alg».proof.Proof.KernelRunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two input blocks at their contents, the output buffers at anything, the accumulators at what
    the step before left — the body runs and leaves each accumulator and each output buffer with the run's pieces written. -/
noncomputable def runLast (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : ¬isFirst i) (hc1 : isLast i)
    (x0 : Vec F S8192x256 .f32) (x1 : Vec F S1x1x8192 .i32) (xs0 xs1 : Vec F S19x256 .f32) (xs2 : Vec F S19x1 .f32) :
    Σ' (L2 : List (View.Piece (Elt F) S1x19x256 .f32)) (L3 : List (View.Piece (Elt F) S1x19x256 .f32)) (L4 : List (View.Piece (Elt F) S1x19x1 .f32))
       (LS : List (View.Piece (Elt F) S19x256 .f32)) (LQ : List (View.Piece (Elt F) S19x256 .f32)), { LN : List (View.Piece (Elt F) S19x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ) ∗ (∃ f, arg9.view.loc (c : Thread nD τ) ↦[arg9.view.set]{fullShare} arg9.view.writes (Elt F) f LN)) -∗ K ⟨⟩))
          ⊢ wp frame (wpE (defs₀ (F := F)) Variants.none c none) E (cc0__estimator_cv_kernel i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0__estimator_cv_kernel_eq_skeleton]; unfold cc0__estimator_cv_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.Kernel.Hand

end
-- ==== Proof.KernelFrame.lean ====
/-
  The frame of the program: what the three accumulators hold after every grid point, by recursion on the point (the
  first of a core's eight steps clears and adds, the later ones add to what the step before left, the last also copies
  them out); the pipeline's proof data over that; the body obligation at every point, by the three runs; and the run of
  @main — the reshape, the region, the combine and update lines — to the state in which every array of the pipeline holds
  what the write-backs left and every other buffer what the later lines computed. The frame claim is that run read at
  the five argument arrays.
-/
import proofs.«414262_j69063074120047_3_alg».proof.Proof.KernelRunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three accumulators' contents: row sums, sums of squares, counts. -/
abbrev Accs (F : FTy → Type) [FloatOps F] := Vec F S19x256 .f32 × Vec F S19x256 .f32 × Vec F S19x1 .f32
/-- The three output buffers' contents. -/
abbrev Outs (F : FTy → Type) [FloatOps F] := Vec F S1x19x256 .f32 × Vec F S1x19x256 .f32 × Vec F S1x19x1 .f32

/-! ## The runs' pieces cover the buffers they are written into -/

theorem coverFirstS (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : isFirst i) (hc1 : ¬isLast i) (x0 : Vec F S8192x256 .f32) (x1 : Vec F S1x1x8192 .i32) (y : S19x256.Idx) :
    ∃ pc ∈ (runFirst c i arg2 harg2 arg3 harg3 arg4 harg4 arg5 harg5 arg6 harg6 arg7 harg7 arg8 harg8 arg9 harg9 hc0 hc1 x0 x1).1, y ∈ pc.1.set :=
  View.cover_of_tiledL (runFirst c i arg2 harg2 arg3 harg3 arg4 harg4 arg5 harg5 arg6 harg6 arg7 harg7 arg8 harg8 arg9 harg9 hc0 hc1 x0 x1).1 S19x256.size (by sl_kernel_rfl) y
theorem coverFirstQ (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : isFirst i) (hc1 : ¬isLast i) (x0 : Vec F S8192x256 .f32) (x1 : Vec F S1x1x8192 .i32) (y : S19x256.Idx) :
    ∃ pc ∈ (runFirst c i arg2 harg2 arg3 harg3 arg4 harg4 arg5 harg5 arg6 harg6 arg7 harg7 arg8 harg8 arg9 harg9 hc0 hc1 x0 x1).2.1, y ∈ pc.1.set :=
  View.cover_of_tiledL (runFirst c i arg2 harg2 arg3 harg3 arg4 harg4 arg5 harg5 arg6 harg6 arg7 harg7 arg8 harg8 arg9 harg9 hc0 hc1 x0 x1).2.1 S19x256.size (by sl_kernel_rfl) y
theorem coverFirstN (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : isFirst i) (hc1 : ¬isLast i) (x0 : Vec F S8192x256 .f32) (x1 : Vec F S1x1x8192 .i32) (y : S19x1.Idx) :
    ∃ pc ∈ (runFirst c i arg2 harg2 arg3 harg3 arg4 harg4 arg5 harg5 arg6 harg6 arg7 harg7 arg8 harg8 arg9 harg9 hc0 hc1 x0 x1).2.2.1, y ∈ pc.1.set :=
  View.cover_of_tiledL (runFirst c i arg2 harg2 arg3 harg3 arg4 harg4 arg5 harg5 arg6 harg6 arg7 harg7 arg8 harg8 arg9 harg9 hc0 hc1 x0 x1).2.2.1 S19x1.size (by sl_kernel_rfl) y

theorem coverMidS (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : ¬isFirst i) (hc1 : ¬isLast i) (x0 : Vec F S8192x256 .f32) (x1 : Vec F S1x1x8192 .i32) (xs0 xs1 : Vec F S19x256 .f32) (xs2 : Vec F S19x1 .f32) (y : S19x256.Idx) :
    ∃ pc ∈ (runMid c i arg2 harg2 arg3 harg3 arg4 harg4 arg5 harg5 arg6 harg6 arg7 harg7 arg8 harg8 arg9 harg9 hc0 hc1 x0 x1 xs0 xs1 xs2).1, y ∈ pc.1.set :=
  View.cover_of_tiledL (runMid c i arg2 harg2 arg3 harg3 arg4 harg4 arg5 harg5 arg6 harg6 arg7 harg7 arg8 harg8 arg9 harg9 hc0 hc1 x0 x1 xs0 xs1 xs2).1 S19x256.size (by sl_kernel_rfl) y
theorem coverMidQ (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : ¬isFirst i) (hc1 : ¬isLast i) (x0 : Vec F S8192x256 .f32) (x1 : Vec F S1x1x8192 .i32) (xs0 xs1 : Vec F S19x256 .f32) (xs2 : Vec F S19x1 .f32) (y : S19x256.Idx) :
    ∃ pc ∈ (runMid c i arg2 harg2 arg3 harg3 arg4 harg4 arg5 harg5 arg6 harg6 arg7 harg7 arg8 harg8 arg9 harg9 hc0 hc1 x0 x1 xs0 xs1 xs2).2.1, y ∈ pc.1.set :=
  View.cover_of_tiledL (runMid c i arg2 harg2 arg3 harg3 arg4 harg4 arg5 harg5 arg6 harg6 arg7 harg7 arg8 harg8 arg9 harg9 hc0 hc1 x0 x1 xs0 xs1 xs2).2.1 S19x256.size (by sl_kernel_rfl) y
theorem coverMidN (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : ¬isFirst i) (hc1 : ¬isLast i) (x0 : Vec F S8192x256 .f32) (x1 : Vec F S1x1x8192 .i32) (xs0 xs1 : Vec F S19x256 .f32) (xs2 : Vec F S19x1 .f32) (y : S19x1.Idx) :
    ∃ pc ∈ (runMid c i arg2 harg2 arg3 harg3 arg4 harg4 arg5 harg5 arg6 harg6 arg7 harg7 arg8 harg8 arg9 harg9 hc0 hc1 x0 x1 xs0 xs1 xs2).2.2.1, y ∈ pc.1.set :=
  View.cover_of_tiledL (runMid c i arg2 harg2 arg3 harg3 arg4 harg4 arg5 harg5 arg6 harg6 arg7 harg7 arg8 harg8 arg9 harg9 hc0 hc1 x0 x1 xs0 xs1 xs2).2.2.1 S19x1.size (by sl_kernel_rfl) y

theorem coverLast2 (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : ¬isFirst i) (hc1 : isLast i) (x0 : Vec F S8192x256 .f32) (x1 : Vec F S1x1x8192 .i32) (xs0 xs1 : Vec F S19x256 .f32) (xs2 : Vec F S19x1 .f32) (y : S1x19x256.Idx) :
    ∃ pc ∈ (runLast c i arg2 harg2 arg3 harg3 arg4 harg4 arg5 harg5 arg6 harg6 arg7 harg7 arg8 harg8 arg9 harg9 hc0 hc1 x0 x1 xs0 xs1 xs2).1, y ∈ pc.1.set :=
  View.cover_of_tiledL (runLast c i arg2 harg2 arg3 harg3 arg4 harg4 arg5 harg5 arg6 harg6 arg7 harg7 arg8 harg8 arg9 harg9 hc0 hc1 x0 x1 xs0 xs1 xs2).1 S1x19x256.size (by sl_kernel_rfl) y
theorem coverLast3 (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : ¬isFirst i) (hc1 : isLast i) (x0 : Vec F S8192x256 .f32) (x1 : Vec F S1x1x8192 .i32) (xs0 xs1 : Vec F S19x256 .f32) (xs2 : Vec F S19x1 .f32) (y : S1x19x256.Idx) :
    ∃ pc ∈ (runLast c i arg2 harg2 arg3 harg3 arg4 harg4 arg5 harg5 arg6 harg6 arg7 harg7 arg8 harg8 arg9 harg9 hc0 hc1 x0 x1 xs0 xs1 xs2).2.1, y ∈ pc.1.set :=
  View.cover_of_tiledL (runLast c i arg2 harg2 arg3 harg3 arg4 harg4 arg5 harg5 arg6 harg6 arg7 harg7 arg8 harg8 arg9 harg9 hc0 hc1 x0 x1 xs0 xs1 xs2).2.1 S1x19x256.size (by sl_kernel_rfl) y
theorem coverLast4 (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : ¬isFirst i) (hc1 : isLast i) (x0 : Vec F S8192x256 .f32) (x1 : Vec F S1x1x8192 .i32) (xs0 xs1 : Vec F S19x256 .f32) (xs2 : Vec F S19x1 .f32) (y : S1x19x1.Idx) :
    ∃ pc ∈ (runLast c i arg2 harg2 arg3 harg3 arg4 harg4 arg5 harg5 arg6 harg6 arg7 harg7 arg8 harg8 arg9 harg9 hc0 hc1 x0 x1 xs0 xs1 xs2).2.2.1, y ∈ pc.1.set :=
  View.cover_of_tiledL (runLast c i arg2 harg2 arg3 harg3 arg4 harg4 arg5 harg5 arg6 harg6 arg7 harg7 arg8 harg8 arg9 harg9 hc0 hc1 x0 x1 xs0 xs1 xs2).2.2.1 S1x19x1.size (by sl_kernel_rfl) y
theorem coverLastS (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : ¬isFirst i) (hc1 : isLast i) (x0 : Vec F S8192x256 .f32) (x1 : Vec F S1x1x8192 .i32) (xs0 xs1 : Vec F S19x256 .f32) (xs2 : Vec F S19x1 .f32) (y : S19x256.Idx) :
    ∃ pc ∈ (runLast c i arg2 harg2 arg3 harg3 arg4 harg4 arg5 harg5 arg6 harg6 arg7 harg7 arg8 harg8 arg9 harg9 hc0 hc1 x0 x1 xs0 xs1 xs2).2.2.2.1, y ∈ pc.1.set :=
  View.cover_of_tiledL (runLast c i arg2 harg2 arg3 harg3 arg4 harg4 arg5 harg5 arg6 harg6 arg7 harg7 arg8 harg8 arg9 harg9 hc0 hc1 x0 x1 xs0 xs1 xs2).2.2.2.1 S19x256.size (by sl_kernel_rfl) y
theorem coverLastQ (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : ¬isFirst i) (hc1 : isLast i) (x0 : Vec F S8192x256 .f32) (x1 : Vec F S1x1x8192 .i32) (xs0 xs1 : Vec F S19x256 .f32) (xs2 : Vec F S19x1 .f32) (y : S19x256.Idx) :
    ∃ pc ∈ (runLast c i arg2 harg2 arg3 harg3 arg4 harg4 arg5 harg5 arg6 harg6 arg7 harg7 arg8 harg8 arg9 harg9 hc0 hc1 x0 x1 xs0 xs1 xs2).2.2.2.2.1, y ∈ pc.1.set :=
  View.cover_of_tiledL (runLast c i arg2 harg2 arg3 harg3 arg4 harg4 arg5 harg5 arg6 harg6 arg7 harg7 arg8 harg8 arg9 harg9 hc0 hc1 x0 x1 xs0 xs1 xs2).2.2.2.2.1 S19x256.size (by sl_kernel_rfl) y
theorem coverLastN (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : ¬isFirst i) (hc1 : isLast i) (x0 : Vec F S8192x256 .f32) (x1 : Vec F S1x1x8192 .i32) (xs0 xs1 : Vec F S19x256 .f32) (xs2 : Vec F S19x1 .f32) (y : S19x1.Idx) :
    ∃ pc ∈ (runLast c i arg2 harg2 arg3 harg3 arg4 harg4 arg5 harg5 arg6 harg6 arg7 harg7 arg8 harg8 arg9 harg9 hc0 hc1 x0 x1 xs0 xs1 xs2).2.2.2.2.2.1, y ∈ pc.1.set :=
  View.cover_of_tiledL (runLast c i arg2 harg2 arg3 harg3 arg4 harg4 arg5 harg5 arg6 harg6 arg7 harg7 arg8 harg8 arg9 harg9 hc0 hc1 x0 x1 xs0 xs1 xs2).2.2.2.2.2.1 S19x1.size (by sl_kernel_rfl) y

/-! ## What a step leaves, case by case -/

/-- The accumulators after a core's first step: the run's pieces read back. -/
def accFirst (c : Dev nD) (t : Fin cfg0.N) (h0 : isFirst (grid0.coords t)) (h1 : ¬isLast (grid0.coords t)) : Accs F :=
  (accS.view.read (Elt F) (accS.view.writes (Elt F) accS.view.junk (runFirst c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t)).1),
   accQ.view.read (Elt F) (accQ.view.writes (Elt F) accQ.view.junk (runFirst c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t)).2.1),
   accN.view.read (Elt F) (accN.view.writes (Elt F) accN.view.junk (runFirst c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t)).2.2.1))
/-- After a middle step, over what the step before left (`p`). -/
def accMid (c : Dev nD) (t : Fin cfg0.N) (h0 : ¬isFirst (grid0.coords t)) (h1 : ¬isLast (grid0.coords t)) (p : Accs F) : Accs F :=
  (accS.view.read (Elt F) (accS.view.writes (Elt F) accS.view.junk (runMid c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2).1),
   accQ.view.read (Elt F) (accQ.view.writes (Elt F) accQ.view.junk (runMid c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2).2.1),
   accN.view.read (Elt F) (accN.view.writes (Elt F) accN.view.junk (runMid c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2).2.2.1))
/-- After a core's last step. -/
def accLast (c : Dev nD) (t : Fin cfg0.N) (h0 : ¬isFirst (grid0.coords t)) (h1 : isLast (grid0.coords t)) (p : Accs F) : Accs F :=
  (accS.view.read (Elt F) (accS.view.writes (Elt F) accS.view.junk (runLast c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2).2.2.2.1),
   accQ.view.read (Elt F) (accQ.view.writes (Elt F) accQ.view.junk (runLast c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2).2.2.2.2.1),
   accN.view.read (Elt F) (accN.view.writes (Elt F) accN.view.junk (runLast c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2).2.2.2.2.2.1))
/-- The output buffers after a core's last step. -/
def outLast (c : Dev nD) (t : Fin cfg0.N) (h0 : ¬isFirst (grid0.coords t)) (h1 : isLast (grid0.coords t)) (p : Accs F) : Outs F :=
  (VO2.read (Elt F) (VO2.writes (Elt F) VO2.junk (runLast c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2).1),
   VO3.read (Elt F) (VO3.writes (Elt F) VO3.junk (runLast c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2).2.1),
   VO4.read (Elt F) (VO4.writes (Elt F) VO4.junk (runLast c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2).2.2.1))
/-- At the other steps the output windows are idle: a placeholder nothing consults. -/
def outIdle : Outs F := (VO2.read (Elt F) VO2.junk, VO3.read (Elt F) VO3.junk, VO4.read (Elt F) VO4.junk)

/-! ## The accumulation over the grid -/

/-- What the output buffers and the accumulators hold after the body at position `n`. -/
def stateAt (c : Dev nD) : (n : ℕ) → n < cfg0.N → Outs F × Accs F
  | 0, hn => (outIdle, accFirst m c ⟨0, hn⟩ ((isFirst_iff ⟨0, hn⟩).mpr (Nat.zero_mod _)) (fun h => (fun h => by (try dsimp only at h); omega) ((isLast_iff ⟨0, hn⟩).mp h)))
  | n + 1, hn =>
    if h0 : (n + 1) % 8 = 0 then
      if h1 : (n + 1) % 8 = 7 then
        False.elim (by omega)
      else
        (outIdle, accFirst m c ⟨n + 1, hn⟩ ((isFirst_iff ⟨n + 1, hn⟩).mpr h0) (fun h => h1 ((isLast_iff ⟨n + 1, hn⟩).mp h)))
    else
      if h1 : (n + 1) % 8 = 7 then
        (outLast m c ⟨n + 1, hn⟩ (fun h => h0 ((isFirst_iff ⟨n + 1, hn⟩).mp h)) ((isLast_iff ⟨n + 1, hn⟩).mpr h1) (stateAt c n (Nat.lt_of_succ_lt hn)).2,
         accLast m c ⟨n + 1, hn⟩ (fun h => h0 ((isFirst_iff ⟨n + 1, hn⟩).mp h)) ((isLast_iff ⟨n + 1, hn⟩).mpr h1) (stateAt c n (Nat.lt_of_succ_lt hn)).2)
      else
        (outIdle, accMid m c ⟨n + 1, hn⟩ (fun h => h0 ((isFirst_iff ⟨n + 1, hn⟩).mp h)) (fun h => h1 ((isLast_iff ⟨n + 1, hn⟩).mp h)) (stateAt c n (Nat.lt_of_succ_lt hn)).2)

theorem stateAt_first (c : Dev nD) (t : Fin cfg0.N) (h0 : t.val % 8 = 0) (h1 : ¬t.val % 8 = 7) :
    stateAt m c t.val t.isLt = (outIdle, accFirst m c t ((isFirst_iff t).mpr h0) (fun h => h1 ((isLast_iff t).mp h))) := by
  obtain ⟨n, hn⟩ := t
  cases n with
  | zero => exact rfl
  | succ n => exact (dif_pos h0).trans ((dif_neg h1).trans rfl)

theorem stateAt_mid (c : Dev nD) (t : Fin cfg0.N) (h0 : ¬t.val % 8 = 0) (h1 : ¬t.val % 8 = 7) :
    stateAt m c t.val t.isLt = (outIdle, accMid m c t (fun h => h0 ((isFirst_iff t).mp h)) (fun h => h1 ((isLast_iff t).mp h))
      (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg0.N) (h0 : ¬t.val % 8 = 0) (h1 : t.val % 8 = 7) :
    stateAt m c t.val t.isLt = (outLast m c t (fun h => h0 ((isFirst_iff t).mp h)) ((isLast_iff t).mpr h1) (stateAt m c (t.val - 1) (Nat.lt_of_le_of_lt (Nat.sub_le _ _) t.isLt)).2,
      accLast m c t (fun h => h0 ((isFirst_iff t).mp h)) ((isLast_iff t).mpr h1) (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over; afterwards the three
    accumulators at what the point before left. -/
def PhiS (c : Dev nD) : (n : ℕ) → n ≤ cfg0.N → sProp 𝕄
  | 0, _ => Pipeline.ΦA spec0 c
  | n + 1, hn => iprop(iprop(owns (c : Thread nD τ) accS fullShare ((stateAt m c n hn).2.1) ∗ owns (c : Thread nD τ) accQ fullShare ((stateAt m c n hn).2.2.1) ∗ owns (c : Thread nD τ) accN fullShare ((stateAt m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accS fullShare ((stateAt m c n hn).2.1) ∗ owns (c : Thread nD τ) accQ fullShare ((stateAt m c n hn).2.2.1) ∗ owns (c : Thread nD τ) accN fullShare ((stateAt m c n hn).2.2.2)) ∗ (∃ r, prngReg c r)) := rfl
theorem PhiS_pos (c : Dev nD) (n : ℕ) (h : n ≤ cfg0.N) (hz : n ≠ 0) :
    PhiS m c n h = iprop(iprop(owns (c : Thread nD τ) accS fullShare ((stateAt m c (n - 1) (by omega)).2.1) ∗ owns (c : Thread nD τ) accQ fullShare ((stateAt m c (n - 1) (by omega)).2.2.1) ∗ owns (c : Thread nD τ) accN fullShare ((stateAt m c (n - 1) (by omega)).2.2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stateAt m c t.val t.isLt).1.1
    | ⟨3, _⟩ => (stateAt m c t.val t.isLt).1.2.1
    | ⟨4, _⟩ => (stateAt m c t.val t.isLt).1.2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (stateAt m c t.val t.isLt).1.1 := by dsimp only [dats]
theorem after3 (c : Dev nD) (t : Fin cfg0.N) : (dats m 0 c).after 3 t = (stateAt m c t.val t.isLt).1.2.1 := by dsimp only [dats]
theorem after4 (c : Dev nD) (t : Fin cfg0.N) : (dats m 0 c).after 4 t = (stateAt m c t.val t.isLt).1.2.2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) :
    (dats m 0 c).leavesExact 0 t = owns (c : Thread nD τ) (ms0 t) fullShare (iblk m c 0 t) := by
  unfold Dat.leavesExact; rw [live_in0 t, after0]
theorem leaves_in1 (c : Dev nD) (t : Fin cfg0.N) :
    (dats m 0 c).leavesExact 1 t = owns (c : Thread nD τ) (ms1 t) fullShare (iblk m c 1 t) := by
  unfold Dat.leavesExact; rw [live_in1 t, after1]

set_option maxHeartbeats 8000000 in
/-- The body at any point: the grid position says which of the three runs applies; the invariant hands the body the
    accumulators at what the point before left (at anything before the first point), and takes them back at this point's
    contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves_in0, leaves_in1]
  have hN : t.val < 16 := lt_of_lt_of_eq t.isLt (show cfg0.N = 16 from N_0)
  by_cases h0 : t.val % 8 = 0
  · by_cases h1 : t.val % 8 = 7
    · exfalso; omega
    · have hl : ¬isLast (grid0.coords t) := fun h => h1 ((isLast_iff t).mp h)
      rw [Dat.leavesExact_idle (dats m 0 c) 2 t (idle_out2 t hl) (noFlush_out2 t hl),
        Dat.leavesExact_idle (dats m 0 c) 3 t (idle_out3 t hl) (noFlush_out3 t hl),
        Dat.leavesExact_idle (dats m 0 c) 4 t (idle_out4 t hl) (noFlush_out4 t hl)]
      rw [stateAt_first m c t h0 h1]
      unfold accFirst; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ _ _ _ _ ((isFirst_iff t).mpr h0) hl (iblk m c 0 t) (iblk m c 1 t)).2.2.2 _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (coverFirstS c _ _ _ _ _ _ _ _ _ _ _ _ _ _ _ _ _ _ _ _ _)
            isplitl [HS1]
            · unfold owns; iexists _; isplitr
              swap; · iexact HS1
              ipureintro; exact View.read_writes_of_cover _ _ _ _ _ (coverFirstQ c _ _ _ _ _ _ _ _ _ _ _ _ _ _ _ _ _ _ _ _ _)
            unfold owns; iexists _; isplitr
            swap; · iexact HS2
            ipureintro; exact View.read_writes_of_cover _ _ _ _ _ (coverFirstN c _ _ _ _ _ _ _ _ _ _ _ _ _ _ _ _ _ _ _ _ _)
          iexact Hg
        isplitl [Ho]; · iexact Ho
        isplitl [H0]; · iexact H0
        isplitl [H1]; · iexact H1
        isplitl [H2]; · iexists _; iexact H2
        isplitl [H3]; · iexists _; iexact H3
        iexists _; iexact H4
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ _ _ _ _ ((isFirst_iff t).mpr h0) hl (iblk m c 0 t) (iblk m c 1 t)).2.2.2 _ _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (coverFirstS c _ _ _ _ _ _ _ _ _ _ _ _ _ _ _ _ _ _ _ _ _)
            isplitl [HS1]
            · unfold owns; iexists _; isplitr
              swap; · iexact HS1
              ipureintro; exact View.read_writes_of_cover _ _ _ _ _ (coverFirstQ c _ _ _ _ _ _ _ _ _ _ _ _ _ _ _ _ _ _ _ _ _)
            unfold owns; iexists _; isplitr
            swap; · iexact HS2
            ipureintro; exact View.read_writes_of_cover _ _ _ _ _ (coverFirstN c _ _ _ _ _ _ _ _ _ _ _ _ _ _ _ _ _ _ _ _ _)
          iexact Hg
        isplitl [Ho]; · iexact Ho
        isplitl [H0]; · iexact H0
        isplitl [H1]; · iexact H1
        isplitl [H2]; · iexists _; iexact H2
        isplitl [H3]; · iexists _; iexact H3
        iexists _; iexact H4
  · have hf : ¬isFirst (grid0.coords t) := fun h => h0 ((isFirst_iff t).mp h)
    have hz : t.val ≠ 0 := fun hz => h0 (by rw [hz])
    by_cases h1 : t.val % 8 = 7
    · have hl : isLast (grid0.coords t) := (isLast_iff t).mpr h1
      rw [show (dats m 0 c).leavesExact 2 t = owns (c : Thread nD τ) (ms2 t) fullShare ((dats m 0 c).after 2 t) from by
        unfold Dat.leavesExact; rw [live_out2 t hl], after2]
      rw [show (dats m 0 c).leavesExact 3 t = owns (c : Thread nD τ) (ms3 t) fullShare ((dats m 0 c).after 3 t) from by
        unfold Dat.leavesExact; rw [live_out3 t hl], after3]
      rw [show (dats m 0 c).leavesExact 4 t = owns (c : Thread nD τ) (ms4 t) fullShare ((dats m 0 c).after 4 t) from by
        unfold Dat.leavesExact; rw [live_out4 t hl], after4]
      rw [stateAt_last m c t h0 h1]
      unfold outLast accLast; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ _ _ hf hl (iblk m c 0 t) (iblk m c 1 t) _ _ _).2.2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      isplitl [HS2]; · iexact HS2
      iintro ⟨H0, H1, ⟨%e2, H2⟩, ⟨%e3, H3⟩, ⟨%e4, H4⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverLastS c _ _ _ _ _ _ _ _ _ _ _ _ _ _ _ _ _ _ _ _ _ _ _ _)
          isplitl [HS1]
          · unfold owns; iexists _; isplitr
            swap; · iexact HS1
            ipureintro; exact View.read_writes_of_cover _ _ _ _ _ (coverLastQ c _ _ _ _ _ _ _ _ _ _ _ _ _ _ _ _ _ _ _ _ _ _ _ _)
          unfold owns; iexists _; isplitr
          swap; · iexact HS2
          ipureintro; exact View.read_writes_of_cover _ _ _ _ _ (coverLastN c _ _ _ _ _ _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverLast2 c _ _ _ _ _ _ _ _ _ _ _ _ _ _ _ _ _ _ _ _ _ _ _ _)
      isplitl [H3]
      · unfold owns; iexists _; isplitr
        swap; · iexact H3
        ipureintro; exact View.read_writes_of_cover _ _ _ _ _ (coverLast3 c _ _ _ _ _ _ _ _ _ _ _ _ _ _ _ _ _ _ _ _ _ _ _ _)
      unfold owns; iexists _; isplitr
      swap; · iexact H4
      ipureintro; exact View.read_writes_of_cover _ _ _ _ _ (coverLast4 c _ _ _ _ _ _ _ _ _ _ _ _ _ _ _ _ _ _ _ _ _ _ _ _)
    · have hl : ¬isLast (grid0.coords t) := fun h => h1 ((isLast_iff t).mp h)
      rw [Dat.leavesExact_idle (dats m 0 c) 2 t (idle_out2 t hl) (noFlush_out2 t hl),
        Dat.leavesExact_idle (dats m 0 c) 3 t (idle_out3 t hl) (noFlush_out3 t hl),
        Dat.leavesExact_idle (dats m 0 c) 4 t (idle_out4 t hl) (noFlush_out4 t hl)]
      rw [stateAt_mid m c t h0 h1]
      unfold accMid; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ _ _ _ _ hf hl (iblk m c 0 t) (iblk m c 1 t) _ _ _).2.2.2 _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverMidS c _ _ _ _ _ _ _ _ _ _ _ _ _ _ _ _ _ _ _ _ _ _ _ _)
          isplitl [HS1]
          · unfold owns; iexists _; isplitr
            swap; · iexact HS1
            ipureintro; exact View.read_writes_of_cover _ _ _ _ _ (coverMidQ c _ _ _ _ _ _ _ _ _ _ _ _ _ _ _ _ _ _ _ _ _ _ _ _)
          unfold owns; iexists _; isplitr
          swap; · iexact HS2
          ipureintro; exact View.read_writes_of_cover _ _ _ _ _ (coverMidN c _ _ _ _ _ _ _ _ _ _ _ _ _ _ _ _ _ _ _ _ _ _ _ _)
        iexact Hg
      isplitl [Ho]; · iexact Ho
      isplitl [H0]; · iexact H0
      isplitl [H1]; · iexact H1
      isplitl [H2]; · iexists _; iexact H2
      isplitl [H3]; · iexists _; iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of @main terminates, every array of the pipeline ending at what the write-backs left
    and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KernelIdealAround.lean ====
/-
  @main of the program around its one pallas_call: what each TensorCore buffer holds when the region is entered
  (the label array reshaped to sixteen rows of 8192 lanes, every other buffer as launched), the host lines that follow
  the region (the combine of the two cores' partial sums and the update formulas) touching no array the pipeline
  stages, the windows' blocks at a grid point, the two conditions of the body read off the grid position — the
  accumulators are cleared at the first of a core's eight steps and written out at the last — and, from those, where the
  three output windows are idle.
-/
import proofs.«414262_j69063074120047_3_alg».proof.Proof.Gen.KernelIdeal.Launch
import proofs.«414262_j69063074120047_3_alg».proof.Proof.Gen.KernelIdeal.Skeleton
import proofs.«414262_j69063074120047_3_alg».proof.Proof.Gen.KernelIdeal.Points
import proofs.«414262_j69063074120047_3_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The lines after the region, stretch by stretch: the combine and the update formulas, the two calls of the
    outlined select among them. -/
abbrev tailOps : List (List (HloOp τ sig (Elt F))) := [hostOps1, hostOps1_1, hostOps1_2, hostOps1_3, hostOps1_4]

/-- Core `c`'s buffer contents when the region is entered: after the one reshape of the labels. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the reshape, the region, then the later lines: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- No later line writes an array the pipeline stages: each writes its own result buffer only. -/
theorem keeps_of {ops : List (HloOp τ sig (Elt F))}
    (h : ops.Forall fun op => ∀ w, Proc.devRef .tc (Pipeline.arrRef spec0 w) ∉ op.writes) :
    ∀ op ∈ ops, ∀ w, Proc.devRef .tc (Pipeline.arrRef spec0 w) ∉ op.writes :=
  List.forall_iff_forall_mem.mp h

theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.reshape_writes, Finset.mem_singleton]
  repeat' apply And.intro
  all_goals intro w; fin_cases w <;> exact StableHlo.devRef_ne_of_ne (by decide)

theorem hostOps1_1_keeps : (hostOps1_1 : List (HloOp τ sig (Elt F))).Forall fun op => ∀ w, Proc.devRef .tc (Pipeline.arrRef spec0 w) ∉ op.writes := by
  simp only [hostOps1_1, StableHlo.TRef.unary, StableHlo.TRef.ternary, List.Forall, StableHlo.nullary_writes, StableHlo.unary_writes, StableHlo.binary_writes, StableHlo.ternary_writes, StableHlo.reshape_writes, Finset.mem_singleton]
  repeat' apply And.intro
  all_goals intro w; fin_cases w <;> exact StableHlo.devRef_ne_of_ne (by decide)
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.reshape_writes, Finset.mem_singleton]
  repeat' apply And.intro
  all_goals intro w; fin_cases w <;> exact StableHlo.devRef_ne_of_ne (by decide)
theorem hostOps1_3_keeps : (hostOps1_3 : List (HloOp τ sig (Elt F))).Forall fun op => ∀ w, Proc.devRef .tc (Pipeline.arrRef spec0 w) ∉ op.writes := by
  simp only [hostOps1_3, StableHlo.TRef.unary, StableHlo.TRef.ternary, List.Forall, StableHlo.nullary_writes, StableHlo.unary_writes, StableHlo.binary_writes, StableHlo.ternary_writes, StableHlo.reshape_writes, Finset.mem_singleton]
  repeat' apply And.intro
  all_goals intro w; fin_cases w <;> exact StableHlo.devRef_ne_of_ne (by decide)
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.reshape_writes, Finset.mem_singleton]
  repeat' apply And.intro
  all_goals intro w; fin_cases w <;> exact StableHlo.devRef_ne_of_ne (by decide)

/-- The later lines touch unscoped TensorCore buffers only: with nothing prefetched each is an array of the pipeline or
    a buffer that bypasses the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl
  · exact keeps_of hostOps1_keeps op hop
  · exact keeps_of hostOps1_1_keeps op hop
  · exact keeps_of hostOps1_2_keeps op hop
  · exact keeps_of hostOps1_3_keeps op hop
  · exact keeps_of hostOps1_4_keeps op hop

/-! ## The argument arrays are never written -/

/-- A reference none of the later lines writes and that is no array of the pipeline ends at what the region found. -/
theorem tail_keeps (dats : (p : Fin _) → (c : Dev nD) → Dat τ (Elt F) Unit ℕ (UR sig nD τ) ℕ (cfgs p) c) (c : Dev nD)
    (b : Ref sig .tc) (hb : ∀ w, Pipeline.arrRef spec0 w ≠ b)
    (hw : ∀ op ∈ (tailOps (F := F)).flatten, Proc.devRef (τ := τ) .tc b ∉ op.writes) :
    Pipeline.afterTail₀ cfgs dats 0 (V0 m) tailOps c b = V m c b := by
  unfold Pipeline.afterTail₀
  rw [StableHlo.after_of_forall_not_mem (b := Proc.devRef .tc b) _ _ hw,
    Pipeline.withArrays_of_ne _ c (V0 m c) _ b hb]

/-- The five argument arrays are written by no line of @main. -/
theorem args_unwritten : ((hostOps0 (F := F)) ++ (tailOps (F := F)).flatten).Forall fun op =>
    Proc.devRef (τ := τ) .tc main_arg0 ∉ op.writes ∧ Proc.devRef (τ := τ) .tc main_arg1 ∉ op.writes
    ∧ Proc.devRef (τ := τ) .tc main_arg2 ∉ op.writes ∧ Proc.devRef (τ := τ) .tc main_arg3 ∉ op.writes
    ∧ Proc.devRef (τ := τ) .tc main_arg4 ∉ op.writes := by
  simp only [tailOps, hostOps0, hostOps1, hostOps1_1, hostOps1_2, hostOps1_3, hostOps1_4, StableHlo.TRef.unary, StableHlo.TRef.ternary,
    List.flatten_cons, List.flatten_nil, List.append_nil, List.cons_append, List.nil_append, List.Forall,
    StableHlo.nullary_writes, StableHlo.unary_writes, StableHlo.binary_writes, StableHlo.ternary_writes, StableHlo.reshape_writes, Finset.mem_singleton]
  repeat' apply And.intro
  all_goals exact StableHlo.devRef_ne_of_ne (by decide)

theorem V_of_unwritten (c : Dev nD) (b : Ref sig .tc)
    (hw : ∀ op ∈ (hostOps0 (F := F)), Proc.devRef (τ := τ) .tc b ∉ op.writes) : V m c b = m ((c : Thread nD τ).loc b) :=
  StableHlo.after_of_forall_not_mem (b := Proc.devRef .tc b) _ _ (by
    simpa only [List.flatten_cons, List.flatten_nil, List.append_nil] using hw)

theorem args_unwritten_mem : ∀ op ∈ (hostOps0 (F := F)) ++ (tailOps (F := F)).flatten,
    Proc.devRef (τ := τ) .tc main_arg0 ∉ op.writes ∧ Proc.devRef (τ := τ) .tc main_arg1 ∉ op.writes
    ∧ Proc.devRef (τ := τ) .tc main_arg2 ∉ op.writes ∧ Proc.devRef (τ := τ) .tc main_arg3 ∉ op.writes
    ∧ Proc.devRef (τ := τ) .tc main_arg4 ∉ op.writes := List.forall_iff_forall_mem.mp args_unwritten

theorem V_main_arg0 (c : Dev nD) : V m c main_arg0 = m ((c : Thread nD τ).loc main_arg0) :=
  V_of_unwritten m c _ fun op h => (args_unwritten_mem op (List.mem_append_left _ h)).1
theorem V_main_arg1 (c : Dev nD) : V m c main_arg1 = m ((c : Thread nD τ).loc main_arg1) :=
  V_of_unwritten m c _ fun op h => (args_unwritten_mem op (List.mem_append_left _ h)).2.1
theorem V_main_arg2 (c : Dev nD) : V m c main_arg2 = m ((c : Thread nD τ).loc main_arg2) :=
  V_of_unwritten m c _ fun op h => (args_unwritten_mem op (List.mem_append_left _ h)).2.2.1
theorem V_main_arg3 (c : Dev nD) : V m c main_arg3 = m ((c : Thread nD τ).loc main_arg3) :=
  V_of_unwritten m c _ fun op h => (args_unwritten_mem op (List.mem_append_left _ h)).2.2.2.1
theorem V_main_arg4 (c : Dev nD) : V m c main_arg4 = m ((c : Thread nD τ).loc main_arg4) :=
  V_of_unwritten m c _ fun op h => (args_unwritten_mem op (List.mem_append_left _ h)).2.2.2.2

variable (dats : (p : Fin 1) → (c : Dev nD) → Dat τ (Elt F) Unit ℕ (UR sig nD τ) ℕ (cfgs p) c)

theorem W_main_arg1 (c : Dev nD) : Pipeline.afterTail₀ cfgs dats 0 (V0 m) tailOps c main_arg1 = m ((c : Thread nD τ).loc main_arg1) :=
  (tail_keeps m dats c main_arg1 (by decide) fun op h => (args_unwritten_mem op (List.mem_append_right _ h)).2.1).trans (V_main_arg1 m c)
theorem W_main_arg2 (c : Dev nD) : Pipeline.afterTail₀ cfgs dats 0 (V0 m) tailOps c main_arg2 = m ((c : Thread nD τ).loc main_arg2) :=
  (tail_keeps m dats c main_arg2 (by decide) fun op h => (args_unwritten_mem op (List.mem_append_right _ h)).2.2.1).trans (V_main_arg2 m c)
theorem W_main_arg3 (c : Dev nD) : Pipeline.afterTail₀ cfgs dats 0 (V0 m) tailOps c main_arg3 = m ((c : Thread nD τ).loc main_arg3) :=
  (tail_keeps m dats c main_arg3 (by decide) fun op h => (args_unwritten_mem op (List.mem_append_right _ h)).2.2.2.1).trans (V_main_arg3 m c)
theorem W_main_arg4 (c : Dev nD) : Pipeline.afterTail₀ cfgs dats 0 (V0 m) tailOps c main_arg4 = m ((c : Thread nD τ).loc main_arg4) :=
  (tail_keeps m dats c main_arg4 (by decide) fun op h => (args_unwritten_mem op (List.mem_append_right _ h)).2.2.2.2).trans (V_main_arg4 m c)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the label window's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the frame post read at the five argument
    arrays — the features through their window, the others bypassing the region — is the frame claim's post. -/
theorem frame_of
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c)⟩) h

/-! ## The body's two conditions -/

/-- "This is the first of the core's eight steps": the accumulators are cleared. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is the last of the core's eight steps": the accumulators are written out. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live_in0 : ∀ t : Fin cfg0.N, cfg0.idle 0 (grid0.coords t) = false := by decide +kernel
theorem live_in1 : ∀ t : Fin cfg0.N, cfg0.idle 1 (grid0.coords t) = false := by decide +kernel
/-- Away from a core's last step the three output windows are idle and not written back. -/
theorem idle_out2 : ∀ t : Fin cfg0.N, ¬isLast (grid0.coords t) → cfg0.idle 2 (grid0.coords t) = true := by decide +kernel
theorem idle_out3 : ∀ t : Fin cfg0.N, ¬isLast (grid0.coords t) → cfg0.idle 3 (grid0.coords t) = true := by decide +kernel
theorem idle_out4 : ∀ t : Fin cfg0.N, ¬isLast (grid0.coords t) → cfg0.idle 4 (grid0.coords t) = true := by decide +kernel
theorem noFlush_out2 : ∀ t : Fin cfg0.N, ¬isLast (grid0.coords t) → (cfg0.win 2).flush t = false := by decide +kernel
theorem noFlush_out3 : ∀ t : Fin cfg0.N, ¬isLast (grid0.coords t) → (cfg0.win 3).flush t = false := by decide +kernel
theorem noFlush_out4 : ∀ t : Fin cfg0.N, ¬isLast (grid0.coords t) → (cfg0.win 4).flush t = false := by decide +kernel
/-- At a core's last step they are live. -/
theorem live_out2 : ∀ t : Fin cfg0.N, isLast (grid0.coords t) → cfg0.idle 2 (grid0.coords t) = false := by decide +kernel
theorem live_out3 : ∀ t : Fin cfg0.N, isLast (grid0.coords t) → cfg0.idle 3 (grid0.coords t) = false := by decide +kernel
theorem live_out4 : ∀ t : Fin cfg0.N, isLast (grid0.coords t) → cfg0.idle 4 (grid0.coords t) = false := by decide +kernel

/-! ## The memrefs the body is called with -/

abbrev ms0 (t : Fin cfg0.N) : Memref sig .tc .vmem S8192x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x8192 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x19x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x19x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x19x1 .f32 := win0_4.stage (cfg0.slots t 4)
abbrev hs4 (t : Fin cfg0.N) : (ms4 t).IsWhole := hstage0_4 ((cfg0.slots t 4).cast nbuf0_4)
/-- The three accumulators: running sums of the rows, of their squares, and the running counts. -/
abbrev accS : Memref sig .tc .vmem S19x256 .f32 := Memref.whole cc0_scratch0
abbrev accQ : Memref sig .tc .vmem S19x256 .f32 := Memref.whole cc0_scratch1
abbrev accN : Memref sig .tc .vmem S19x1 .f32 := Memref.whole cc0_scratch2
/-- One staging buffer of each output window, through which its contents are stated. -/
abbrev VO2 : View sig .tc .vmem S1x19x256 .f32 := (Memref.whole cc0_stg2_0 : Memref sig .tc .vmem S1x19x256 .f32).view
abbrev VO3 : View sig .tc .vmem S1x19x256 .f32 := (Memref.whole cc0_stg3_0 : Memref sig .tc .vmem S1x19x256 .f32).view
abbrev VO4 : View sig .tc .vmem S1x19x1 .f32 := (Memref.whole cc0_stg4_0 : Memref sig .tc .vmem S1x19x1 .f32).view

/-- The region's invariant of what is the kernel's own, with the three accumulators owned at some contents. -/
theorem PhiA0_eq (c : Dev nD) :
    (Pipeline.ΦA spec0 c : sProp 𝕄)
      = iprop(iprop((∃ d, owns (c : Thread nD τ) accS fullShare d) ∗ (∃ d, owns (c : Thread nD τ) accQ fullShare d) ∗ (∃ d, owns (c : Thread nD τ) accN fullShare d)) ∗ (∃ r, prngReg c r)) := by
  unfold Pipeline.ΦA; rw [scopedRest0_eq]; simp only [accS, accQ, accN, owns_whole]; try rfl

end Cert.KernelIdeal.Hand

end
-- ==== Proof.KernelIdealRunFirst.lean ====
/-
  The kernel body at the FIRST of a core's eight steps: the three accumulators are cleared, the block's four chunks
  of 2048 rows are added in (the one-hot product with the rows and with their squares, and the lane count of the
  one-hot), and nothing is stored into the output windows. What each accumulator ends with is found by the run, as the
  list of the pieces written into it.
-/
import proofs.«414262_j69063074120047_3_alg».proof.Proof.KernelIdealAround

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two input blocks at their contents, the three idle output buffers handed back untouched, the
    accumulators at anything — the body runs and leaves each accumulator with the run's pieces written. -/
noncomputable def runFirst (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : isFirst i) (hc1 : ¬isLast i)
    (x0 : Vec F S8192x256 .f32) (x1 : Vec F S1x1x8192 .i32) :
    Σ' (LS : List (View.Piece (Elt F) S19x256 .f32)) (LQ : List (View.Piece (Elt F) S19x256 .f32)), { LN : List (View.Piece (Elt F) S19x1 .f32) //
      ∀ (xi2 xi3 : Vec F S1x19x256 .f32) (xi4 : Vec F S1x19x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ) ∗ (∃ f, arg9.view.loc (c : Thread nD τ) ↦[arg9.view.set]{fullShare} arg9.view.writes (Elt F) f LN)) -∗ K ⟨⟩))
          ⊢ wp frame (wpE (defs₀ (F := F)) Variants.none c none) E (cc0__estimator_cv_kernel i arg2 harg2 arg3 harg3 arg4 harg4 arg5 harg5 arg6 harg6 arg7 harg7 arg8 harg8 arg9 harg9) K } := by
  refine ⟨?_, ?_, ?_, fun xi2 xi3 xi4 E K => ?run⟩
  case run =>
    simp only [cc0__estimator_cv_kernel_eq_skeleton]; unfold cc0__estimator_cv_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KernelIdealRunMid.lean ====
/-
  The kernel body at a MIDDLE step of a core's eight (neither the first nor the last): the block's four chunks are added
  into the accumulators as the step before left them, and nothing is stored into the output windows.
-/
import proofs.«414262_j69063074120047_3_alg».proof.Proof.KernelIdealRunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two input blocks at their contents, the three idle output buffers handed back untouched, the
    accumulators at what the step before left — the body runs and leaves each accumulator with the run's pieces written. -/
noncomputable def runMid (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : ¬isFirst i) (hc1 : ¬isLast i)
    (x0 : Vec F S8192x256 .f32) (x1 : Vec F S1x1x8192 .i32) (xs0 xs1 : Vec F S19x256 .f32) (xs2 : Vec F S19x1 .f32) :
    Σ' (LS : List (View.Piece (Elt F) S19x256 .f32)) (LQ : List (View.Piece (Elt F) S19x256 .f32)), { LN : List (View.Piece (Elt F) S19x1 .f32) //
      ∀ (xi2 xi3 : Vec F S1x19x256 .f32) (xi4 : Vec F S1x19x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ) ∗ (∃ f, arg9.view.loc (c : Thread nD τ) ↦[arg9.view.set]{fullShare} arg9.view.writes (Elt F) f LN)) -∗ K ⟨⟩))
          ⊢ wp frame (wpE (defs₀ (F := F)) Variants.none c none) E (cc0__estimator_cv_kernel i arg2 harg2 arg3 harg3 arg4 harg4 arg5 harg5 arg6 harg6 arg7 harg7 arg8 harg8 arg9 harg9) K } := by
  refine ⟨?_, ?_, ?_, fun xi2 xi3 xi4 E K => ?run⟩
  case run =>
    simp only [cc0__estimator_cv_kernel_eq_skeleton]; unfold cc0__estimator_cv_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KernelIdealRunLast.lean ====
/-
  The kernel body at the LAST of a core's eight steps: the block's four chunks are added into the accumulators as the
  step before left them, and the three accumulators are then copied into the output windows' buffers, which the
  pipeline writes back to the core's slot of the partial-sum arrays.
-/
import proofs.«414262_j69063074120047_3_alg».proof.Proof.KernelIdealRunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the two input blocks at their contents, the output buffers at anything, the accumulators at what
    the step before left — the body runs and leaves each accumulator and each output buffer with the run's pieces written. -/
noncomputable def runLast (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : ¬isFirst i) (hc1 : isLast i)
    (x0 : Vec F S8192x256 .f32) (x1 : Vec F S1x1x8192 .i32) (xs0 xs1 : Vec F S19x256 .f32) (xs2 : Vec F S19x1 .f32) :
    Σ' (L2 : List (View.Piece (Elt F) S1x19x256 .f32)) (L3 : List (View.Piece (Elt F) S1x19x256 .f32)) (L4 : List (View.Piece (Elt F) S1x19x1 .f32))
       (LS : List (View.Piece (Elt F) S19x256 .f32)) (LQ : List (View.Piece (Elt F) S19x256 .f32)), { LN : List (View.Piece (Elt F) S19x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ) ∗ (∃ f, arg9.view.loc (c : Thread nD τ) ↦[arg9.view.set]{fullShare} arg9.view.writes (Elt F) f LN)) -∗ K ⟨⟩))
          ⊢ wp frame (wpE (defs₀ (F := F)) Variants.none c none) E (cc0__estimator_cv_kernel i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0__estimator_cv_kernel_eq_skeleton]; unfold cc0__estimator_cv_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.KernelIdeal.Hand

end
-- ==== Proof.KernelIdealFrame.lean ====
/-
  The frame of the program: what the three accumulators hold after every grid point, by recursion on the point (the
  first of a core's eight steps clears and adds, the later ones add to what the step before left, the last also copies
  them out); the pipeline's proof data over that; the body obligation at every point, by the three runs; and the run of
  @main — the reshape, the region, the combine and update lines — to the state in which every array of the pipeline holds
  what the write-backs left and every other buffer what the later lines computed. The frame claim is that run read at
  the five argument arrays.
-/
import proofs.«414262_j69063074120047_3_alg».proof.Proof.KernelIdealRunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three accumulators' contents: row sums, sums of squares, counts. -/
abbrev Accs (F : FTy → Type) [FloatOps F] := Vec F S19x256 .f32 × Vec F S19x256 .f32 × Vec F S19x1 .f32
/-- The three output buffers' contents. -/
abbrev Outs (F : FTy → Type) [FloatOps F] := Vec F S1x19x256 .f32 × Vec F S1x19x256 .f32 × Vec F S1x19x1 .f32

/-! ## The runs' pieces cover the buffers they are written into -/

theorem coverFirstS (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : isFirst i) (hc1 : ¬isLast i) (x0 : Vec F S8192x256 .f32) (x1 : Vec F S1x1x8192 .i32) (y : S19x256.Idx) :
    ∃ pc ∈ (runFirst c i arg2 harg2 arg3 harg3 arg4 harg4 arg5 harg5 arg6 harg6 arg7 harg7 arg8 harg8 arg9 harg9 hc0 hc1 x0 x1).1, y ∈ pc.1.set :=
  View.cover_of_tiledL (runFirst c i arg2 harg2 arg3 harg3 arg4 harg4 arg5 harg5 arg6 harg6 arg7 harg7 arg8 harg8 arg9 harg9 hc0 hc1 x0 x1).1 S19x256.size (by sl_kernel_rfl) y
theorem coverFirstQ (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : isFirst i) (hc1 : ¬isLast i) (x0 : Vec F S8192x256 .f32) (x1 : Vec F S1x1x8192 .i32) (y : S19x256.Idx) :
    ∃ pc ∈ (runFirst c i arg2 harg2 arg3 harg3 arg4 harg4 arg5 harg5 arg6 harg6 arg7 harg7 arg8 harg8 arg9 harg9 hc0 hc1 x0 x1).2.1, y ∈ pc.1.set :=
  View.cover_of_tiledL (runFirst c i arg2 harg2 arg3 harg3 arg4 harg4 arg5 harg5 arg6 harg6 arg7 harg7 arg8 harg8 arg9 harg9 hc0 hc1 x0 x1).2.1 S19x256.size (by sl_kernel_rfl) y
theorem coverFirstN (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : isFirst i) (hc1 : ¬isLast i) (x0 : Vec F S8192x256 .f32) (x1 : Vec F S1x1x8192 .i32) (y : S19x1.Idx) :
    ∃ pc ∈ (runFirst c i arg2 harg2 arg3 harg3 arg4 harg4 arg5 harg5 arg6 harg6 arg7 harg7 arg8 harg8 arg9 harg9 hc0 hc1 x0 x1).2.2.1, y ∈ pc.1.set :=
  View.cover_of_tiledL (runFirst c i arg2 harg2 arg3 harg3 arg4 harg4 arg5 harg5 arg6 harg6 arg7 harg7 arg8 harg8 arg9 harg9 hc0 hc1 x0 x1).2.2.1 S19x1.size (by sl_kernel_rfl) y

theorem coverMidS (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : ¬isFirst i) (hc1 : ¬isLast i) (x0 : Vec F S8192x256 .f32) (x1 : Vec F S1x1x8192 .i32) (xs0 xs1 : Vec F S19x256 .f32) (xs2 : Vec F S19x1 .f32) (y : S19x256.Idx) :
    ∃ pc ∈ (runMid c i arg2 harg2 arg3 harg3 arg4 harg4 arg5 harg5 arg6 harg6 arg7 harg7 arg8 harg8 arg9 harg9 hc0 hc1 x0 x1 xs0 xs1 xs2).1, y ∈ pc.1.set :=
  View.cover_of_tiledL (runMid c i arg2 harg2 arg3 harg3 arg4 harg4 arg5 harg5 arg6 harg6 arg7 harg7 arg8 harg8 arg9 harg9 hc0 hc1 x0 x1 xs0 xs1 xs2).1 S19x256.size (by sl_kernel_rfl) y
theorem coverMidQ (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : ¬isFirst i) (hc1 : ¬isLast i) (x0 : Vec F S8192x256 .f32) (x1 : Vec F S1x1x8192 .i32) (xs0 xs1 : Vec F S19x256 .f32) (xs2 : Vec F S19x1 .f32) (y : S19x256.Idx) :
    ∃ pc ∈ (runMid c i arg2 harg2 arg3 harg3 arg4 harg4 arg5 harg5 arg6 harg6 arg7 harg7 arg8 harg8 arg9 harg9 hc0 hc1 x0 x1 xs0 xs1 xs2).2.1, y ∈ pc.1.set :=
  View.cover_of_tiledL (runMid c i arg2 harg2 arg3 harg3 arg4 harg4 arg5 harg5 arg6 harg6 arg7 harg7 arg8 harg8 arg9 harg9 hc0 hc1 x0 x1 xs0 xs1 xs2).2.1 S19x256.size (by sl_kernel_rfl) y
theorem coverMidN (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : ¬isFirst i) (hc1 : ¬isLast i) (x0 : Vec F S8192x256 .f32) (x1 : Vec F S1x1x8192 .i32) (xs0 xs1 : Vec F S19x256 .f32) (xs2 : Vec F S19x1 .f32) (y : S19x1.Idx) :
    ∃ pc ∈ (runMid c i arg2 harg2 arg3 harg3 arg4 harg4 arg5 harg5 arg6 harg6 arg7 harg7 arg8 harg8 arg9 harg9 hc0 hc1 x0 x1 xs0 xs1 xs2).2.2.1, y ∈ pc.1.set :=
  View.cover_of_tiledL (runMid c i arg2 harg2 arg3 harg3 arg4 harg4 arg5 harg5 arg6 harg6 arg7 harg7 arg8 harg8 arg9 harg9 hc0 hc1 x0 x1 xs0 xs1 xs2).2.2.1 S19x1.size (by sl_kernel_rfl) y

theorem coverLast2 (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : ¬isFirst i) (hc1 : isLast i) (x0 : Vec F S8192x256 .f32) (x1 : Vec F S1x1x8192 .i32) (xs0 xs1 : Vec F S19x256 .f32) (xs2 : Vec F S19x1 .f32) (y : S1x19x256.Idx) :
    ∃ pc ∈ (runLast c i arg2 harg2 arg3 harg3 arg4 harg4 arg5 harg5 arg6 harg6 arg7 harg7 arg8 harg8 arg9 harg9 hc0 hc1 x0 x1 xs0 xs1 xs2).1, y ∈ pc.1.set :=
  View.cover_of_tiledL (runLast c i arg2 harg2 arg3 harg3 arg4 harg4 arg5 harg5 arg6 harg6 arg7 harg7 arg8 harg8 arg9 harg9 hc0 hc1 x0 x1 xs0 xs1 xs2).1 S1x19x256.size (by sl_kernel_rfl) y
theorem coverLast3 (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : ¬isFirst i) (hc1 : isLast i) (x0 : Vec F S8192x256 .f32) (x1 : Vec F S1x1x8192 .i32) (xs0 xs1 : Vec F S19x256 .f32) (xs2 : Vec F S19x1 .f32) (y : S1x19x256.Idx) :
    ∃ pc ∈ (runLast c i arg2 harg2 arg3 harg3 arg4 harg4 arg5 harg5 arg6 harg6 arg7 harg7 arg8 harg8 arg9 harg9 hc0 hc1 x0 x1 xs0 xs1 xs2).2.1, y ∈ pc.1.set :=
  View.cover_of_tiledL (runLast c i arg2 harg2 arg3 harg3 arg4 harg4 arg5 harg5 arg6 harg6 arg7 harg7 arg8 harg8 arg9 harg9 hc0 hc1 x0 x1 xs0 xs1 xs2).2.1 S1x19x256.size (by sl_kernel_rfl) y
theorem coverLast4 (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : ¬isFirst i) (hc1 : isLast i) (x0 : Vec F S8192x256 .f32) (x1 : Vec F S1x1x8192 .i32) (xs0 xs1 : Vec F S19x256 .f32) (xs2 : Vec F S19x1 .f32) (y : S1x19x1.Idx) :
    ∃ pc ∈ (runLast c i arg2 harg2 arg3 harg3 arg4 harg4 arg5 harg5 arg6 harg6 arg7 harg7 arg8 harg8 arg9 harg9 hc0 hc1 x0 x1 xs0 xs1 xs2).2.2.1, y ∈ pc.1.set :=
  View.cover_of_tiledL (runLast c i arg2 harg2 arg3 harg3 arg4 harg4 arg5 harg5 arg6 harg6 arg7 harg7 arg8 harg8 arg9 harg9 hc0 hc1 x0 x1 xs0 xs1 xs2).2.2.1 S1x19x1.size (by sl_kernel_rfl) y
theorem coverLastS (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : ¬isFirst i) (hc1 : isLast i) (x0 : Vec F S8192x256 .f32) (x1 : Vec F S1x1x8192 .i32) (xs0 xs1 : Vec F S19x256 .f32) (xs2 : Vec F S19x1 .f32) (y : S19x256.Idx) :
    ∃ pc ∈ (runLast c i arg2 harg2 arg3 harg3 arg4 harg4 arg5 harg5 arg6 harg6 arg7 harg7 arg8 harg8 arg9 harg9 hc0 hc1 x0 x1 xs0 xs1 xs2).2.2.2.1, y ∈ pc.1.set :=
  View.cover_of_tiledL (runLast c i arg2 harg2 arg3 harg3 arg4 harg4 arg5 harg5 arg6 harg6 arg7 harg7 arg8 harg8 arg9 harg9 hc0 hc1 x0 x1 xs0 xs1 xs2).2.2.2.1 S19x256.size (by sl_kernel_rfl) y
theorem coverLastQ (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : ¬isFirst i) (hc1 : isLast i) (x0 : Vec F S8192x256 .f32) (x1 : Vec F S1x1x8192 .i32) (xs0 xs1 : Vec F S19x256 .f32) (xs2 : Vec F S19x1 .f32) (y : S19x256.Idx) :
    ∃ pc ∈ (runLast c i arg2 harg2 arg3 harg3 arg4 harg4 arg5 harg5 arg6 harg6 arg7 harg7 arg8 harg8 arg9 harg9 hc0 hc1 x0 x1 xs0 xs1 xs2).2.2.2.2.1, y ∈ pc.1.set :=
  View.cover_of_tiledL (runLast c i arg2 harg2 arg3 harg3 arg4 harg4 arg5 harg5 arg6 harg6 arg7 harg7 arg8 harg8 arg9 harg9 hc0 hc1 x0 x1 xs0 xs1 xs2).2.2.2.2.1 S19x256.size (by sl_kernel_rfl) y
theorem coverLastN (c : Dev nD) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole) (hc0 : ¬isFirst i) (hc1 : isLast i) (x0 : Vec F S8192x256 .f32) (x1 : Vec F S1x1x8192 .i32) (xs0 xs1 : Vec F S19x256 .f32) (xs2 : Vec F S19x1 .f32) (y : S19x1.Idx) :
    ∃ pc ∈ (runLast c i arg2 harg2 arg3 harg3 arg4 harg4 arg5 harg5 arg6 harg6 arg7 harg7 arg8 harg8 arg9 harg9 hc0 hc1 x0 x1 xs0 xs1 xs2).2.2.2.2.2.1, y ∈ pc.1.set :=
  View.cover_of_tiledL (runLast c i arg2 harg2 arg3 harg3 arg4 harg4 arg5 harg5 arg6 harg6 arg7 harg7 arg8 harg8 arg9 harg9 hc0 hc1 x0 x1 xs0 xs1 xs2).2.2.2.2.2.1 S19x1.size (by sl_kernel_rfl) y

/-! ## What a step leaves, case by case -/

/-- The accumulators after a core's first step: the run's pieces read back. -/
def accFirst (c : Dev nD) (t : Fin cfg0.N) (h0 : isFirst (grid0.coords t)) (h1 : ¬isLast (grid0.coords t)) : Accs F :=
  (accS.view.read (Elt F) (accS.view.writes (Elt F) accS.view.junk (runFirst c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t)).1),
   accQ.view.read (Elt F) (accQ.view.writes (Elt F) accQ.view.junk (runFirst c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t)).2.1),
   accN.view.read (Elt F) (accN.view.writes (Elt F) accN.view.junk (runFirst c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t)).2.2.1))
/-- After a middle step, over what the step before left (`p`). -/
def accMid (c : Dev nD) (t : Fin cfg0.N) (h0 : ¬isFirst (grid0.coords t)) (h1 : ¬isLast (grid0.coords t)) (p : Accs F) : Accs F :=
  (accS.view.read (Elt F) (accS.view.writes (Elt F) accS.view.junk (runMid c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2).1),
   accQ.view.read (Elt F) (accQ.view.writes (Elt F) accQ.view.junk (runMid c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2).2.1),
   accN.view.read (Elt F) (accN.view.writes (Elt F) accN.view.junk (runMid c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2).2.2.1))
/-- After a core's last step. -/
def accLast (c : Dev nD) (t : Fin cfg0.N) (h0 : ¬isFirst (grid0.coords t)) (h1 : isLast (grid0.coords t)) (p : Accs F) : Accs F :=
  (accS.view.read (Elt F) (accS.view.writes (Elt F) accS.view.junk (runLast c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2).2.2.2.1),
   accQ.view.read (Elt F) (accQ.view.writes (Elt F) accQ.view.junk (runLast c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2).2.2.2.2.1),
   accN.view.read (Elt F) (accN.view.writes (Elt F) accN.view.junk (runLast c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2).2.2.2.2.2.1))
/-- The output buffers after a core's last step. -/
def outLast (c : Dev nD) (t : Fin cfg0.N) (h0 : ¬isFirst (grid0.coords t)) (h1 : isLast (grid0.coords t)) (p : Accs F) : Outs F :=
  (VO2.read (Elt F) (VO2.writes (Elt F) VO2.junk (runLast c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2).1),
   VO3.read (Elt F) (VO3.writes (Elt F) VO3.junk (runLast c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2).2.1),
   VO4.read (Elt F) (VO4.writes (Elt F) VO4.junk (runLast c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2).2.2.1))
/-- At the other steps the output windows are idle: a placeholder nothing consults. -/
def outIdle : Outs F := (VO2.read (Elt F) VO2.junk, VO3.read (Elt F) VO3.junk, VO4.read (Elt F) VO4.junk)

/-! ## The accumulation over the grid -/

/-- What the output buffers and the accumulators hold after the body at position `n`. -/
def stateAt (c : Dev nD) : (n : ℕ) → n < cfg0.N → Outs F × Accs F
  | 0, hn => (outIdle, accFirst m c ⟨0, hn⟩ ((isFirst_iff ⟨0, hn⟩).mpr (Nat.zero_mod _)) (fun h => (fun h => by (try dsimp only at h); omega) ((isLast_iff ⟨0, hn⟩).mp h)))
  | n + 1, hn =>
    if h0 : (n + 1) % 8 = 0 then
      if h1 : (n + 1) % 8 = 7 then
        False.elim (by omega)
      else
        (outIdle, accFirst m c ⟨n + 1, hn⟩ ((isFirst_iff ⟨n + 1, hn⟩).mpr h0) (fun h => h1 ((isLast_iff ⟨n + 1, hn⟩).mp h)))
    else
      if h1 : (n + 1) % 8 = 7 then
        (outLast m c ⟨n + 1, hn⟩ (fun h => h0 ((isFirst_iff ⟨n + 1, hn⟩).mp h)) ((isLast_iff ⟨n + 1, hn⟩).mpr h1) (stateAt c n (Nat.lt_of_succ_lt hn)).2,
         accLast m c ⟨n + 1, hn⟩ (fun h => h0 ((isFirst_iff ⟨n + 1, hn⟩).mp h)) ((isLast_iff ⟨n + 1, hn⟩).mpr h1) (stateAt c n (Nat.lt_of_succ_lt hn)).2)
      else
        (outIdle, accMid m c ⟨n + 1, hn⟩ (fun h => h0 ((isFirst_iff ⟨n + 1, hn⟩).mp h)) (fun h => h1 ((isLast_iff ⟨n + 1, hn⟩).mp h)) (stateAt c n (Nat.lt_of_succ_lt hn)).2)

theorem stateAt_first (c : Dev nD) (t : Fin cfg0.N) (h0 : t.val % 8 = 0) (h1 : ¬t.val % 8 = 7) :
    stateAt m c t.val t.isLt = (outIdle, accFirst m c t ((isFirst_iff t).mpr h0) (fun h => h1 ((isLast_iff t).mp h))) := by
  obtain ⟨n, hn⟩ := t
  cases n with
  | zero => exact rfl
  | succ n => exact (dif_pos h0).trans ((dif_neg h1).trans rfl)

theorem stateAt_mid (c : Dev nD) (t : Fin cfg0.N) (h0 : ¬t.val % 8 = 0) (h1 : ¬t.val % 8 = 7) :
    stateAt m c t.val t.isLt = (outIdle, accMid m c t (fun h => h0 ((isFirst_iff t).mp h)) (fun h => h1 ((isLast_iff t).mp h))
      (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg0.N) (h0 : ¬t.val % 8 = 0) (h1 : t.val % 8 = 7) :
    stateAt m c t.val t.isLt = (outLast m c t (fun h => h0 ((isFirst_iff t).mp h)) ((isLast_iff t).mpr h1) (stateAt m c (t.val - 1) (Nat.lt_of_le_of_lt (Nat.sub_le _ _) t.isLt)).2,
      accLast m c t (fun h => h0 ((isFirst_iff t).mp h)) ((isLast_iff t).mpr h1) (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over; afterwards the three
    accumulators at what the point before left. -/
def PhiS (c : Dev nD) : (n : ℕ) → n ≤ cfg0.N → sProp 𝕄
  | 0, _ => Pipeline.ΦA spec0 c
  | n + 1, hn => iprop(iprop(owns (c : Thread nD τ) accS fullShare ((stateAt m c n hn).2.1) ∗ owns (c : Thread nD τ) accQ fullShare ((stateAt m c n hn).2.2.1) ∗ owns (c : Thread nD τ) accN fullShare ((stateAt m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accS fullShare ((stateAt m c n hn).2.1) ∗ owns (c : Thread nD τ) accQ fullShare ((stateAt m c n hn).2.2.1) ∗ owns (c : Thread nD τ) accN fullShare ((stateAt m c n hn).2.2.2)) ∗ (∃ r, prngReg c r)) := rfl
theorem PhiS_pos (c : Dev nD) (n : ℕ) (h : n ≤ cfg0.N) (hz : n ≠ 0) :
    PhiS m c n h = iprop(iprop(owns (c : Thread nD τ) accS fullShare ((stateAt m c (n - 1) (by omega)).2.1) ∗ owns (c : Thread nD τ) accQ fullShare ((stateAt m c (n - 1) (by omega)).2.2.1) ∗ owns (c : Thread nD τ) accN fullShare ((stateAt m c (n - 1) (by omega)).2.2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stateAt m c t.val t.isLt).1.1
    | ⟨3, _⟩ => (stateAt m c t.val t.isLt).1.2.1
    | ⟨4, _⟩ => (stateAt m c t.val t.isLt).1.2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (stateAt m c t.val t.isLt).1.1 := by dsimp only [dats]
theorem after3 (c : Dev nD) (t : Fin cfg0.N) : (dats m 0 c).after 3 t = (stateAt m c t.val t.isLt).1.2.1 := by dsimp only [dats]
theorem after4 (c : Dev nD) (t : Fin cfg0.N) : (dats m 0 c).after 4 t = (stateAt m c t.val t.isLt).1.2.2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) :
    (dats m 0 c).leavesExact 0 t = owns (c : Thread nD τ) (ms0 t) fullShare (iblk m c 0 t) := by
  unfold Dat.leavesExact; rw [live_in0 t, after0]
theorem leaves_in1 (c : Dev nD) (t : Fin cfg0.N) :
    (dats m 0 c).leavesExact 1 t = owns (c : Thread nD τ) (ms1 t) fullShare (iblk m c 1 t) := by
  unfold Dat.leavesExact; rw [live_in1 t, after1]

set_option maxHeartbeats 8000000 in
/-- The body at any point: the grid position says which of the three runs applies; the invariant hands the body the
    accumulators at what the point before left (at anything before the first point), and takes them back at this point's
    contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves_in0, leaves_in1]
  have hN : t.val < 16 := lt_of_lt_of_eq t.isLt (show cfg0.N = 16 from N_0)
  by_cases h0 : t.val % 8 = 0
  · by_cases h1 : t.val % 8 = 7
    · exfalso; omega
    · have hl : ¬isLast (grid0.coords t) := fun h => h1 ((isLast_iff t).mp h)
      rw [Dat.leavesExact_idle (dats m 0 c) 2 t (idle_out2 t hl) (noFlush_out2 t hl),
        Dat.leavesExact_idle (dats m 0 c) 3 t (idle_out3 t hl) (noFlush_out3 t hl),
        Dat.leavesExact_idle (dats m 0 c) 4 t (idle_out4 t hl) (noFlush_out4 t hl)]
      rw [stateAt_first m c t h0 h1]
      unfold accFirst; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ _ _ _ _ ((isFirst_iff t).mpr h0) hl (iblk m c 0 t) (iblk m c 1 t)).2.2.2 _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (coverFirstS c _ _ _ _ _ _ _ _ _ _ _ _ _ _ _ _ _ _ _ _ _)
            isplitl [HS1]
            · unfold owns; iexists _; isplitr
              swap; · iexact HS1
              ipureintro; exact View.read_writes_of_cover _ _ _ _ _ (coverFirstQ c _ _ _ _ _ _ _ _ _ _ _ _ _ _ _ _ _ _ _ _ _)
            unfold owns; iexists _; isplitr
            swap; · iexact HS2
            ipureintro; exact View.read_writes_of_cover _ _ _ _ _ (coverFirstN c _ _ _ _ _ _ _ _ _ _ _ _ _ _ _ _ _ _ _ _ _)
          iexact Hg
        isplitl [Ho]; · iexact Ho
        isplitl [H0]; · iexact H0
        isplitl [H1]; · iexact H1
        isplitl [H2]; · iexists _; iexact H2
        isplitl [H3]; · iexists _; iexact H3
        iexists _; iexact H4
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ _ _ _ _ ((isFirst_iff t).mpr h0) hl (iblk m c 0 t) (iblk m c 1 t)).2.2.2 _ _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (coverFirstS c _ _ _ _ _ _ _ _ _ _ _ _ _ _ _ _ _ _ _ _ _)
            isplitl [HS1]
            · unfold owns; iexists _; isplitr
              swap; · iexact HS1
              ipureintro; exact View.read_writes_of_cover _ _ _ _ _ (coverFirstQ c _ _ _ _ _ _ _ _ _ _ _ _ _ _ _ _ _ _ _ _ _)
            unfold owns; iexists _; isplitr
            swap; · iexact HS2
            ipureintro; exact View.read_writes_of_cover _ _ _ _ _ (coverFirstN c _ _ _ _ _ _ _ _ _ _ _ _ _ _ _ _ _ _ _ _ _)
          iexact Hg
        isplitl [Ho]; · iexact Ho
        isplitl [H0]; · iexact H0
        isplitl [H1]; · iexact H1
        isplitl [H2]; · iexists _; iexact H2
        isplitl [H3]; · iexists _; iexact H3
        iexists _; iexact H4
  · have hf : ¬isFirst (grid0.coords t) := fun h => h0 ((isFirst_iff t).mp h)
    have hz : t.val ≠ 0 := fun hz => h0 (by rw [hz])
    by_cases h1 : t.val % 8 = 7
    · have hl : isLast (grid0.coords t) := (isLast_iff t).mpr h1
      rw [show (dats m 0 c).leavesExact 2 t = owns (c : Thread nD τ) (ms2 t) fullShare ((dats m 0 c).after 2 t) from by
        unfold Dat.leavesExact; rw [live_out2 t hl], after2]
      rw [show (dats m 0 c).leavesExact 3 t = owns (c : Thread nD τ) (ms3 t) fullShare ((dats m 0 c).after 3 t) from by
        unfold Dat.leavesExact; rw [live_out3 t hl], after3]
      rw [show (dats m 0 c).leavesExact 4 t = owns (c : Thread nD τ) (ms4 t) fullShare ((dats m 0 c).after 4 t) from by
        unfold Dat.leavesExact; rw [live_out4 t hl], after4]
      rw [stateAt_last m c t h0 h1]
      unfold outLast accLast; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ _ _ hf hl (iblk m c 0 t) (iblk m c 1 t) _ _ _).2.2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      isplitl [HS2]; · iexact HS2
      iintro ⟨H0, H1, ⟨%e2, H2⟩, ⟨%e3, H3⟩, ⟨%e4, H4⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverLastS c _ _ _ _ _ _ _ _ _ _ _ _ _ _ _ _ _ _ _ _ _ _ _ _)
          isplitl [HS1]
          · unfold owns; iexists _; isplitr
            swap; · iexact HS1
            ipureintro; exact View.read_writes_of_cover _ _ _ _ _ (coverLastQ c _ _ _ _ _ _ _ _ _ _ _ _ _ _ _ _ _ _ _ _ _ _ _ _)
          unfold owns; iexists _; isplitr
          swap; · iexact HS2
          ipureintro; exact View.read_writes_of_cover _ _ _ _ _ (coverLastN c _ _ _ _ _ _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverLast2 c _ _ _ _ _ _ _ _ _ _ _ _ _ _ _ _ _ _ _ _ _ _ _ _)
      isplitl [H3]
      · unfold owns; iexists _; isplitr
        swap; · iexact H3
        ipureintro; exact View.read_writes_of_cover _ _ _ _ _ (coverLast3 c _ _ _ _ _ _ _ _ _ _ _ _ _ _ _ _ _ _ _ _ _ _ _ _)
      unfold owns; iexists _; isplitr
      swap; · iexact H4
      ipureintro; exact View.read_writes_of_cover _ _ _ _ _ (coverLast4 c _ _ _ _ _ _ _ _ _ _ _ _ _ _ _ _ _ _ _ _ _ _ _ _)
    · have hl : ¬isLast (grid0.coords t) := fun h => h1 ((isLast_iff t).mp h)
      rw [Dat.leavesExact_idle (dats m 0 c) 2 t (idle_out2 t hl) (noFlush_out2 t hl),
        Dat.leavesExact_idle (dats m 0 c) 3 t (idle_out3 t hl) (noFlush_out3 t hl),
        Dat.leavesExact_idle (dats m 0 c) 4 t (idle_out4 t hl) (noFlush_out4 t hl)]
      rw [stateAt_mid m c t h0 h1]
      unfold accMid; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ _ _ _ _ hf hl (iblk m c 0 t) (iblk m c 1 t) _ _ _).2.2.2 _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverMidS c _ _ _ _ _ _ _ _ _ _ _ _ _ _ _ _ _ _ _ _ _ _ _ _)
          isplitl [HS1]
          · unfold owns; iexists _; isplitr
            swap; · iexact HS1
            ipureintro; exact View.read_writes_of_cover _ _ _ _ _ (coverMidQ c _ _ _ _ _ _ _ _ _ _ _ _ _ _ _ _ _ _ _ _ _ _ _ _)
          unfold owns; iexists _; isplitr
          swap; · iexact HS2
          ipureintro; exact View.read_writes_of_cover _ _ _ _ _ (coverMidN c _ _ _ _ _ _ _ _ _ _ _ _ _ _ _ _ _ _ _ _ _ _ _ _)
        iexact Hg
      isplitl [Ho]; · iexact Ho
      isplitl [H0]; · iexact H0
      isplitl [H1]; · iexact H1
      isplitl [H2]; · iexists _; iexact H2
      isplitl [H3]; · iexists _; iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of @main terminates, every array of the pipeline ending at what the write-backs left
    and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.KernelIdealLoop.lean ====
/-
  The chunk loop of the kernel body, as values. One trip loads chunk `k` of the feature block (2048 rows) and of the
  label block (2048 lanes), and replaces each accumulator by the chunk's step applied to what it held: the one-hot
  product added to the row sums and to the sums of squares, the lane count added to the counts. So after `n` trips
  each accumulator holds the `n`-fold iterate of the step from what the loop found.
-/
import proofs.«414262_j69063074120047_3_alg».proof.Proof.Gen.KernelIdeal.Loops
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem zero2 : (![0, 0] : Fin 2 → ℕ) = fun _ => 0 := by
  funext a; match a with | ⟨0, _⟩ => rfl | ⟨1, _⟩ => rfl
theorem zero3 : (![0, 0, 0] : Fin 3 → ℕ) = fun _ => 0 := by
  funext a; match a with | ⟨0, _⟩ => rfl | ⟨1, _⟩ => rfl | ⟨2, _⟩ => rfl

/-- Chunk `k` of the feature block: rows `2048·k … 2048·k + 2047`. -/
abbrev rowsOf (arg2 : Memref sig .tc .vmem S8192x256 .f32) (X2 : BufTy.Contents (Elt F) arg2.view.ty) (k : Fin k0_t1_loop.trips) : Vec F S2048x256 .f32 :=
  View.readAt (Elt F) arg2.view (Rect.unit (s := S8192x256) (k0_off1 k) S2048x256.size (k0_off1_inb k)).toLoadRect X2
/-- Chunk `k` of the label block: lanes `2048·k … 2048·k + 2047`. -/
abbrev labsOf (arg3 : Memref sig .tc .vmem S1x1x8192 .i32) (X3 : BufTy.Contents (Elt F) arg3.view.ty) (k : Fin k0_t1_loop.trips) : Vec F S1x1x2048 .i32 :=
  View.readAt (Elt F) arg3.view (Rect.unit (s := S1x1x8192) (k0_off2 k) S1x1x2048.size (k0_off2_inb k)).toLoadRect X3

/-- The store back of the counts is the value itself. -/
theorem pay4_self (v : FVec F S19x1 .f32) : k0_pay4 (F := F) v = v := by
  unfold k0_pay4; exact shapeCast_self v _

/-- The three accumulators' contents. -/
abbrev Acc3 (F : FTy → Type) [FloatOps F] := Vec F S19x256 .f32 × Vec F S19x256 .f32 × Vec F S19x1 .f32

/-- One chunk's step on the three accumulators. -/
def chunkStep (v12 : Vec F S2048x256 .f32) (v14 : Vec F S1x1x2048 .i32) (a : Acc3 F) : Acc3 F :=
  (k0_pay10 v12 v14 a.1, k0_pay11 v12 v14 a.2.1, k0_pay12 v14 a.2.2)

section Trip
variable (𝒱 : Variants) (c : Dev nD) (bd : Option 𝒱.V) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole)
  (X2 : BufTy.Contents (Elt F) arg2.view.ty) (X3 : BufTy.Contents (Elt F) arg3.view.ty)

/-- What one trip writes: one whole-buffer piece per accumulator, the chunk's step of what the trip found there. -/
theorem tripL_eq (k : Fin k0_t1_loop.trips)
    (f7 : BufTy.Contents (Elt F) arg7.view.ty) (f8 : BufTy.Contents (Elt F) arg8.view.ty) (f9 : BufTy.Contents (Elt F) arg9.view.ty) :
    tripL_k0_t1 (F := F) 𝒱 c bd i arg2 harg2 arg3 harg3 arg4 harg4 arg5 harg5 arg6 harg6 arg7 harg7 arg8 harg8 arg9 harg9 X2 X3 k f7 f8 f9
      = ([⟨Rect.unit (s := S19x256) ![0, 0] S19x256.size inb_S19x256_S19x256_0_0, k0_pay10 (rowsOf arg2 X2 k) (labsOf arg3 X3 k) (arg7.view.read (Elt F) f7)⟩],
         [⟨Rect.unit (s := S19x256) ![0, 0] S19x256.size inb_S19x256_S19x256_0_0, k0_pay11 (rowsOf arg2 X2 k) (labsOf arg3 X3 k) (arg8.view.read (Elt F) f8)⟩],
         [⟨Rect.unit (s := S19x1) ![0, 0] S19x1.size inb_S19x1_S19x1_0_0, k0_pay12 (labsOf arg3 X3 k) (arg9.view.read (Elt F) f9)⟩]) := by
  have e7 : View.readAt (Elt F) arg7.view (Rect.unit (s := S19x256) ![0, 0] S19x256.size inb_S19x256_S19x256_0_0).toLoadRect f7 = arg7.view.read (Elt F) f7 := by
    rw [View.readAt_eq_ld]; exact View.ld_unit_zero (S := S19x256) zero2 _ _
  have e8 : View.readAt (Elt F) arg8.view (Rect.unit (s := S19x256) ![0, 0] S19x256.size inb_S19x256_S19x256_0_0).toLoadRect f8 = arg8.view.read (Elt F) f8 := by
    rw [View.readAt_eq_ld]; exact View.ld_unit_zero (S := S19x256) zero2 _ _
  have e9 : View.readAt (Elt F) arg9.view (Rect.unit (s := S19x1) ![0, 0] S19x1.size inb_S19x1_S19x1_0_0).toLoadRect f9 = arg9.view.read (Elt F) f9 := by
    rw [View.readAt_eq_ld]; exact View.ld_unit_zero (S := S19x1) zero2 _ _
  rw [← e7, ← e8, ← e9, ← pay4_self (k0_pay12 _ _)]
  unfold tripL_k0_t1 trip_k0_t1
  dsimp only
  sl_unfold_words
  rfl

end Trip

/-- A whole-buffer store, last, leaves its payload whatever was there and whatever came before. -/
theorem read_writes_whole {S : Shape} {e : EltTy} (v : View sig .tc .vmem S e) (f : v.ty.Contents (Elt F))
    {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

/-- The step iterated over the first `n` chunks. -/
def iter (rows : Fin k0_t1_loop.trips → Vec F S2048x256 .f32) (labs : Fin k0_t1_loop.trips → Vec F S1x1x2048 .i32) (a0 : Acc3 F) : ℕ → Acc3 F
  | 0 => a0
  | n + 1 => if h : n < k0_t1_loop.trips then chunkStep (rows ⟨n, h⟩) (labs ⟨n, h⟩) (iter rows labs a0 n) else iter rows labs a0 n

theorem iter_succ (rows : Fin k0_t1_loop.trips → Vec F S2048x256 .f32) (labs : Fin k0_t1_loop.trips → Vec F S1x1x2048 .i32) (a0 : Acc3 F)
    (k : Fin k0_t1_loop.trips) : iter rows labs a0 (k.val + 1) = chunkStep (rows k) (labs k) (iter rows labs a0 k.val) := by
  rw [iter]; exact dif_pos k.isLt

section Loop
variable (𝒱 : Variants) (c : Dev nD) (bd : Option 𝒱.V) (i : grid0.Coords) (arg2 : Memref sig .tc .vmem S8192x256 .f32) (harg2 : arg2.IsWhole) (arg3 : Memref sig .tc .vmem S1x1x8192 .i32) (harg3 : arg3.IsWhole) (arg4 : Memref sig .tc .vmem S1x19x256 .f32) (harg4 : arg4.IsWhole) (arg5 : Memref sig .tc .vmem S1x19x256 .f32) (harg5 : arg5.IsWhole) (arg6 : Memref sig .tc .vmem S1x19x1 .f32) (harg6 : arg6.IsWhole) (arg7 : Memref sig .tc .vmem S19x256 .f32) (harg7 : arg7.IsWhole) (arg8 : Memref sig .tc .vmem S19x256 .f32) (harg8 : arg8.IsWhole) (arg9 : Memref sig .tc .vmem S19x1 .f32) (harg9 : arg9.IsWhole)
  (X2 : BufTy.Contents (Elt F) arg2.view.ty) (X3 : BufTy.Contents (Elt F) arg3.view.ty)
  (G7 : BufTy.Contents (Elt F) arg7.view.ty) (G8 : BufTy.Contents (Elt F) arg8.view.ty) (G9 : BufTy.Contents (Elt F) arg9.view.ty)

/-- After the first `n` trips, the accumulators read the `n`-fold iterate of the step from what the loop found. -/
theorem read_pb (n : ℕ) (hn : n ≤ k0_t1_loop.trips) :
    (arg7.view.read (Elt F) (arg7.view.writes (Elt F) G7 (pb_k0_t1 (F := F) 𝒱 c bd i arg2 harg2 arg3 harg3 arg4 harg4 arg5 harg5 arg6 harg6 arg7 harg7 arg8 harg8 arg9 harg9 X2 X3 G7 G8 G9 n).1),
     arg8.view.read (Elt F) (arg8.view.writes (Elt F) G8 (pb_k0_t1 (F := F) 𝒱 c bd i arg2 harg2 arg3 harg3 arg4 harg4 arg5 harg5 arg6 harg6 arg7 harg7 arg8 harg8 arg9 harg9 X2 X3 G7 G8 G9 n).2.1),
     arg9.view.read (Elt F) (arg9.view.writes (Elt F) G9 (pb_k0_t1 (F := F) 𝒱 c bd i arg2 harg2 arg3 harg3 arg4 harg4 arg5 harg5 arg6 harg6 arg7 harg7 arg8 harg8 arg9 harg9 X2 X3 G7 G8 G9 n).2.2))
      = iter (rowsOf arg2 X2) (labsOf arg3 X3) (arg7.view.read (Elt F) G7, arg8.view.read (Elt F) G8, arg9.view.read (Elt F) G9) n := by
  induction n with
  | zero => rw [pb_k0_t1.eq_1]; rfl
  | succ n ih =>
    have h : n < k0_t1_loop.trips := hn
    have ih' := ih (Nat.le_of_lt h)
    rw [pb_k0_t1_succ (F := F) 𝒱 c bd i arg2 harg2 arg3 harg3 arg4 harg4 arg5 harg5 arg6 harg6 arg7 harg7 arg8 harg8 arg9 harg9 X2 X3 G7 G8 G9 ⟨n, h⟩, tripL_eq]
    dsimp only [List.singleton_append, List.cons_append, List.nil_append]
    rw [read_writes_whole _ _ zero2, read_writes_whole _ _ zero2, read_writes_whole _ _ zero2]
    rw [iter_succ _ _ _ ⟨n, h⟩, ← ih']
    rfl

end Loop

end Cert.KernelIdeal.Hand

end
-- ==== Proof.KernelIdealSteps.lean ====
/-
  What a grid point does to the accumulators, as values: the chunk step iterated over the block's chunks, from zeros at
  the first of a core's eight steps and from what the step before left at the others; at the last step the output
  buffers receive the accumulators with a unit axis put in front.
-/
import proofs.«414262_j69063074120047_3_alg».proof.Proof.KernelIdealFrame
import proofs.«414262_j69063074120047_3_alg».proof.Proof.KernelIdealLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ)

/-- The chunks of the feature block and of the label block staged at point `t`. -/
abbrev rowsAt (c : Dev nD) (t : Fin cfg0.N) (k : Fin k0_t1_loop.trips) : Vec F S2048x256 .f32 :=
  rowsOf (ms0 t) ((hs0 t).unread (iblk m c 0 t)) k
abbrev labsAt (c : Dev nD) (t : Fin cfg0.N) (k : Fin k0_t1_loop.trips) : Vec F S1x1x2048 .i32 :=
  labsOf (ms1 t) ((hs1 t).unread (iblk m c 1 t)) k

/-- A middle step: the chunk step iterated from what the step before left. -/
theorem accMid_eq (c : Dev nD) (t : Fin cfg0.N) (h0 : ¬isFirst (grid0.coords t)) (h1 : ¬isLast (grid0.coords t)) (p : Accs F) :
    accMid m c t h0 h1 p = iter (rowsAt m c t) (labsAt m c t) p k0_t1_loop.trips := by
  have hc := fun y => coverMidS c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2 y
  have hcq := fun y => coverMidQ c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2 y
  have hcn := fun y => coverMidN c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2 y
  unfold accMid
  rw [View.read_writes_of_cover (v := accS.view) (f := accS.view.junk) accS.view ((Memref.isWhole_whole cc0_scratch0).unread p.1) _ hc,
    View.read_writes_of_cover (v := accQ.view) (f := accQ.view.junk) accQ.view ((Memref.isWhole_whole cc0_scratch1).unread p.2.1) _ hcq,
    View.read_writes_of_cover (v := accN.view) (f := accN.view.junk) accN.view ((Memref.isWhole_whole cc0_scratch2).unread p.2.2) _ hcn]
  unfold runMid
  dsimp only
  refine (read_pb (F := F) Variants.none c none (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) ((hs0 t).unread (iblk m c 0 t)) ((hs1 t).unread (iblk m c 1 t)) ((Memref.isWhole_whole cc0_scratch0).unread p.1) ((Memref.isWhole_whole cc0_scratch1).unread p.2.1) ((Memref.isWhole_whole cc0_scratch2).unread p.2.2) k0_t1_loop.trips le_rfl).trans ?_
  rw [Memref.IsWhole.read_unread, Memref.IsWhole.read_unread, Memref.IsWhole.read_unread]

set_option maxHeartbeats 1000000 in
/-- The last step adds like a middle one. -/
theorem accLast_eq (c : Dev nD) (t : Fin cfg0.N) (h0 : ¬isFirst (grid0.coords t)) (h1 : isLast (grid0.coords t)) (p : Accs F) :
    accLast m c t h0 h1 p = iter (rowsAt m c t) (labsAt m c t) p k0_t1_loop.trips := by
  have hpb := read_pb (F := F) Variants.none c none (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) ((hs0 t).unread (iblk m c 0 t)) ((hs1 t).unread (iblk m c 1 t)) ((Memref.isWhole_whole cc0_scratch0).unread p.1) ((Memref.isWhole_whole cc0_scratch1).unread p.2.1) ((Memref.isWhole_whole cc0_scratch2).unread p.2.2) k0_t1_loop.trips le_rfl
  rw [Memref.IsWhole.read_unread, Memref.IsWhole.read_unread, Memref.IsWhole.read_unread] at hpb
  have hc := fun y => coverLastS c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2 y
  have hcq := fun y => coverLastQ c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2 y
  have hcn := fun y => coverLastN c (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) h0 h1 (iblk m c 0 t) (iblk m c 1 t) p.1 p.2.1 p.2.2 y
  unfold runLast at hc hcq hcn
  dsimp only at hc hcq hcn
  unfold accLast runLast
  dsimp only
  rw [View.read_writes_of_cover (v := accS.view) (f := accS.view.junk) accS.view ((Memref.isWhole_whole cc0_scratch0).unread p.1) _ hc,
    View.read_writes_of_cover (v := accQ.view) (f := accQ.view.junk) accQ.view ((Memref.isWhole_whole cc0_scratch1).unread p.2.1) _ hcq,
    View.read_writes_of_cover (v := accN.view) (f := accN.view.junk) accN.view ((Memref.isWhole_whole cc0_scratch2).unread p.2.2) _ hcn]
  exact hpb

/-- The first step: the chunk step iterated from the cleared accumulators. -/
theorem accFirst_eq (c : Dev nD) (t : Fin cfg0.N) (h0 : isFirst (grid0.coords t)) (h1 : ¬isLast (grid0.coords t)) :
    accFirst m c t h0 h1 = iter (rowsAt m c t) (labsAt m c t) (k0_pay1 (F := F), k0_pay2 (F := F), k0_pay3 (F := F)) k0_t1_loop.trips := by
  unfold accFirst runFirst
  dsimp only
  rw [View.writes_append, View.writes_append, View.writes_append]
  refine (read_pb (F := F) Variants.none c none (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) ((hs0 t).unread (iblk m c 0 t)) ((hs1 t).unread (iblk m c 1 t)) _ _ _ k0_t1_loop.trips le_rfl).trans ?_
  sl_unfold_words
  rw [read_writes_whole _ _ zero2, read_writes_whole _ _ zero2, read_writes_whole _ _ zero2]

/-- At the last step the output buffers receive the accumulators, a unit axis in front. -/
theorem outLast_eq (c : Dev nD) (t : Fin cfg0.N) (h0 : ¬isFirst (grid0.coords t)) (h1 : isLast (grid0.coords t)) (p : Accs F) :
    outLast m c t h0 h1 p = (k0_pay5 (iter (rowsAt m c t) (labsAt m c t) p k0_t1_loop.trips).1,
      k0_pay6 (iter (rowsAt m c t) (labsAt m c t) p k0_t1_loop.trips).2.1, k0_pay7 (iter (rowsAt m c t) (labsAt m c t) p k0_t1_loop.trips).2.2) := by
  have hpb := read_pb (F := F) Variants.none c none (grid0.coords t) (ms0 t) (hs0 t) (ms1 t) (hs1 t) (ms2 t) (hs2 t) (ms3 t) (hs3 t) (ms4 t) (hs4 t) accS (Memref.isWhole_whole _) accQ (Memref.isWhole_whole _) accN (Memref.isWhole_whole _) ((hs0 t).unread (iblk m c 0 t)) ((hs1 t).unread (iblk m c 1 t)) ((Memref.isWhole_whole cc0_scratch0).unread p.1) ((Memref.isWhole_whole cc0_scratch1).unread p.2.1) ((Memref.isWhole_whole cc0_scratch2).unread p.2.2) k0_t1_loop.trips le_rfl
  rw [Memref.IsWhole.read_unread, Memref.IsWhole.read_unread, Memref.IsWhole.read_unread] at hpb
  unfold outLast runLast
  dsimp only
  sl_unfold_words
  rw [read_writes_whole _ _ zero3, read_writes_whole _ _ zero3, read_writes_whole _ _ zero3]
  rw [View.readAt_eq_ld, View.readAt_eq_ld, View.readAt_eq_ld,
    View.ld_unit_zero (S := S19x256) zero2, View.ld_unit_zero (S := S19x256) zero2, View.ld_unit_zero (S := S19x1) zero2]
  rw [← hpb]

end Cert.KernelIdeal.Hand

end
-- ==== Proof.KernelIdealBlocks.lean ====
/-
  Where a chunk's elements sit in the argument arrays. Grid point `t` stages rows `8192·t … 8192·t + 8191` of the
  features and row `t` of the labels laid out as sixteen rows of 8192 lanes; chunk `k` of the staged blocks is their
  rows (lanes) `2048·k … 2048·k + 2047`. So element `(r, d)` of chunk `k` at point `t` is the features' row
  `8192·t + 2048·k + r`, column `d`, and lane `r` of the chunk's labels is the label of that row.
-/
import proofs.«414262_j69063074120047_3_alg».proof.Proof.KernelIdealAround
import proofs.«414262_j69063074120047_3_alg».proof.Proof.KernelIdealLoop
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (m : (ℓ : Loc nD τ sig) → Buf (Elt F) ℓ)

/-- Row `r` of chunk `k` at point `t` is a row of the features. -/
theorem row_lt (t : Fin cfg0.N) (k : Fin k0_t1_loop.trips) (r : Fin 2048) : 8192 * t.val + 2048 * k.val + r.val < 131072 := by
  have h1 : t.val < 16 := lt_of_lt_of_eq t.isLt N_0
  have h2 : k.val < 4 := Nat.lt_of_lt_of_le k.isLt k0_t1_abs.2.1
  have := r.isLt; omega

/-- The features as launched. -/
abbrev feats (c : Dev nD) : FVec F S131072x256 .f32 := m ((c : Thread nD τ).loc main_arg0)
/-- The labels as launched. -/
abbrev labels (c : Dev nD) : IVec S131072 32 := m ((c : Thread nD τ).loc main_arg1)

/-- The feature window's block index at point `t`: block `t` of the rows, the one block of the columns. -/
theorem idx0 : ∀ t : Fin cfg0.N, win0_0.index t (0 : Fin 2) = t.val ∧ win0_0.index t (1 : Fin 2) = 0 :=
  (by decide +kernel : ∀ t : Fin grid0.N, _)

/-- The label window's block index at point `t`: row `t` of the sixteen, the one block of the other two axes. -/
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

/-- The label array the region finds is the launched labels laid out as sixteen rows of 8192 lanes. -/
theorem V_main_v0 (c : Dev nD) : (V m c main_v0 : S16x1x8192.Idx → Elt F .i32)
    = shapeCast S16x1x8192 (labels m c) shapeCasts_S131072_S16x1x8192 := by
  dsimp only [V, V0, hostOps0]
  simp only [List.flatten_cons, List.flatten_nil, List.append_nil]
  after_results
  rfl

theorem rowsOf_block (c : Dev nD) (t : Fin cfg0.N) (k : Fin k0_t1_loop.trips) (r : Fin 2048) (d : Fin 256) :
    rowsOf (ms0 t) ((hs0 t).unread (iblk m c 0 t)) k (ix2 r d)
      = feats m c (ix2 ⟨8192 * t.val + 2048 * k.val + r.val, row_lt t k r⟩ d) := by
  unfold rowsOf
  rw [View.readAt_eq_ld, Memref.IsWhole.read_unread]
  -- the chunk's element is the block's at offset + coordinate, and the block's is the array's at
  -- block index × block size + coordinate
  show V m c main_arg0 (((cfg0.win 0).blk t).view.emb ((Rect.unit (s := S8192x256) (k0_off1 k) S2048x256.size (k0_off1_inb k)).idx (ix2 r d))) = _
  rw [V_main_arg0]
  obtain ⟨e0, e1⟩ := idx0 t
  have hk := k0_off1_eq k
  refine congrArg _ ?_
  funext a; apply Fin.ext
  match a with
  | ⟨0, _⟩ =>
    show win0_0.index t (0 : Fin 2) * 8192 + 1 * (k0_off1 k 0 + 1 * r.val) = 8192 * t.val + 2048 * k.val + r.val
    rw [hk, e0]; show t.val * 8192 + 1 * (2048 * k.val + 1 * r.val) = _; omega
  | ⟨1, _⟩ =>
    show win0_0.index t (1 : Fin 2) * 256 + 1 * (k0_off1 k 1 + 1 * d.val) = d.val
    rw [hk, e1]; show 0 * 256 + 1 * (0 + 1 * d.val) = _; omega

theorem labsOf_block (c : Dev nD) (t : Fin cfg0.N) (k : Fin k0_t1_loop.trips) (r : Fin 2048) :
    labsOf (ms1 t) ((hs1 t).unread (iblk m c 1 t)) k (ix3 0 0 r)
      = labels m c (ix1 ⟨8192 * t.val + 2048 * k.val + r.val, row_lt t k r⟩) := by
  unfold labsOf
  rw [View.readAt_eq_ld, Memref.IsWhole.read_unread]
  show V m c main_v0 (((cfg0.win 1).blk t).view.emb ((Rect.unit (s := S1x1x8192) (k0_off2 k) S1x1x2048.size (k0_off2_inb k)).idx (ix3 0 0 r))) = _
  refine (congrFun (V_main_v0 m c) _).trans ?_
  -- lane `2048·k + r` of row `t` of the sixteen has the row-major position `8192·t + 2048·k + r`
  refine shapeCast_apply _ _ _ _ ?_
  rw [Shape.rowMajor_val_one, Shape.rowMajor_val_three]
  obtain ⟨e0, e1, e2⟩ := idx1 t
  have hk := k0_off2_eq k
  show 8192 * t.val + 2048 * k.val + r.val
    = ((win0_1.index t (0 : Fin 3) * 1 + 1 * (k0_off2 k 0 + 1 * 0)) * 1 + (win0_1.index t (1 : Fin 3) * 1 + 1 * (k0_off2 k 1 + 1 * 0))) * 8192
      + (win0_1.index t (2 : Fin 3) * 8192 + 1 * (k0_off2 k 2 + 1 * r.val))
  rw [hk, e0, e1, e2]
  show 8192 * t.val + 2048 * k.val + r.val = ((t.val * 1 + 1 * (0 + 1 * 0)) * 1 + (0 * 1 + 1 * (0 + 1 * 0))) * 8192 + (0 * 8192 + 1 * (2048 * k.val + 1 * r.val))
  omega

end Cert.KernelIdeal.Hand

end
-- ==== Proof.ChunkValue.lean ====
/-
  The arithmetic of the kernel body at the exact instance, read at an index. One chunk of 2048 rows adds to each
  accumulator, at class `b`, the sum over the chunk's rows whose label is `b` of the row's feature (of its square; of
  one): the one-hot of the labels against the class index is `1` exactly at those rows, the matrix product with the rows
  laid beside their squares sums them, and the lane sum of the one-hot counts them. The clearing stores write zeros, and the
  copies out are the accumulators with a unit axis put in front.
-/
import proofs.«414262_j69063074120047_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.ChunkValue

open Cert.KernelIdeal Cert.KernelIdeal.Gen
open Idealize.ShloMosaic Idealize.ShloMosaic.TcCoe Idealize.ShloMosaic.ValueIdx

/-! ### Words: a label against a class index -/

/-- A 32-bit word reads, signed, as a class index (below 19) exactly when it is that index's word. -/
theorem toInt_eq_iff (lab : BitVec 32) (b : Fin 19) : lab.toInt = (b.val : ℤ) ↔ lab = BitVec.ofNat 32 b.val := by
  have hb := b.isLt
  have hl := lab.isLt
  constructor
  · intro h
    apply BitVec.eq_of_toNat_eq
    rw [BitVec.toNat_ofNat]
    rw [BitVec.toInt_eq_toNat_cond] at h
    omega
  · rintro rfl
    rw [BitVec.toInt_eq_toNat_cond, BitVec.toNat_ofNat]
    omega

/-- A condition's bit, widened to a word and read as a signed integer, is one where the condition holds, else zero. -/
theorem sitofp_extui_ofBool (c : Bool) :
    ((((BitVec.ofBool c).setWidth 32).toInt : ℝ) : EReal) = if c = true then 1 else 0 := by
  cases c
  · have h0 : ((BitVec.ofBool false).setWidth 32).toInt = 0 := by decide
    rw [h0]; simp
  · have h1 : ((BitVec.ofBool true).setWidth 32).toInt = 1 := by decide
    rw [h1]; simp

/-! ### The one-hot of the labels against the class index -/

/-- The labels broadcast over the classes read, at class `b` and row `r`, row `r`'s label. -/
theorem labels_apply (v14 : Vec Ideal S1x1x2048 .i32) (b : Fin 19) (r : Fin 2048) :
    broadcastTo S19x2048 (shapeCast S1x2048 v14 shapeCasts_S1x1x2048_S1x2048) broadcasts_S1x2048_S19x2048 (ix2 b r)
      = v14 (ix3 0 0 r) := by
  refine (broadcastTo_apply _ _ (ix2 b r) (ix2 0 r) ?_).trans ?_
  · intro a
    match a with
    | ⟨0, _⟩ => rfl
    | ⟨1, _⟩ => rfl
  · refine shapeCast_apply _ _ _ (ix3 0 0 r) ?_
    rw [Shape.rowMajor_val_three, Shape.rowMajor_val_two]
    rfl

/-- The one-hot at class `b` and row `r`: one where row `r`'s label is `b`, else zero. -/
theorem pay8_apply (v14 : Vec Ideal S1x1x2048 .i32) (b : Fin 19) (r : Fin 2048) :
    k0_pay8 (F := Ideal) v14 (ix2 b r) = if (v14 (ix3 0 0 r)).toInt = (b.val : ℤ) then (1 : EReal) else 0 := by
  unfold k0_pay8
  show ((((IntOp.cmpi .eq (broadcastTo S19x2048 (shapeCast S1x2048 v14 shapeCasts_S1x1x2048_S1x2048) broadcasts_S1x2048_S19x2048 (ix2 b r))
    (iota .tc S19x2048 32 [0] iota_S19x2048_d0_w32 (ix2 b r))).setWidth 32).toInt : ℝ) : EReal) = _
  rw [labels_apply, iota_single_apply]
  show ((((BitVec.ofBool (v14 (ix3 0 0 r) == BitVec.ofNat 32 b.val)).setWidth 32).toInt : ℝ) : EReal) = _
  rw [sitofp_extui_ofBool]
  refine if_congr ?_ rfl rfl
  rw [beq_iff_eq]
  exact (toInt_eq_iff _ b).symm

/-! ### The matrix product of the one-hot with the rows laid beside their squares -/

/-- The product's operand indices at result index `j` and contraction index `k`, coordinate by coordinate: the left
    operand is read at row `j 0`, column `k`; the right one at row `k`, column `j 1`. -/
theorem lhs_0 (j : S19x512.Idx) (k : dot_S19x2048_S2048x512_S19x512_1_0_0_1_n_n.contr.Idx) :
    (dot_S19x2048_S2048x512_S19x512_1_0_0_1_n_n.lhsIdx j k 0 : ℕ) = j 0 := by
  simp [DotDims.lhsIdx, dot_S19x2048_S2048x512_S19x512_1_0_0_1_n_n]; rfl
theorem lhs_1 (j : S19x512.Idx) (k : dot_S19x2048_S2048x512_S19x512_1_0_0_1_n_n.contr.Idx) :
    (dot_S19x2048_S2048x512_S19x512_1_0_0_1_n_n.lhsIdx j k 1 : ℕ) = k ⟨0, by decide⟩ := by
  simp [DotDims.lhsIdx, dot_S19x2048_S2048x512_S19x512_1_0_0_1_n_n]; rfl
theorem rhs_0 (j : S19x512.Idx) (k : dot_S19x2048_S2048x512_S19x512_1_0_0_1_n_n.contr.Idx) :
    (dot_S19x2048_S2048x512_S19x512_1_0_0_1_n_n.rhsIdx j k 0 : ℕ) = k ⟨0, by decide⟩ := by
  simp [DotDims.rhsIdx, dot_S19x2048_S2048x512_S19x512_1_0_0_1_n_n]; rfl
theorem rhs_1 (j : S19x512.Idx) (k : dot_S19x2048_S2048x512_S19x512_1_0_0_1_n_n.contr.Idx) :
    (dot_S19x2048_S2048x512_S19x512_1_0_0_1_n_n.rhsIdx j k 1 : ℕ) = j 1 := by
  simp [DotDims.rhsIdx, dot_S19x2048_S2048x512_S19x512_1_0_0_1_n_n]; rfl

/-- The contraction's index is a row of the chunk. -/
def contrEquiv : dot_S19x2048_S2048x512_S19x512_1_0_0_1_n_n.contr.Idx ≃ Fin 2048 :=
  contrEquiv1 dot_S19x2048_S2048x512_S19x512_1_0_0_1_n_n 2048 rfl rfl
theorem contrEquiv_symm_val (r : Fin 2048) : ((contrEquiv.symm r) ⟨0, by decide⟩ : ℕ) = r.val :=
  contrEquiv1_symm_val _ _ _ _ r

/-- At class `b`, column `c` and row `r` the product multiplies the one-hot at `(b, r)` with the right operand at `(r, c)`. -/
theorem lhsIdx_eq (b : Fin 19) (c : Fin 512) (r : Fin 2048) :
    dot_S19x2048_S2048x512_S19x512_1_0_0_1_n_n.lhsIdx (ix2 b c) (contrEquiv.symm r) = ix2 b r :=
  Shape.idx_ext₂ (by rw [lhs_0]) (by rw [lhs_1, contrEquiv_symm_val])
theorem rhsIdx_eq (b : Fin 19) (c : Fin 512) (r : Fin 2048) :
    dot_S19x2048_S2048x512_S19x512_1_0_0_1_n_n.rhsIdx (ix2 b c) (contrEquiv.symm r) = ix2 r c :=
  Shape.idx_ext₂ (by rw [rhs_0, contrEquiv_symm_val]) (by rw [rhs_1])

/-- The product's right operand: the chunk's rows laid beside their squares. -/
abbrev rowsAndSquares (v12 : Vec Ideal S2048x256 .f32) : FVec Ideal S2048x512 .bf16 :=
  concatenate S2048x512 1 [⟨S2048x256, truncf (F := Ideal) .bf16 v12 bitsLt_bf16_f32⟩,
      ⟨S2048x256, truncf (F := Ideal) .bf16 (mulf (F := Ideal) v12 v12) bitsLt_bf16_f32⟩]
    concatenates_S2048x256_S2048x256_S2048x512_d1

/-- The product at class `b` and column `c`: the sum over the chunk's rows of the one-hot times the right operand. -/
theorem pay9_apply (v12 : Vec Ideal S2048x256 .f32) (v14 : Vec Ideal S1x1x2048 .i32) (b : Fin 19) (c : Fin 512) :
    k0_pay9 (F := Ideal) v12 v14 (ix2 b c)
      = ∑ r : Fin 2048, (k0_pay8 (F := Ideal) v14 (ix2 b r) * rowsAndSquares v12 (ix2 r c) : EReal) := by
  unfold k0_pay9
  refine (Ideal.matmul_constant_zero_apply dot_S19x2048_S2048x512_S19x512_1_0_0_1_n_n none _ _ (ix2 b c)).trans ?_
  rw [← Equiv.sum_comp contrEquiv.symm]
  refine Finset.sum_congr rfl fun r _ => ?_
  rw [lhsIdx_eq, rhsIdx_eq]
  rfl

/-- The right operand's column `d` below 256 is the rows themselves … -/
theorem cat_left (v12 : Vec Ideal S2048x256 .f32) (r : Fin 2048) (d : Fin 256) :
    rowsAndSquares v12 (ix2 r (⟨d.val, by omega⟩ : Fin 512)) = v12 (ix2 r d) := by
  refine (concatenate_pair_apply_left (t := S2048x512) (s₁ := S2048x256) (s₂ := S2048x256) _ _ _ _ (ix2 r (⟨d.val, by omega⟩ : Fin 512)) rfl (ix2 r d) ?_).trans rfl
  intro a
  match a with
  | ⟨0, _⟩ => rfl
  | ⟨1, _⟩ => rfl

/-- … and its column `256 + d` is their squares. -/
theorem cat_right (v12 : Vec Ideal S2048x256 .f32) (r : Fin 2048) (d : Fin 256) :
    rowsAndSquares v12 (ix2 r (⟨256 + d.val, by omega⟩ : Fin 512)) = v12 (ix2 r d) * v12 (ix2 r d) := by
  refine (concatenate_pair_apply_right (t := S2048x512) (s₁ := S2048x256) (s₂ := S2048x256) _ _ _ _ (ix2 r (⟨256 + d.val, by omega⟩ : Fin 512)) rfl rfl (ix2 r d) ?_ ?_).trans rfl
  · intro a ha
    match a, ha with
    | ⟨0, _⟩, _ => rfl
    | ⟨1, _⟩, ha => exact absurd rfl ha
  · show d.val + 256 = 256 + d.val
    omega

/-- The row sums' accumulator after one chunk: what it held plus the chunk's rows of class `b`. -/
theorem pay10_apply (v12 : Vec Ideal S2048x256 .f32) (v14 : Vec Ideal S1x1x2048 .i32) (v27 : Vec Ideal S19x256 .f32) (b : Fin 19) (d : Fin 256) :
    k0_pay10 (F := Ideal) v12 v14 v27 (ix2 b d)
      = v27 (ix2 b d) + ∑ r : Fin 2048, (if (v14 (ix3 0 0 r)).toInt = (b.val : ℤ) then v12 (ix2 r d) else 0) := by
  unfold k0_pay10
  refine (congrFun (shapeCast_self _ _) (ix2 b d)).trans ?_
  refine congrArg (v27 (ix2 b d) + ·) ?_
  refine (extractStridedSlice_apply _ _ _ (ix2 b d) (ix2 b (⟨d.val, by omega⟩ : Fin 512)) ?_).trans ?_
  · intro a
    match a with
    | ⟨0, _⟩ => show b.val = 0 + b.val; omega
    | ⟨1, _⟩ => show d.val = 0 + d.val; omega
  · rw [pay9_apply]
    refine Finset.sum_congr rfl fun r _ => ?_
    rw [pay8_apply, cat_left, ite_mul, one_mul, zero_mul]

/-- The squares' accumulator after one chunk. -/
theorem pay11_apply (v12 : Vec Ideal S2048x256 .f32) (v14 : Vec Ideal S1x1x2048 .i32) (v33 : Vec Ideal S19x256 .f32) (b : Fin 19) (d : Fin 256) :
    k0_pay11 (F := Ideal) v12 v14 v33 (ix2 b d)
      = v33 (ix2 b d) + ∑ r : Fin 2048, (if (v14 (ix3 0 0 r)).toInt = (b.val : ℤ) then v12 (ix2 r d) * v12 (ix2 r d) else 0) := by
  unfold k0_pay11
  refine (congrFun (shapeCast_self _ _) (ix2 b d)).trans ?_
  refine congrArg (v33 (ix2 b d) + ·) ?_
  refine (extractStridedSlice_apply _ _ _ (ix2 b d) (ix2 b (⟨256 + d.val, by omega⟩ : Fin 512)) ?_).trans ?_
  · intro a
    match a with
    | ⟨0, _⟩ => show b.val = 0 + b.val; omega
    | ⟨1, _⟩ => show 256 + d.val = 256 + d.val; rfl
  · rw [pay9_apply]
    refine Finset.sum_congr rfl fun r _ => ?_
    rw [pay8_apply, cat_right, ite_mul, one_mul, zero_mul]

/-- The index a lane sum at class `b` reads at lane `r` is `(b, r)`. -/
theorem lift_eq (b : Fin 19) (r : Fin 2048) : reduces_S19x2048_S19.lift (ix1 b) r = ix2 b r := by
  funext a
  match a with
  | ⟨0, _⟩ => exact Fin.ext rfl
  | ⟨1, _⟩ => exact Fin.ext rfl

/-- The counts' accumulator after one chunk. -/
theorem pay12_apply (v14 : Vec Ideal S1x1x2048 .i32) (v39 : Vec Ideal S19x1 .f32) (b : Fin 19) :
    k0_pay12 (F := Ideal) v14 v39 (ix2 b 0)
      = v39 (ix2 b 0) + ∑ r : Fin 2048, (if (v14 (ix3 0 0 r)).toInt = (b.val : ℤ) then (1 : EReal) else 0) := by
  unfold k0_pay12
  refine congrArg (v39 (ix2 b 0) + ·) ?_
  refine (shapeCast_apply _ _ (ix2 b 0) (ix1 b) ?_).trans ?_
  · rw [Shape.rowMajor_val_one, Shape.rowMajor_val_two]
    show b.val = b.val * 1 + (0 : ℕ)
    omega
  · refine (Ideal.multiReduction_add_single (k0_pay8 (F := Ideal) v14) _ reduces_S19x2048_S19 _ _ (ix1 b)).trans ?_
    refine Finset.sum_congr rfl fun r _ => ?_
    exact (congrArg (k0_pay8 (F := Ideal) v14) (lift_eq b r)).trans (pay8_apply v14 b r)

/-- The store back of the counts is the value itself. -/
theorem pay4_eq (v42 : FVec Ideal S19x1 .f32) : k0_pay4 (F := Ideal) v42 = v42 := by
  unfold k0_pay4
  exact shapeCast_self _ _

/-- The clearing stores write zeros. -/
theorem pay1_apply (j : S19x256.Idx) : k0_pay1 (F := Ideal) j = 0 := by
  unfold k0_pay1
  refine (congrFun (shapeCast_self _ _) j).trans ?_
  exact Ideal.ofBits_zero_f32
theorem pay2_apply (j : S19x256.Idx) : k0_pay2 (F := Ideal) j = 0 := by
  unfold k0_pay2
  refine (congrFun (shapeCast_self _ _) j).trans ?_
  exact Ideal.ofBits_zero_f32
theorem pay3_apply (j : S19x1.Idx) : k0_pay3 (F := Ideal) j = 0 := by
  unfold k0_pay3
  refine (congrFun (shapeCast_self _ _) j).trans ?_
  exact Ideal.ofBits_zero_f32

/-- The copies out put a unit axis in front. -/
theorem pay5_apply (v7 : Vec Ideal S19x256 .f32) (b : Fin 19) (d : Fin 256) : k0_pay5 (F := Ideal) v7 (ix3 0 b d) = v7 (ix2 b d) := by
  unfold k0_pay5
  refine shapeCast_apply _ _ _ (ix2 b d) ?_
  rw [Shape.rowMajor_val_three, Shape.rowMajor_val_two]
  show b.val * 256 + d.val = ((0 : ℕ) * 19 + b.val) * 256 + d.val
  omega
theorem pay6_apply (v11 : Vec Ideal S19x256 .f32) (b : Fin 19) (d : Fin 256) : k0_pay6 (F := Ideal) v11 (ix3 0 b d) = v11 (ix2 b d) := by
  unfold k0_pay6
  refine shapeCast_apply _ _ _ (ix2 b d) ?_
  rw [Shape.rowMajor_val_three, Shape.rowMajor_val_two]
  show b.val * 256 + d.val = ((0 : ℕ) * 19 + b.val) * 256 + d.val
  omega
theorem pay7_apply (v15 : Vec Ideal S19x1 .f32) (b : Fin 19) : k0_pay7 (F := Ideal) v15 (ix3 0 b 0) = v15 (ix2 b 0) := by
  unfold k0_pay7
  refine shapeCast_apply _ _ _ (ix2 b 0) ?_
  rw [Shape.rowMajor_val_three, Shape.rowMajor_val_two]
  show b.val * 1 + (0 : ℕ) = ((0 : ℕ) * 19 + b.val) * 1 + (0 : ℕ)
  omega

end Cert.KernelIdeal.ChunkValue

end
-- ==== Proof.Spec.lean ====
/-
  The mathematics both programs compute, stated once over the extended reals.

  Per class `b` of nineteen: the sum over the 131072 rows whose label is `b` (the label read as a signed word; a row
  whose label is outside 0..18 belongs to no class) of the row's feature, of its square, and of one. From those three
  sums `s`, `q`, `k`: the clamped count `max k 1`, the class mean `s / max k 1`, the sum of squared deviations over the
  clamped count `(q − 2·mean·s + k·mean·mean) / max k 1`, the blending weight `w = k / (k + amount)` where `k + amount` is
  positive and `0` elsewhere, and the three blended results.

  The rows are also cut into 64 chunks of 2048 consecutive rows: a class's sum is the sum of its 64 chunk sums, the form
  in which a kernel that walks the rows chunk by chunk, thirty-two chunks to a core, arrives at it.
-/
import Idealize.ShloMosaic.PureOps.Ideal
import Idealize.ShloMosaic.Lib.ValueIdx

open scoped BigOperators

noncomputable section

namespace Cert.Spec

open Idealize.ShloMosaic

/-- The sum of `u n` over the rows `n` whose label, read signed, is `b`. -/
def seg (lab : Fin 131072 → BitVec 32) (u : Fin 131072 → EReal) (b : Fin 19) : EReal :=
  ∑ n : Fin 131072, if (lab n).toInt = (b.val : ℤ) then u n else 0

/-- Row `r` of chunk `p` (64 chunks of 2048 rows). -/
def rowOf (p : Fin 64) (r : Fin 2048) : Fin 131072 := ⟨p.val * 2048 + r.val, by have := p.isLt; have := r.isLt; omega⟩

/-- The same sum restricted to chunk `p`. -/
def chunk (lab : Fin 131072 → BitVec 32) (u : Fin 131072 → EReal) (b : Fin 19) (p : Fin 64) : EReal :=
  ∑ r : Fin 2048, if (lab (rowOf p r)).toInt = (b.val : ℤ) then u (rowOf p r) else 0

/-- A core's running sum after its first `n` chunks (core `cc` walks chunks `32·cc … 32·cc + 31`), from zero, each
    chunk added to what came before. -/
def partialSum (lab : Fin 131072 → BitVec 32) (u : Fin 131072 → EReal) (b : Fin 19) (cc : Fin 2) : ℕ → EReal
  | 0 => 0
  | n + 1 => partialSum lab u b cc n + (if h : n < 32 then chunk lab u b ⟨cc.val * 32 + n, by have := cc.isLt; omega⟩ else 0)

section Update
variable (s q k cov av am : Ideal .f32)

/-- The literals `0`, `1`, `2` as the programs spell them. -/
def zero : Ideal .f32 := FloatOps.ofBits (F := Ideal) .f32 0x00000000#32
def one : Ideal .f32 := FloatOps.ofBits (F := Ideal) .f32 0x3F800000#32
def two : Ideal .f32 := FloatOps.ofBits (F := Ideal) .f32 0x40000000#32

/-- The clamped count. -/
def kc : Ideal .f32 := FloatOps.maximumf (F := Ideal) (φ := .f32) k one
/-- The class mean. -/
def mean : Ideal .f32 := FloatOps.hostDivf (F := Ideal) (φ := .f32) s (kc k)
/-- The squared deviations over the clamped count. -/
def var : Ideal .f32 :=
  FloatOps.hostDivf (F := Ideal) (φ := .f32)
    (FloatOps.addf (F := Ideal) (φ := .f32)
      (FloatOps.subf (F := Ideal) (φ := .f32) q (FloatOps.mulf (F := Ideal) (φ := .f32) (FloatOps.mulf (F := Ideal) (φ := .f32) two (mean s k)) s))
      (FloatOps.mulf (F := Ideal) (φ := .f32) (FloatOps.mulf (F := Ideal) (φ := .f32) k (mean s k)) (mean s k)))
    (kc k)
/-- The blending weight. -/
def weight : Ideal .f32 :=
  Scalar.select (FloatOps.cmpf (F := Ideal) (φ := .f32) .ogt (FloatOps.addf (F := Ideal) (φ := .f32) k am) zero)
    (FloatOps.hostDivf (F := Ideal) (φ := .f32) k
      (Scalar.select (FloatOps.cmpf (F := Ideal) (φ := .f32) .ogt (FloatOps.addf (F := Ideal) (φ := .f32) k am) zero)
        (FloatOps.addf (F := Ideal) (φ := .f32) k am) one))
    zero
/-- `1 − w`. -/
def coweight : Ideal .f32 := FloatOps.subf (F := Ideal) (φ := .f32) one (weight k am)

/-- The new covariance entry: `cov·(1 − w) + var·w + w·(1 − w)·(av − mean)²`. -/
def covNew : Ideal .f32 :=
  FloatOps.addf (F := Ideal) (φ := .f32)
    (FloatOps.addf (F := Ideal) (φ := .f32)
      (FloatOps.mulf (F := Ideal) (φ := .f32) cov (coweight k am))
      (FloatOps.mulf (F := Ideal) (φ := .f32) (var s q k) (weight k am)))
    (FloatOps.mulf (F := Ideal) (φ := .f32)
      (FloatOps.mulf (F := Ideal) (φ := .f32) (weight k am) (coweight k am))
      (FloatOps.mulf (F := Ideal) (φ := .f32)
        (FloatOps.subf (F := Ideal) (φ := .f32) av (mean s k)) (FloatOps.subf (F := Ideal) (φ := .f32) av (mean s k))))
/-- The new mean entry: `av·(1 − w) + mean·w`. -/
def aveNew : Ideal .f32 :=
  FloatOps.addf (F := Ideal) (φ := .f32)
    (FloatOps.mulf (F := Ideal) (φ := .f32) av (coweight k am))
    (FloatOps.mulf (F := Ideal) (φ := .f32) (mean s k) (weight k am))
/-- The new amount: `am + k`. -/
def amtNew : Ideal .f32 := FloatOps.addf (F := Ideal) (φ := .f32) am k

end Update

end Cert.Spec

end
-- ==== Proof.KernelIdealSums.lean ====
/-
  The accumulators after every grid point, over the extended reals: after step `j` of core `cc` (point `8·cc + j`) the
  three accumulators hold, at class `b`, the core's running sums over its first `4·j + 4` chunks — of the rows of class
  `b`, of their squares, and of ones. Each chunk's step adds that chunk's sum (the one-hot product, the lane count), the
  chunk at point `t`, trip `k` being chunk `4·t + k` of the sixty-four.
-/
import proofs.«414262_j69063074120047_3_alg».proof.Proof.KernelIdealSteps
import proofs.«414262_j69063074120047_3_alg».proof.Proof.KernelIdealBlocks
import proofs.«414262_j69063074120047_3_alg».proof.Proof.ChunkValue
import proofs.«414262_j69063074120047_3_alg».proof.Proof.Spec

set_option maxRecDepth 16384

open scoped BigOperators

noncomputable section

namespace Cert.KernelIdeal.Hand

open Cert.KernelIdeal Cert.KernelIdeal.Gen Cert.KernelIdeal.ChunkValue
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The labels by row, and the three summands by row: column `d` of the features, its square, and one. -/
abbrev labRow (c : Dev nD) : Fin 131072 → BitVec 32 := fun n => labels m c (ix1 n)
abbrev colS (c : Dev nD) (d : Fin 256) : Fin 131072 → EReal := fun n => feats m c (ix2 n d)
abbrev colQ (c : Dev nD) (d : Fin 256) : Fin 131072 → EReal := fun n => feats m c (ix2 n d) * feats m c (ix2 n d)
abbrev colN : Fin 131072 → EReal := fun _ => 1

/-- The loop makes four trips. -/
theorem trips_eq : k0_t1_loop.trips = 4 := by decide +kernel

theorem point_lt (t : Fin cfg0.N) : t.val < 16 := lt_of_lt_of_eq t.isLt N_0
theorem core_lt (t : Fin cfg0.N) : t.val / 8 < 2 := by have := point_lt t; omega
theorem chunk_lt (t : Fin cfg0.N) (k : Fin k0_t1_loop.trips) : 4 * t.val + k.val < 64 := by
  have := point_lt t; have : k.val < 4 := lt_of_lt_of_eq k.isLt trips_eq; omega

/-- The chunk at point `t`, trip `k`, is chunk `4·t + k`: its rows are the features' rows `8192·t + 2048·k + r`. -/
theorem rowOf_at (t : Fin cfg0.N) (k : Fin k0_t1_loop.trips) (r : Fin 2048) :
    Spec.rowOf ⟨4 * t.val + k.val, chunk_lt t k⟩ r = ⟨8192 * t.val + 2048 * k.val + r.val, row_lt t k r⟩ := by
  apply Fin.ext; show (4 * t.val + k.val) * 2048 + r.val = 8192 * t.val + 2048 * k.val + r.val; omega

/-- The one-hot product of the chunk at point `t`, trip `k`, is that chunk's sum of the rows of class `b`. -/
theorem chunkS_at (c : Dev nD) (t : Fin cfg0.N) (k : Fin k0_t1_loop.trips) (b : Fin 19) (d : Fin 256) :
    (∑ r : Fin 2048, if (labsAt m c t k (ix3 0 0 r)).toInt = (b.val : ℤ) then rowsAt m c t k (ix2 r d) else 0)
      = Spec.chunk (labRow m c) (colS m c d) b ⟨4 * t.val + k.val, chunk_lt t k⟩ := by
  unfold Spec.chunk
  refine Finset.sum_congr rfl fun r _ => ?_
  have e1 : labsAt m c t k (ix3 0 0 r) = labRow m c ⟨_, row_lt t k r⟩ := labsOf_block m c t k r
  have e2 : rowsAt m c t k (ix2 r d) = colS m c d ⟨_, row_lt t k r⟩ := rowsOf_block m c t k r d
  simp only [rowOf_at, e1, e2]
theorem chunkQ_at (c : Dev nD) (t : Fin cfg0.N) (k : Fin k0_t1_loop.trips) (b : Fin 19) (d : Fin 256) :
    (∑ r : Fin 2048, if (labsAt m c t k (ix3 0 0 r)).toInt = (b.val : ℤ) then rowsAt m c t k (ix2 r d) * rowsAt m c t k (ix2 r d) else 0)
      = Spec.chunk (labRow m c) (colQ m c d) b ⟨4 * t.val + k.val, chunk_lt t k⟩ := by
  unfold Spec.chunk
  refine Finset.sum_congr rfl fun r _ => ?_
  have e1 : labsAt m c t k (ix3 0 0 r) = labRow m c ⟨_, row_lt t k r⟩ := labsOf_block m c t k r
  have e2 : rowsAt m c t k (ix2 r d) = feats m c (ix2 ⟨_, row_lt t k r⟩ d) := rowsOf_block m c t k r d
  simp only [rowOf_at, e1, e2]
theorem chunkN_at (c : Dev nD) (t : Fin cfg0.N) (k : Fin k0_t1_loop.trips) (b : Fin 19) :
    (∑ r : Fin 2048, if (labsAt m c t k (ix3 0 0 r)).toInt = (b.val : ℤ) then (1 : EReal) else 0)
      = Spec.chunk (labRow m c) colN b ⟨4 * t.val + k.val, chunk_lt t k⟩ := by
  unfold Spec.chunk
  refine Finset.sum_congr rfl fun r _ => ?_
  have e1 : labsAt m c t k (ix3 0 0 r) = labRow m c ⟨_, row_lt t k r⟩ := labsOf_block m c t k r
  simp only [rowOf_at, e1]

/-- The core's running sum steps by the chunk of point `t`, trip `k`. -/
theorem partial_step (lab : Fin 131072 → BitVec 32) (u : Fin 131072 → EReal) (b : Fin 19) (t : Fin cfg0.N) (k : Fin k0_t1_loop.trips) :
    Spec.partialSum lab u b ⟨t.val / 8, core_lt t⟩ (4 * (t.val % 8) + k.val + 1)
      = Spec.partialSum lab u b ⟨t.val / 8, core_lt t⟩ (4 * (t.val % 8) + k.val) + Spec.chunk lab u b ⟨4 * t.val + k.val, chunk_lt t k⟩ := by
  have hk : k.val < 4 := lt_of_lt_of_eq k.isLt trips_eq
  rw [Spec.partialSum, dif_pos (by omega)]
  congr 2
  apply Fin.ext
  show t.val / 8 * 32 + (4 * (t.val % 8) + k.val) = 4 * t.val + k.val
  omega

/-- The chunk steps iterated from accumulators holding the running sums over the earlier chunks hold the running
    sums over those and the `n` more. -/
theorem iter_sums (c : Dev nD) (t : Fin cfg0.N) (a : Acc3 Ideal)
    (hS : ∀ b d, a.1 (ix2 b d) = Spec.partialSum (labRow m c) (colS m c d) b ⟨t.val / 8, core_lt t⟩ (4 * (t.val % 8)))
    (hQ : ∀ b d, a.2.1 (ix2 b d) = Spec.partialSum (labRow m c) (colQ m c d) b ⟨t.val / 8, core_lt t⟩ (4 * (t.val % 8)))
    (hN : ∀ b, a.2.2 (ix2 b 0) = Spec.partialSum (labRow m c) colN b ⟨t.val / 8, core_lt t⟩ (4 * (t.val % 8))) :
    ∀ n, n ≤ k0_t1_loop.trips →
      (∀ b d, (iter (rowsAt m c t) (labsAt m c t) a n).1 (ix2 b d) = Spec.partialSum (labRow m c) (colS m c d) b ⟨t.val / 8, core_lt t⟩ (4 * (t.val % 8) + n))
      ∧ (∀ b d, (iter (rowsAt m c t) (labsAt m c t) a n).2.1 (ix2 b d) = Spec.partialSum (labRow m c) (colQ m c d) b ⟨t.val / 8, core_lt t⟩ (4 * (t.val % 8) + n))
      ∧ (∀ b, (iter (rowsAt m c t) (labsAt m c t) a n).2.2 (ix2 b 0) = Spec.partialSum (labRow m c) colN b ⟨t.val / 8, core_lt t⟩ (4 * (t.val % 8) + n))
  | 0, _ => ⟨fun b d => hS b d, fun b d => hQ b d, fun b => hN b⟩
  | n + 1, hn => by
    have h : n < k0_t1_loop.trips := hn
    obtain ⟨iS, iQ, iN⟩ := iter_sums c t a hS hQ hN n (Nat.le_of_lt h)
    rw [iter_succ _ _ _ ⟨n, h⟩]
    refine ⟨fun b d => ?_, fun b d => ?_, fun b => ?_⟩
    · show k0_pay10 (F := Ideal) _ _ _ (ix2 b d) = _
      rw [pay10_apply, iS, chunkS_at m c t ⟨n, h⟩ b d]
      exact (partial_step _ _ b t ⟨n, h⟩).symm
    · show k0_pay11 (F := Ideal) _ _ _ (ix2 b d) = _
      rw [pay11_apply, iQ, chunkQ_at m c t ⟨n, h⟩ b d]
      exact (partial_step _ _ b t ⟨n, h⟩).symm
    · show k0_pay12 (F := Ideal) _ _ (ix2 b 0) = _
      rw [pay12_apply, iN, chunkN_at m c t ⟨n, h⟩ b]
      exact (partial_step _ _ b t ⟨n, h⟩).symm

/-- After point `n` the accumulators hold the core's running sums over its first `4·(n mod 8) + 4` chunks. -/
theorem stateAt_sums (c : Dev nD) : ∀ (n : ℕ) (hn : n < cfg0.N),
      (∀ b d, (stateAt m c n hn).2.1 (ix2 b d) = Spec.partialSum (labRow m c) (colS m c d) b ⟨n / 8, core_lt ⟨n, hn⟩⟩ (4 * (n % 8) + 4))
      ∧ (∀ b d, (stateAt m c n hn).2.2.1 (ix2 b d) = Spec.partialSum (labRow m c) (colQ m c d) b ⟨n / 8, core_lt ⟨n, hn⟩⟩ (4 * (n % 8) + 4))
      ∧ (∀ b, (stateAt m c n hn).2.2.2 (ix2 b 0) = Spec.partialSum (labRow m c) colN b ⟨n / 8, core_lt ⟨n, hn⟩⟩ (4 * (n % 8) + 4)) := by
  intro n
  induction n with
  | zero =>
    intro hn
    have h0 : (⟨0, hn⟩ : Fin cfg0.N).val % 8 = 0 := rfl
    have h1 : ¬(⟨0, hn⟩ : Fin cfg0.N).val % 8 = 7 := fun h => by (try dsimp only at h); omega
    rw [show stateAt m c 0 hn = _ from stateAt_first m c ⟨0, hn⟩ h0 h1, accFirst_eq]
    have := iter_sums m c ⟨0, hn⟩ (k0_pay1 (F := Ideal), k0_pay2 (F := Ideal), k0_pay3 (F := Ideal))
      (fun b d => by show k0_pay1 (F := Ideal) (ix2 b d) = _; rw [pay1_apply]; rfl)
      (fun b d => by show k0_pay2 (F := Ideal) (ix2 b d) = _; rw [pay2_apply]; rfl)
      (fun b => by show k0_pay3 (F := Ideal) (ix2 b 0) = _; rw [pay3_apply]; rfl)
      k0_t1_loop.trips le_rfl
    rw [trips_eq] at this
    exact this
  | succ n ih =>
    intro hn
    have hN : n + 1 < 16 := lt_of_lt_of_eq hn N_0
    obtain ⟨pS, pQ, pN⟩ := ih (Nat.lt_of_succ_lt hn)
    by_cases h0 : (n + 1) % 8 = 0
    · have h1 : ¬(n + 1) % 8 = 7 := by omega
      rw [show stateAt m c (n + 1) hn = _ from stateAt_first m c ⟨n + 1, hn⟩ h0 h1, accFirst_eq]
      have := iter_sums m c ⟨n + 1, hn⟩ (k0_pay1 (F := Ideal), k0_pay2 (F := Ideal), k0_pay3 (F := Ideal))
        (fun b d => by show k0_pay1 (F := Ideal) (ix2 b d) = Spec.partialSum _ _ _ _ (4 * ((n + 1) % 8)); rw [pay1_apply, h0]; rfl)
        (fun b d => by show k0_pay2 (F := Ideal) (ix2 b d) = Spec.partialSum _ _ _ _ (4 * ((n + 1) % 8)); rw [pay2_apply, h0]; rfl)
        (fun b => by show k0_pay3 (F := Ideal) (ix2 b 0) = Spec.partialSum _ _ _ _ (4 * ((n + 1) % 8)); rw [pay3_apply, h0]; rfl)
        k0_t1_loop.trips le_rfl
      rw [trips_eq] at this
      exact this
    · have hprev : ∀ (u : Fin 131072 → EReal) (b : Fin 19),
          Spec.partialSum (labRow m c) u b ⟨n / 8, core_lt ⟨n, Nat.lt_of_succ_lt hn⟩⟩ (4 * (n % 8) + 4)
            = Spec.partialSum (labRow m c) u b ⟨(n + 1) / 8, core_lt ⟨n + 1, hn⟩⟩ (4 * ((n + 1) % 8)) := by
        intro u b
        have e1 : n / 8 = (n + 1) / 8 := by omega
        have e2 : 4 * (n % 8) + 4 = 4 * ((n + 1) % 8) := by omega
        congr 1
        · exact Fin.ext e1
      have key := iter_sums m c ⟨n + 1, hn⟩ (stateAt m c n (Nat.lt_of_succ_lt hn)).2
        (fun b d => (pS b d).trans (hprev _ b)) (fun b d => (pQ b d).trans (hprev _ b)) (fun b => (pN b).trans (hprev _ b))
        k0_t1_loop.trips le_rfl
      rw [trips_eq] at key
      by_cases h1 : (n + 1) % 8 = 7
      · rw [show stateAt m c (n + 1) hn = _ from stateAt_last m c ⟨n + 1, hn⟩ h0 h1, accLast_eq]
        exact key
      · rw [show stateAt m c (n + 1) hn = _ from stateAt_mid m c ⟨n + 1, hn⟩ h0 h1, accMid_eq]
        exact key

end Cert.KernelIdeal.Hand

end
-- ==== Proof.KernelIdealArrays.lean ====
/-
  What the three partial-sum arrays hold after the region. Each core writes its slot once, at its last step, with its
  accumulators; by then these hold the core's running sums over all its thirty-two chunks. So slot `cc` of the row-sum
  array at class `b`, column `d`, is core `cc`'s sum of the rows of class `b`; likewise the squares and the counts.
-/
import proofs.«414262_j69063074120047_3_alg».proof.Proof.KernelIdealSums

set_option maxRecDepth 16384

open scoped BigOperators

noncomputable section

namespace Cert.KernelIdeal.Hand

open Cert.KernelIdeal Cert.KernelIdeal.Gen Cert.KernelIdeal.ChunkValue
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- Core `cc`'s full sums at class `b` (column `d`), by natural-number coordinates (zero outside the ranges). -/
def coreS (c : Dev nD) (cc b d : ℕ) : EReal :=
  if h : cc < 2 ∧ b < 19 ∧ d < 256 then Spec.partialSum (labRow m c) (colS m c ⟨d, h.2.2⟩) ⟨b, h.2.1⟩ ⟨cc, h.1⟩ 32 else 0
def coreQ (c : Dev nD) (cc b d : ℕ) : EReal :=
  if h : cc < 2 ∧ b < 19 ∧ d < 256 then Spec.partialSum (labRow m c) (colQ m c ⟨d, h.2.2⟩) ⟨b, h.2.1⟩ ⟨cc, h.1⟩ 32 else 0
def coreN (c : Dev nD) (cc b : ℕ) : EReal :=
  if h : cc < 2 ∧ b < 19 then Spec.partialSum (labRow m c) colN ⟨b, h.2⟩ ⟨cc, h.1⟩ 32 else 0

/-- What the three arrays end holding. -/
def finS (c : Dev nD) : S2x19x256.Idx → EReal := fun j => coreS m c (j 0).val (j 1).val (j 2).val
def finQ (c : Dev nD) : S2x19x256.Idx → EReal := fun j => coreQ m c (j 0).val (j 1).val (j 2).val
def finN (c : Dev nD) : S2x19x1.Idx → EReal := fun j => coreN m c (j 0).val (j 1).val

theorem finS_apply (c : Dev nD) (cc : Fin 2) (b : Fin 19) (d : Fin 256) :
    finS m c (ix3 cc b d) = Spec.partialSum (labRow m c) (colS m c d) b cc 32 := by
  show coreS m c cc.val b.val d.val = _
  unfold coreS; rw [dif_pos ⟨cc.isLt, b.isLt, d.isLt⟩]
theorem finQ_apply (c : Dev nD) (cc : Fin 2) (b : Fin 19) (d : Fin 256) :
    finQ m c (ix3 cc b d) = Spec.partialSum (labRow m c) (colQ m c d) b cc 32 := by
  show coreQ m c cc.val b.val d.val = _
  unfold coreQ; rw [dif_pos ⟨cc.isLt, b.isLt, d.isLt⟩]
theorem finN_apply (c : Dev nD) (cc : Fin 2) (b : Fin 19) :
    finN m c (ix3 cc b 0) = Spec.partialSum (labRow m c) colN b cc 32 := by
  show coreN m c cc.val b.val = _
  unfold coreN; rw [dif_pos ⟨cc.isLt, b.isLt⟩]

/-- The copies out at an index of the output block. -/
theorem outS_apply (w : Vec Ideal S19x256 .f32) (j : S1x19x256.Idx) :
    k0_pay5 (F := Ideal) w j = w (ix2 ⟨(j 1).val, (j 1).isLt⟩ ⟨(j 2).val, (j 2).isLt⟩) := by
  obtain ⟨y0, b, d, rfl⟩ : ∃ (y0 : Fin 1) (b : Fin 19) (d : Fin 256), j = ix3 y0 b d := ⟨j 0, j 1, j 2, eq_ix3 j⟩
  obtain rfl : y0 = 0 := Subsingleton.elim _ _
  exact pay5_apply w b d
theorem outQ_apply (w : Vec Ideal S19x256 .f32) (j : S1x19x256.Idx) :
    k0_pay6 (F := Ideal) w j = w (ix2 ⟨(j 1).val, (j 1).isLt⟩ ⟨(j 2).val, (j 2).isLt⟩) := by
  obtain ⟨y0, b, d, rfl⟩ : ∃ (y0 : Fin 1) (b : Fin 19) (d : Fin 256), j = ix3 y0 b d := ⟨j 0, j 1, j 2, eq_ix3 j⟩
  obtain rfl : y0 = 0 := Subsingleton.elim _ _
  exact pay6_apply w b d
theorem outN_apply (w : Vec Ideal S19x1 .f32) (j : S1x19x1.Idx) :
    k0_pay7 (F := Ideal) w j = w (ix2 ⟨(j 1).val, (j 1).isLt⟩ 0) := by
  obtain ⟨y0, b, d, rfl⟩ : ∃ (y0 : Fin 1) (b : Fin 19) (d : Fin 1), j = ix3 y0 b d := ⟨j 0, j 1, j 2, eq_ix3 j⟩
  obtain rfl : y0 = 0 := Subsingleton.elim _ _
  obtain rfl : d = 0 := Subsingleton.elim _ _
  exact pay7_apply w b

/-- The output windows' block indices over the grid: the core's number, then zeros. -/
theorem idx_out : ∀ t : Fin cfg0.N,
    win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0
    ∧ win0_4.index t (0 : Fin 3) = t.val / 8 ∧ win0_4.index t (1 : Fin 3) = 0 ∧ win0_4.index t (2 : Fin 3) = 0 :=
  (by decide +kernel : ∀ t : Fin grid0.N, _)

/-- The accumulators' full sums at the core's last step. -/
theorem last_sums (c : Dev nD) (t : Fin cfg0.N) (h7 : t.val % 8 = 7) :
    (∀ b d, (stateAt m c t.val t.isLt).2.1 (ix2 b d) = Spec.partialSum (labRow m c) (colS m c d) b ⟨t.val / 8, core_lt t⟩ 32)
    ∧ (∀ b d, (stateAt m c t.val t.isLt).2.2.1 (ix2 b d) = Spec.partialSum (labRow m c) (colQ m c d) b ⟨t.val / 8, core_lt t⟩ 32)
    ∧ (∀ b, (stateAt m c t.val t.isLt).2.2.2 (ix2 b 0) = Spec.partialSum (labRow m c) colN b ⟨t.val / 8, core_lt t⟩ 32) := by
  have h := stateAt_sums m c t.val t.isLt
  rw [h7] at h
  exact h

/-- WHAT A CORE'S LAST STEP WRITES BACK is its block of the full sums. -/
theorem flushedS_eq (c : Dev nD) (t : Fin cfg0.N) (hf : (cfg0.win 2).flush t = true) :
    (dats m 0 c).flushed 2 t = ((cfg0.win 2).blk t).view.read (Elt Ideal) (finS m c) := by
  have h7 : t.val % 8 = 7 := (flush0_2 t).mp hf
  have h0 : ¬t.val % 8 = 0 := by omega
  obtain ⟨hS, -, -⟩ := last_sums m c t h7
  rw [stateAt_last m c t h0 h7] at hS
  dsimp only at hS
  obtain ⟨e0, e1, e2, -⟩ := idx_out t
  show (cfg0.win 2).cut (grid0.coords t) ((dats m 0 c).after 2 t) = _
  rw [after2, stateAt_last m c t h0 h7, outLast_eq]
  funext j
  dsimp only
  show k0_pay5 (F := Ideal) _ j = finS m c (((cfg0.win 2).blk t).view.emb j)
  rw [← accLast_eq m c t (fun h => h0 ((isFirst_iff t).mp h)) ((isLast_iff t).mpr h7)]
  refine (outS_apply _ j).trans ?_
  rw [hS]
  unfold finS coreS
  have a0 : ((((cfg0.win 2).blk t).view.emb j) 0).val = t.val / 8 := by
    show win0_2.index t (0 : Fin 3) * 1 + 1 * (j 0).val = _
    have hj : (j 0).val < 1 := (j 0).isLt
    omega
  have a1 : ((((cfg0.win 2).blk t).view.emb j) 1).val = (j 1).val := by
    show win0_2.index t (1 : Fin 3) * 19 + 1 * (j 1).val = _
    omega
  have a2 : ((((cfg0.win 2).blk t).view.emb j) 2).val = (j 2).val := by
    show win0_2.index t (2 : Fin 3) * 256 + 1 * (j 2).val = _
    omega
  simp only [a0, a1, a2]
  rw [dif_pos ⟨core_lt t, (j 1).isLt, (j 2).isLt⟩]

theorem flushedQ_eq (c : Dev nD) (t : Fin cfg0.N) (hf : (cfg0.win 3).flush t = true) :
    (dats m 0 c).flushed 3 t = ((cfg0.win 3).blk t).view.read (Elt Ideal) (finQ m c) := by
  have h7 : t.val % 8 = 7 := (flush0_3 t).mp hf
  have h0 : ¬t.val % 8 = 0 := by omega
  obtain ⟨-, hQ, -⟩ := last_sums m c t h7
  rw [stateAt_last m c t h0 h7] at hQ
  dsimp only at hQ
  obtain ⟨-, -, -, e0, e1, e2, -⟩ := idx_out t
  show (cfg0.win 3).cut (grid0.coords t) ((dats m 0 c).after 3 t) = _
  rw [after3, stateAt_last m c t h0 h7, outLast_eq]
  funext j
  dsimp only
  show k0_pay6 (F := Ideal) _ j = finQ m c (((cfg0.win 3).blk t).view.emb j)
  rw [← accLast_eq m c t (fun h => h0 ((isFirst_iff t).mp h)) ((isLast_iff t).mpr h7)]
  refine (outQ_apply _ j).trans ?_
  rw [hQ]
  unfold finQ coreQ
  have a0 : ((((cfg0.win 3).blk t).view.emb j) 0).val = t.val / 8 := by
    show win0_3.index t (0 : Fin 3) * 1 + 1 * (j 0).val = _
    have hj : (j 0).val < 1 := (j 0).isLt
    omega
  have a1 : ((((cfg0.win 3).blk t).view.emb j) 1).val = (j 1).val := by
    show win0_3.index t (1 : Fin 3) * 19 + 1 * (j 1).val = _
    omega
  have a2 : ((((cfg0.win 3).blk t).view.emb j) 2).val = (j 2).val := by
    show win0_3.index t (2 : Fin 3) * 256 + 1 * (j 2).val = _
    omega
  simp only [a0, a1, a2]
  rw [dif_pos ⟨core_lt t, (j 1).isLt, (j 2).isLt⟩]

theorem flushedN_eq (c : Dev nD) (t : Fin cfg0.N) (hf : (cfg0.win 4).flush t = true) :
    (dats m 0 c).flushed 4 t = ((cfg0.win 4).blk t).view.read (Elt Ideal) (finN m c) := by
  have h7 : t.val % 8 = 7 := (flush0_4 t).mp hf
  have h0 : ¬t.val % 8 = 0 := by omega
  obtain ⟨-, -, hN⟩ := last_sums m c t h7
  rw [stateAt_last m c t h0 h7] at hN
  dsimp only at hN
  obtain ⟨-, -, -, -, -, -, e0, e1, e2⟩ := idx_out t
  show (cfg0.win 4).cut (grid0.coords t) ((dats m 0 c).after 4 t) = _
  rw [after4, stateAt_last m c t h0 h7, outLast_eq]
  funext j
  dsimp only
  show k0_pay7 (F := Ideal) _ j = finN m c (((cfg0.win 4).blk t).view.emb j)
  rw [← accLast_eq m c t (fun h => h0 ((isFirst_iff t).mp h)) ((isLast_iff t).mpr h7)]
  refine (outN_apply _ j).trans ?_
  rw [hN]
  unfold finN coreN
  have a0 : ((((cfg0.win 4).blk t).view.emb j) 0).val = t.val / 8 := by
    show win0_4.index t (0 : Fin 3) * 1 + 1 * (j 0).val = _
    have hj : (j 0).val < 1 := (j 0).isLt
    omega
  have a1 : ((((cfg0.win 4).blk t).view.emb j) 1).val = (j 1).val := by
    show win0_4.index t (1 : Fin 3) * 19 + 1 * (j 1).val = _
    omega
  simp only [a0, a1]
  rw [dif_pos ⟨core_lt t, (j 1).isLt⟩]

/-- An index of a partial-sum array is in point `t`'s block iff each coordinate is in the block's range on its axis. -/
theorem mem_blkS (t : Fin cfg0.N) (i : S2x19x256.Idx) :
    i ∈ ((cfg0.win 2).blk t).view.set ↔ ∀ a : Fin 3, win0_2.index t a * S1x19x256.size a ≤ (i a).val ∧ (i a).val < win0_2.index t a * S1x19x256.size a + S1x19x256.size a := by
  show i ∈ ((View.whole main_v1_0).slice (win0_2.rect t)).set ↔ _
  rw [View.set_slice_whole, Rect.mem_set_unit]
  exact Iff.rfl
theorem mem_blkQ (t : Fin cfg0.N) (i : S2x19x256.Idx) :
    i ∈ ((cfg0.win 3).blk t).view.set ↔ ∀ a : Fin 3, win0_3.index t a * S1x19x256.size a ≤ (i a).val ∧ (i a).val < win0_3.index t a * S1x19x256.size a + S1x19x256.size a := by
  show i ∈ ((View.whole main_v1_1).slice (win0_3.rect t)).set ↔ _
  rw [View.set_slice_whole, Rect.mem_set_unit]
  exact Iff.rfl
theorem mem_blkN (t : Fin cfg0.N) (i : S2x19x1.Idx) :
    i ∈ ((cfg0.win 4).blk t).view.set ↔ ∀ a : Fin 3, win0_4.index t a * S1x19x1.size a ≤ (i a).val ∧ (i a).val < win0_4.index t a * S1x19x1.size a + S1x19x1.size a := by
  show i ∈ ((View.whole main_v1_2).slice (win0_4.rect t)).set ↔ _
  rw [View.set_slice_whole, Rect.mem_set_unit]
  exact Iff.rfl

/-- The last step of core `cc` is point `8·cc + 7`. -/
def lastOf (cc : ℕ) (h : cc < 2) : Fin cfg0.N := ⟨8 * cc + 7, by rw [show cfg0.N = 16 from N_0]; omega⟩

theorem coverS (i : S2x19x256.Idx) : ∃ t : Fin cfg0.N, (cfg0.win 2).flush t = true ∧ i ∈ ((cfg0.win 2).blk t).view.set := by
  have hi0 : (i 0).val < 2 := (i 0).isLt
  have hi1 : (i 1).val < 19 := (i 1).isLt
  have hi2 : (i 2).val < 256 := (i 2).isLt
  refine ⟨lastOf (i 0).val hi0, (flush0_2 _).mpr (by show (8 * (i 0).val + 7) % 8 = 7; omega), ?_⟩
  obtain ⟨e0, e1, e2, -⟩ := idx_out (lastOf (i 0).val hi0)
  have ev : (lastOf (i 0).val hi0).val = 8 * (i 0).val + 7 := rfl
  rw [mem_blkS]
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 19 ≤ (i 1).val ∧ (i 1).val < win0_2.index _ (1 : Fin 3) * 19 + 19; omega
  | ⟨2, _⟩ => show win0_2.index _ (2 : Fin 3) * 256 ≤ (i 2).val ∧ (i 2).val < win0_2.index _ (2 : Fin 3) * 256 + 256; omega
theorem coverQ (i : S2x19x256.Idx) : ∃ t : Fin cfg0.N, (cfg0.win 3).flush t = true ∧ i ∈ ((cfg0.win 3).blk t).view.set := by
  have hi0 : (i 0).val < 2 := (i 0).isLt
  have hi1 : (i 1).val < 19 := (i 1).isLt
  have hi2 : (i 2).val < 256 := (i 2).isLt
  refine ⟨lastOf (i 0).val hi0, (flush0_3 _).mpr (by show (8 * (i 0).val + 7) % 8 = 7; omega), ?_⟩
  obtain ⟨-, -, -, e0, e1, e2, -⟩ := idx_out (lastOf (i 0).val hi0)
  have ev : (lastOf (i 0).val hi0).val = 8 * (i 0).val + 7 := rfl
  rw [mem_blkQ]
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 19 ≤ (i 1).val ∧ (i 1).val < win0_3.index _ (1 : Fin 3) * 19 + 19; omega
  | ⟨2, _⟩ => show win0_3.index _ (2 : Fin 3) * 256 ≤ (i 2).val ∧ (i 2).val < win0_3.index _ (2 : Fin 3) * 256 + 256; omega
theorem coverN (i : S2x19x1.Idx) : ∃ t : Fin cfg0.N, (cfg0.win 4).flush t = true ∧ i ∈ ((cfg0.win 4).blk t).view.set := by
  have hi0 : (i 0).val < 2 := (i 0).isLt
  have hi1 : (i 1).val < 19 := (i 1).isLt
  have hi2 : (i 2).val < 1 := (i 2).isLt
  refine ⟨lastOf (i 0).val hi0, (flush0_4 _).mpr (by show (8 * (i 0).val + 7) % 8 = 7; omega), ?_⟩
  obtain ⟨-, -, -, -, -, -, e0, e1, e2⟩ := idx_out (lastOf (i 0).val hi0)
  have ev : (lastOf (i 0).val hi0).val = 8 * (i 0).val + 7 := rfl
  rw [mem_blkN]
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 19 ≤ (i 1).val ∧ (i 1).val < win0_4.index _ (1 : Fin 3) * 19 + 19; omega
  | ⟨2, _⟩ => show win0_4.index _ (2 : Fin 3) * 1 ≤ (i 2).val ∧ (i 2).val < win0_4.index _ (2 : Fin 3) * 1 + 1; omega

/-- THE ARRAYS after the region: the cores' full sums. -/
theorem finalS (c : Dev nD) : (dats m 0 c).arrAt 2 cfg0.N = finS m c :=
  (dats m 0 c).arrAt_eq_of_cover 2 (finS m c) (fun t hf => flushedS_eq m c t hf) (coverS)
theorem finalQ (c : Dev nD) : (dats m 0 c).arrAt 3 cfg0.N = finQ m c :=
  (dats m 0 c).arrAt_eq_of_cover 3 (finQ m c) (fun t hf => flushedQ_eq m c t hf) (coverQ)
theorem finalN (c : Dev nD) : (dats m 0 c).arrAt 4 cfg0.N = finN m c :=
  (dats m 0 c).arrAt_eq_of_cover 4 (finN m c) (fun t hf => flushedN_eq m c t hf) (coverN)

end Cert.KernelIdeal.Hand

end
-- ==== Proof.KernelTail.lean ====
/-
  The kernel program's lines after its one pallas_call, read at an index: from ANY contents of the device's buffers, the
  three results are the update formulas of the two cores' partial sums added together.
-/
import proofs.«414262_j69063074120047_3_alg».proof.Proof.KernelIdealAround
import proofs.«414262_j69063074120047_3_alg».proof.Proof.Spec
import Idealize.ShloMosaic.Lib.ValueIdx
import Idealize.ShloMosaic.Lib.StableHlo.Run
import Idealize.ShloMosaic.Lib.Pipeline.Value
import Idealize.ShloMosaic.PureOps.Ideal.Laws

open scoped BigOperators

noncomputable section

namespace Cert.KernelIdeal.TailValue

open Cert.KernelIdeal Cert.KernelIdeal.Gen Cert.KernelIdeal.Hand
open Idealize.ShloMosaic Idealize.ShloMosaic.TcCoe Idealize.ShloMosaic.ValueIdx Idealize.SL.Sem

variable (W : Valuation τ sig (Elt Ideal))

/-- The buffers the later lines read, as arrays. -/
abbrev partS : FVec Ideal S2x19x256 .f32 := W (Proc.devRef .tc main_v1_0)
abbrev partQ : FVec Ideal S2x19x256 .f32 := W (Proc.devRef .tc main_v1_1)
abbrev partN : FVec Ideal S2x19x1 .f32 := W (Proc.devRef .tc main_v1_2)
abbrev inCov : FVec Ideal S19x256 .f32 := W (Proc.devRef .tc main_arg2)
abbrev inAve : FVec Ideal S19x256 .f32 := W (Proc.devRef .tc main_arg3)
abbrev inAmt : FVec Ideal S19 .f32 := W (Proc.devRef .tc main_arg4)

/-- The three results after the later lines. -/
abbrev outCov : FVec Ideal S19x256 .f32 := StableHlo.after (tailOps (F := Ideal)).flatten W (Proc.devRef .tc main_v42)
abbrev outAve : FVec Ideal S19x256 .f32 := StableHlo.after (tailOps (F := Ideal)).flatten W (Proc.devRef .tc main_v49)
abbrev outAmt : FVec Ideal S19 .f32 := StableHlo.after (tailOps (F := Ideal)).flatten W (Proc.devRef .tc main_v51)

/-! ## The operations read at an index

Each layout operation of the later lines, at an index given by its coordinates, reads one entry of its operand; each
elementwise operation acts entry by entry; and the sum over the leading axis of extent two, started from the literal
zero, is the sum of the two entries. -/

section Reads
variable {α : Type}

/-- A column broadcast along the second axis reads the column's entry of the same row. -/
theorem bcastCol_apply (y : S19x1.Idx → α) (b : Fin 19) (d : Fin 256) :
    broadcastInDim S19x256 (![0, 1] : Fin 2 → Fin 2) bcast_S19x1_S19x256_0_1 y (ix2 b d) = y (ix2 b 0) :=
  broadcastInDim_apply _ bcast_S19x1_S19x256_0_1 y (ix2 b d) (ix2 b 0) (fun a => match a with
    | ⟨0, _⟩ => by show b.val = if (19 : Nat) = 1 then 0 else b.val; rw [if_neg (by decide)]
    | ⟨1, _⟩ => by show 0 = if (1 : Nat) = 1 then 0 else d.val; rw [if_pos rfl])

/-- A scalar broadcast to a column reads the scalar. -/
theorem bcastS1_apply (y : S_.Idx → α) (b : Fin 19) (c : Fin 1) :
    broadcastInDim S19x1 (![] : Fin 0 → Fin 2) bcast_S_S19x1 y (ix2 b c) = y ix0 :=
  broadcastInDim_apply _ bcast_S_S19x1 y (ix2 b c) ix0 (fun a => a.elim0)

/-- A scalar broadcast to the full array reads the scalar. -/
theorem bcastS2_apply (y : S_.Idx → α) (b : Fin 19) (d : Fin 256) :
    broadcastInDim S19x256 (![] : Fin 0 → Fin 2) bcast_S_S19x256 y (ix2 b d) = y ix0 :=
  broadcastInDim_apply _ bcast_S_S19x256 y (ix2 b d) ix0 (fun a => a.elim0)

/-- The vector of nineteen viewed as a column reads its entry of the same row. -/
theorem castCol_apply (x : S19.Idx → α) (b : Fin 19) (c : Fin 1) :
    shapeCast main_v19.ty.shape x shapeCasts_S19_S19x1 (ix2 b c) = x (ix1 b) :=
  shapeCast_apply x shapeCasts_S19_S19x1 (ix2 b c) (ix1 b) (by
    rw [Shape.rowMajor_val_one, Shape.rowMajor_val_two]
    show b.val = b.val * 1 + c.val
    have := c.isLt; omega)

/-- The column viewed as a vector of nineteen reads its entry of the same row. -/
theorem castVec_apply (x : S19x1.Idx → α) (b : Fin 19) :
    shapeCast main_v50.ty.shape x shapeCasts_S19x1_S19 (ix1 b) = x (ix2 b 0) :=
  shapeCast_apply x shapeCasts_S19x1_S19 (ix1 b) (ix2 b 0) (by
    rw [Shape.rowMajor_val_one, Shape.rowMajor_val_two]
    show b.val * 1 + 0 = b.val
    omega)

end Reads

/-! The elementwise operations act entry by entry. -/

section Pointwise
variable {s : Shape}

theorem addf_ix (x y : FVec Ideal s .f32) (i : s.Idx) :
    addf x y i = FloatOps.addf (F := Ideal) (φ := .f32) (x i) (y i) := rfl
theorem subf_ix (x y : FVec Ideal s .f32) (i : s.Idx) :
    subf x y i = FloatOps.subf (F := Ideal) (φ := .f32) (x i) (y i) := rfl
theorem mulf_ix (x y : FVec Ideal s .f32) (i : s.Idx) :
    mulf x y i = FloatOps.mulf (F := Ideal) (φ := .f32) (x i) (y i) := rfl
theorem hdivf_ix (x y : FVec Ideal s .f32) (i : s.Idx) :
    Host.divf x y i = FloatOps.hostDivf (F := Ideal) (φ := .f32) (x i) (y i) := rfl
theorem maxf_ix (x y : FVec Ideal s .f32) (i : s.Idx) :
    maximumf x y i = FloatOps.maximumf (F := Ideal) (φ := .f32) (x i) (y i) := rfl
theorem cmpf_ix (p : CmpFPredicate) (x y : FVec Ideal s .f32) (i : s.Idx) :
    cmpf p x y i = FloatOps.cmpf (F := Ideal) (φ := .f32) p (x i) (y i) := rfl
theorem select_ix {α : Type} (c : IVec s 1) (x y : s.Idx → α) (i : s.Idx) :
    select c x y i = Scalar.select (c i) (x i) (y i) := rfl
theorem const_ix (w : BitVec 32) (i : s.Idx) :
    constant (F := Ideal) s .f32 w i = FloatOps.ofBits (F := Ideal) .f32 w := rfl

end Pointwise

/-- The sum over the two cores of a [2,19,256] array, from the literal zero. -/
theorem red256_apply (x : FVec Ideal S2x19x256 .f32) (b : Fin 19) (d : Fin 256) :
    Host.reduceAdd x (constant (F := Ideal) S_ .f32 0x00000000#32) reducesTo_S2x19x256_S19x256_d0 h_S_ (ix2 b d)
      = x (ix3 0 b d) + x (ix3 1 b d) := by
  have h : S2x19x256.Reduces [0] S19x256 := by decide
  show Ideal.hostReduceAdd reducesTo_S2x19x256_S19x256_d0 x (Ideal.ofBits .f32 0x00000000#32) (ix2 b d) = _
  rw [Ideal.hostReduceAdd_single _ h, Ideal.ofBits_zero_f32, zero_add]
  show ∑ k : Fin 2, x (h.lift (ix2 b d) k) = _
  rw [Fin.sum_univ_two]
  have e0 : h.lift (ix2 b d) (0 : Fin 2) = ix3 0 b d := by
    funext a; match a with | ⟨0, _⟩ => rfl | ⟨1, _⟩ => rfl | ⟨2, _⟩ => rfl
  have e1 : h.lift (ix2 b d) (1 : Fin 2) = ix3 1 b d := by
    funext a; match a with | ⟨0, _⟩ => rfl | ⟨1, _⟩ => rfl | ⟨2, _⟩ => rfl
  rw [e0, e1]

/-- The sum over the two cores of a [2,19,1] array, from the literal zero. -/
theorem red1_apply (x : FVec Ideal S2x19x1 .f32) (b : Fin 19) (c : Fin 1) :
    Host.reduceAdd x (constant (F := Ideal) S_ .f32 0x00000000#32) reducesTo_S2x19x1_S19x1_d0 h_S_ (ix2 b c)
      = x (ix3 0 b c) + x (ix3 1 b c) := by
  have h : S2x19x1.Reduces [0] S19x1 := by decide
  show Ideal.hostReduceAdd reducesTo_S2x19x1_S19x1_d0 x (Ideal.ofBits .f32 0x00000000#32) (ix2 b c) = _
  rw [Ideal.hostReduceAdd_single _ h, Ideal.ofBits_zero_f32, zero_add]
  show ∑ k : Fin 2, x (h.lift (ix2 b c) k) = _
  rw [Fin.sum_univ_two]
  have e0 : h.lift (ix2 b c) (0 : Fin 2) = ix3 0 b c := by
    funext a; match a with | ⟨0, _⟩ => rfl | ⟨1, _⟩ => rfl | ⟨2, _⟩ => rfl
  have e1 : h.lift (ix2 b c) (1 : Fin 2) = ix3 1 b c := by
    funext a; match a with | ⟨0, _⟩ => rfl | ⟨1, _⟩ => rfl | ⟨2, _⟩ => rfl
  rw [e0, e1]

/-! ## The three results

Composing the lines gives each result as one term over the buffers' contents; read at the index, entry by entry, it is
the update formula on the two cores' partial sums added together. -/

set_option maxHeartbeats 1600000 in
theorem tail_cov (b : Fin 19) (d : Fin 256) :
    outCov W (ix2 b d)
      = Spec.covNew (partS W (ix3 0 b d) + partS W (ix3 1 b d)) (partQ W (ix3 0 b d) + partQ W (ix3 1 b d))
          (partN W (ix3 0 b 0) + partN W (ix3 1 b 0)) (inCov W (ix2 b d)) (inAve W (ix2 b d)) (inAmt W (ix1 b)) := by
  show StableHlo.after (List.flatten [hostOps1, hostOps1_1, hostOps1_2, hostOps1_3, hostOps1_4]) W (Proc.devRef .tc main_v42) (ix2 b d) = _
  simp only [hostOps1, hostOps1_1, hostOps1_2, hostOps1_3, hostOps1_4, StableHlo.TRef.unary, StableHlo.TRef.ternary,
    List.flatten_cons, List.flatten_nil, List.append_nil, List.cons_append, List.nil_append]
  after_results_simp
  simp only [StableHlo.TRef.toBuf, StableHlo.TRef.ofBuf, cast_eq, id_eq]
  simp only [addf_ix, subf_ix, mulf_ix, hdivf_ix, maxf_ix, cmpf_ix, select_ix, const_ix, bcastCol_apply, bcastS1_apply,
    bcastS2_apply, castCol_apply, castVec_apply, red256_apply, red1_apply]
  simp only [Spec.covNew, Spec.var, Spec.mean, Spec.kc, Spec.weight, Spec.coweight, Spec.zero, Spec.one, Spec.two]

set_option maxHeartbeats 1600000 in
theorem tail_ave (b : Fin 19) (d : Fin 256) :
    outAve W (ix2 b d)
      = Spec.aveNew (partS W (ix3 0 b d) + partS W (ix3 1 b d))
          (partN W (ix3 0 b 0) + partN W (ix3 1 b 0)) (inAve W (ix2 b d)) (inAmt W (ix1 b)) := by
  show StableHlo.after (List.flatten [hostOps1, hostOps1_1, hostOps1_2, hostOps1_3, hostOps1_4]) W (Proc.devRef .tc main_v49) (ix2 b d) = _
  simp only [hostOps1, hostOps1_1, hostOps1_2, hostOps1_3, hostOps1_4, StableHlo.TRef.unary, StableHlo.TRef.ternary,
    List.flatten_cons, List.flatten_nil, List.append_nil, List.cons_append, List.nil_append]
  after_results_simp
  simp only [StableHlo.TRef.toBuf, StableHlo.TRef.ofBuf, cast_eq, id_eq]
  simp only [addf_ix, subf_ix, mulf_ix, hdivf_ix, maxf_ix, cmpf_ix, select_ix, const_ix, bcastCol_apply, bcastS1_apply,
    bcastS2_apply, castCol_apply, castVec_apply, red256_apply, red1_apply]
  simp only [Spec.aveNew, Spec.mean, Spec.kc, Spec.weight, Spec.coweight, Spec.zero, Spec.one]

set_option maxHeartbeats 1600000 in
theorem tail_amt (b : Fin 19) :
    outAmt W (ix1 b)
      = Spec.amtNew (partN W (ix3 0 b 0) + partN W (ix3 1 b 0)) (inAmt W (ix1 b)) := by
  show StableHlo.after (List.flatten [hostOps1, hostOps1_1, hostOps1_2, hostOps1_3, hostOps1_4]) W (Proc.devRef .tc main_v51) (ix1 b) = _
  simp only [hostOps1, hostOps1_1, hostOps1_2, hostOps1_3, hostOps1_4, StableHlo.TRef.unary, StableHlo.TRef.ternary,
    List.flatten_cons, List.flatten_nil, List.append_nil, List.cons_append, List.nil_append]
  after_results_simp
  simp only [addf_ix, subf_ix, mulf_ix, hdivf_ix, maxf_ix, cmpf_ix, select_ix, const_ix, bcastCol_apply, bcastS1_apply,
    bcastS2_apply, castCol_apply, castVec_apply, red256_apply, red1_apply]
  simp only [Spec.amtNew]

end Cert.KernelIdeal.TailValue

end
-- ==== Proof.RefImports.lean ====
/- The reference's run and its read-at-an-index lemmas, brought in for the modules that state what the
   reference computes. -/
import proofs.«414262_j69063074120047_3_alg».proof.Proof.Gen.ReferenceIdeal.Run
import proofs.«414262_j69063074120047_3_alg».proof.Proof.Gen.ReferenceIdeal.Read
-- ==== Proof.LibSegmentScatter.lean ====
/-
  An accumulating scatter along axis 0, read at one element of its result over the extended reals.

  Two shapes that a segment sum lowers to. ROWS: the operand is `[B, D]`, the scatter indices a column `[N, 1]`, the
  updates `[N, D]`; update row `n` is added into operand row `idx n`, column by column. ELEMENTS: the operand is `[B]`,
  the scatter indices `[N, 1]`, the updates `[N]`; update `n` is added into element `idx n`. The index is read signed and
  not clamped, and an update whose index falls outside `[0, B)` is dropped. So the result at row `b` is the operand there
  plus the sum of the updates whose index is `b`.

  The dimension numbers are spelt field by field as a printed program's record is, so that record is one of these by `rfl`.
-/
import Idealize.ShloMosaic.PureOps.Ideal
import Idealize.ShloMosaic.Lib.ValueIdx
import Idealize.ShloMosaic.Lib.ValueIdxRank1

open scoped BigOperators

noncomputable section

namespace Idealize.ShloMosaic.SegmentScatter

open Idealize.ShloMosaic Idealize.ShloMosaic.ValueIdx

/-- The dimension numbers of a row scatter: operand `[B, D]`, scatter indices `[N, 1]`, updates `[N, D]`. -/
abbrev rowDims (B D N : Nat)
    (wf : ScatterDims.WF ⟨2, ![B, D]⟩ ⟨2, ![N, 1]⟩ ⟨2, ![N, D]⟩ [1] [0] [0] 1) :
    ScatterDims ⟨2, ![B, D]⟩ ⟨2, ![N, 1]⟩ ⟨2, ![N, D]⟩ where
  updateWindowDims := [1]
  insertedWindowDims := [0]
  scatterDimsToOperandDims := [0]
  indexVectorDim := 1
  wf := wf

/-! ### Rows: start, window and landing index of update `(n, d')` -/

section Rows
variable {B D N w : Nat} (wf : ScatterDims.WF ⟨2, ![B, D]⟩ ⟨2, ![N, 1]⟩ ⟨2, ![N, D]⟩ [1] [0] [0] 1)
  (idx : IVec ⟨2, ![N, 1]⟩ w)

/-- On axis 0 the window of update `(n, d')` starts at the signed value of scatter index `(n, 0)`. -/
theorem row_start0 (n : Fin N) (d' : Fin D) :
    (rowDims B D N wf).start (ix2 n d') idx 0 = (idx (ix2 n (0 : Fin 1))).toInt := by
  unfold ScatterDims.start
  rw [dif_pos (show (0 : Fin 2) ∈ (rowDims B D N wf).scatterDimsToOperandDims from List.mem_singleton.mpr rfl)]
  have hsi : (rowDims B D N wf).siIdx (ix2 n d') ⟨List.idxOf (0 : Fin 2) (rowDims B D N wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

/-- Axis 1 is not named by the scatter-dims-to-operand-dims map, so the window starts at `0` there. -/
theorem row_start1 (j : (⟨2, ![N, D]⟩ : Shape).Idx) :
    (rowDims B D N wf).start j idx 1 = 0 := by
  unfold ScatterDims.start
  rw [dif_neg (show (1 : Fin 2) ∉ ([0] : List (Fin 2)) by decide)]

/-- Axis 0 is an inserted window axis: the window coordinate there is `0`. -/
theorem row_window0 (j : (⟨2, ![N, D]⟩ : Shape).Idx) :
    (rowDims B D N wf).window j 0 = 0 := by
  unfold ScatterDims.window
  have h : (0 : Fin 2) ∉ (rowDims B D N wf).sKept := (show (0 : Fin 2) ∉ ([1] : List (Fin 2)) by decide)
  rw [dif_neg h]

/-- Axis 1 is the one kept axis, read by update window axis 1: the window coordinate of `(n, d')` is `d'`. -/
theorem row_window1 (n : Fin N) (d' : Fin D) :
    (rowDims B D N wf).window (ix2 n d') 1 = d'.val := by
  unfold ScatterDims.window
  have h : (1 : Fin 2) ∈ (rowDims B D N wf).sKept := (show (1 : Fin 2) ∈ ([1] : List (Fin 2)) by decide)
  rw [dif_pos h]
  rfl

/-- Update `(n, d')` lands at `(b, d)` exactly when its scatter index, read signed, is `b` and `d' = d`; the range
    conditions then hold because `b < B` and `d < D`. -/
theorem row_resultIdx?_eq_some_iff (n : Fin N) (d' : Fin D) (b : Fin B) (d : Fin D) :
    (rowDims B D N wf).resultIdx? (ix2 n d') idx = some (ix2 b d)
      ↔ (idx (ix2 n (0 : Fin 1))).toInt = (b.val : ℤ) ∧ d' = d := by
  unfold ScatterDims.resultIdx?
  constructor
  · intro h
    split at h
    · rename_i hc
      have hf := Option.some.inj h
      have h0 := congrArg (fun f => (f 0).val) hf
      have h1 := congrArg (fun f => (f 1).val) hf
      simp only [row_start0, row_start1, row_window0, row_window1] at h0 h1
      have hc0 := (hc 0).1
      rw [row_start0, row_window0] at hc0
      change ((idx (ix2 n (0 : Fin 1))).toInt + ((0 : ℕ) : ℤ)).toNat = b.val at h0
      change ((0 : ℤ) + (d'.val : ℤ)).toNat = d.val at h1
      refine ⟨by omega, Fin.ext (by omega)⟩
    · exact absurd h (by simp)
  · rintro ⟨ht, rfl⟩
    have hc : ∀ a, 0 ≤ (rowDims B D N wf).start (ix2 n d') idx a + (rowDims B D N wf).window (ix2 n d') a ∧
        (rowDims B D N wf).start (ix2 n d') idx a + (rowDims B D N wf).window (ix2 n d') a
          < (⟨2, ![B, D]⟩ : Shape).size a := by
      intro a
      match a with
      | ⟨0, _⟩ =>
        change 0 ≤ (rowDims B D N wf).start (ix2 n d') idx 0 + ((rowDims B D N wf).window (ix2 n d') 0 : ℕ) ∧
          (rowDims B D N wf).start (ix2 n d') idx 0 + ((rowDims B D N wf).window (ix2 n d') 0 : ℕ) < (B : ℤ)
        rw [row_start0, row_window0, ht]
        have := b.isLt
        omega
      | ⟨1, _⟩ =>
        change 0 ≤ (rowDims B D N wf).start (ix2 n d') idx 1 + ((rowDims B D N wf).window (ix2 n d') 1 : ℕ) ∧
          (rowDims B D N wf).start (ix2 n d') idx 1 + ((rowDims B D N wf).window (ix2 n d') 1 : ℕ) < (D : ℤ)
        rw [row_start1, row_window1]
        have := d'.isLt
        omega
    rw [dif_pos hc]
    congr 1
    funext a; refine Fin.ext ?_
    match a with
    | ⟨0, _⟩ =>
      change ((rowDims B D N wf).start (ix2 n d') idx 0 + ((rowDims B D N wf).window (ix2 n d') 0 : ℕ)).toNat = b.val
      rw [row_start0, row_window0, ht]; omega
    | ⟨1, _⟩ =>
      change ((rowDims B D N wf).start (ix2 n d') idx 1 + ((rowDims B D N wf).window (ix2 n d') 1 : ℕ)).toNat = d'.val
      rw [row_start1, row_window1]; omega

end Rows

/-- A row scatter-add read at `(b, d)`: the operand there plus column `d` of every update row whose index is `b`. -/
theorem rowScatterAdd_apply {B D N w : Nat}
    (wf : ScatterDims.WF ⟨2, ![B, D]⟩ ⟨2, ![N, 1]⟩ ⟨2, ![N, D]⟩ [1] [0] [0] 1)
    (x : (⟨2, ![B, D]⟩ : Shape).Idx → EReal) (idx : IVec ⟨2, ![N, 1]⟩ w) (upd : (⟨2, ![N, D]⟩ : Shape).Idx → EReal)
    (b : Fin B) (d : Fin D) :
    Ideal.hostScatterAdd (rowDims B D N wf) x idx upd (ix2 b d)
      = x (ix2 b d) + ∑ n : Fin N, if (idx (ix2 n (0 : Fin 1))).toInt = (b.val : ℤ) then upd (ix2 n d) else 0 := by
  unfold Ideal.hostScatterAdd
  congr 1
  rw [Finset.sum_filter]
  refine (sum_idx2 _).trans ?_
  refine Finset.sum_congr rfl fun n _ => ?_
  simp only [row_resultIdx?_eq_some_iff]
  by_cases ht : (idx (ix2 n (0 : Fin 1))).toInt = (b.val : ℤ)
  · simp only [ht, true_and, if_true]
    rw [Finset.sum_ite_eq' Finset.univ d (fun d' => upd (ix2 n d'))]
    simp
  · simp only [ht, false_and, if_false]
    exact Finset.sum_const_zero

/-- The dimension numbers of an element scatter: operand `[B]`, scatter indices `[N, 1]`, updates `[N]`. -/
abbrev elemDims (B N : Nat)
    (wf : ScatterDims.WF ⟨1, ![B]⟩ ⟨2, ![N, 1]⟩ ⟨1, ![N]⟩ [] [0] [0] 1) :
    ScatterDims ⟨1, ![B]⟩ ⟨2, ![N, 1]⟩ ⟨1, ![N]⟩ where
  updateWindowDims := []
  insertedWindowDims := [0]
  scatterDimsToOperandDims := [0]
  indexVectorDim := 1
  wf := wf

/-! ### Elements: start, window and landing index of update `n` -/

section Elements
variable {B N w : Nat} (wf : ScatterDims.WF ⟨1, ![B]⟩ ⟨2, ![N, 1]⟩ ⟨1, ![N]⟩ [] [0] [0] 1)
  (idx : IVec ⟨2, ![N, 1]⟩ w)

/-- The window of update `n` starts at the signed value of scatter index `(n, 0)`. -/
theorem elem_start0 (n : Fin N) :
    (elemDims B N wf).start (ix1 n) idx 0 = (idx (ix2 n (0 : Fin 1))).toInt := by
  unfold ScatterDims.start
  rw [dif_pos (show (0 : Fin 1) ∈ (elemDims B N wf).scatterDimsToOperandDims from List.mem_singleton.mpr rfl)]
  have hsi : (elemDims B N wf).siIdx (ix1 n) ⟨List.idxOf (0 : Fin 1) (elemDims B N wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

/-- The operand's one axis is an inserted window axis: the window coordinate is `0`. -/
theorem elem_window0 (j : (⟨1, ![N]⟩ : Shape).Idx) :
    (elemDims B N wf).window j 0 = 0 := by
  unfold ScatterDims.window
  have h : (0 : Fin 1) ∉ (elemDims B N wf).sKept := (show (0 : Fin 1) ∉ ([] : List (Fin 1)) from List.not_mem_nil)
  rw [dif_neg h]

/-- Update `n` lands at `b` exactly when its scatter index, read signed, is `b`. -/
theorem elem_resultIdx?_eq_some_iff (n : Fin N) (b : Fin B) :
    (elemDims B N wf).resultIdx? (ix1 n) idx = some (ix1 b)
      ↔ (idx (ix2 n (0 : Fin 1))).toInt = (b.val : ℤ) := by
  unfold ScatterDims.resultIdx?
  constructor
  · intro h
    split at h
    · rename_i hc
      have hf := Option.some.inj h
      have h0 := congrArg (fun f => (f 0).val) hf
      have hc0 := (hc 0).1
      rw [elem_start0, elem_window0] at hc0
      simp only [elem_start0, elem_window0] at h0
      change ((idx (ix2 n (0 : Fin 1))).toInt + ((0 : ℕ) : ℤ)).toNat = b.val at h0
      omega
    · exact absurd h (by simp)
  · intro ht
    have hc : ∀ a, 0 ≤ (elemDims B N wf).start (ix1 n) idx a + (elemDims B N wf).window (ix1 n) a ∧
        (elemDims B N wf).start (ix1 n) idx a + (elemDims B N wf).window (ix1 n) a
          < (⟨1, ![B]⟩ : Shape).size a := by
      intro a
      match a with
      | ⟨0, _⟩ =>
        change 0 ≤ (elemDims B N wf).start (ix1 n) idx 0 + ((elemDims B N wf).window (ix1 n) 0 : ℕ) ∧
          (elemDims B N wf).start (ix1 n) idx 0 + ((elemDims B N wf).window (ix1 n) 0 : ℕ) < (B : ℤ)
        rw [elem_start0, elem_window0, ht]
        have := b.isLt
        omega
    rw [dif_pos hc]
    congr 1
    funext a; refine Fin.ext ?_
    match a with
    | ⟨0, _⟩ =>
      change ((elemDims B N wf).start (ix1 n) idx 0 + ((elemDims B N wf).window (ix1 n) 0 : ℕ)).toNat = b.val
      rw [elem_start0, elem_window0, ht]; omega

end Elements

/-- An element scatter-add read at `b`: the operand there plus every update whose index is `b`. -/
theorem elemScatterAdd_apply {B N w : Nat}
    (wf : ScatterDims.WF ⟨1, ![B]⟩ ⟨2, ![N, 1]⟩ ⟨1, ![N]⟩ [] [0] [0] 1)
    (x : (⟨1, ![B]⟩ : Shape).Idx → EReal) (idx : IVec ⟨2, ![N, 1]⟩ w) (upd : (⟨1, ![N]⟩ : Shape).Idx → EReal)
    (b : Fin B) :
    Ideal.hostScatterAdd (elemDims B N wf) x idx upd (ix1 b)
      = x (ix1 b) + ∑ n : Fin N, if (idx (ix2 n (0 : Fin 1))).toInt = (b.val : ℤ) then upd (ix1 n) else 0 := by
  unfold Ideal.hostScatterAdd
  congr 1
  rw [Finset.sum_filter]
  refine (Equiv.sum_comp (idxEquiv1 (n := N)).symm _).symm.trans ?_
  refine Finset.sum_congr rfl fun n _ => ?_
  change (if (elemDims B N wf).resultIdx? (ix1 n) idx = some (ix1 b) then upd (ix1 n) else 0) = _
  simp only [elem_resultIdx?_eq_some_iff]

end Idealize.ShloMosaic.SegmentScatter

end
-- ==== Proof.RefValue.lean ====
/-
  What the reference computes, index by index: its three results are the update formulas of the class sums — the
  segment sums of the rows, of their squares and of ones — over the argument arrays.
-/
import proofs.«414262_j69063074120047_3_alg».proof.Proof.RefImports
import proofs.«414262_j69063074120047_3_alg».proof.Proof.Spec
import proofs.«414262_j69063074120047_3_alg».proof.Proof.LibSegmentScatter
import Idealize.ShloMosaic.Lib.ValueIdx
import Idealize.ShloMosaic.PureOps.Ideal.Laws

open scoped BigOperators

noncomputable section

namespace Cert.ReferenceIdeal.RefValue

open Cert.ReferenceIdeal Cert.ReferenceIdeal.Gen Idealize.ShloMosaic Idealize.ShloMosaic.TcCoe Idealize.ShloMosaic.ValueIdx

variable (x0 : FVec Ideal S131072x256 .f32) (x1 : IVec S131072 32) (x2 x3 : FVec Ideal S19x256 .f32) (x4 : FVec Ideal S19 .f32)

/-- The three class sums of the argument arrays at class `b`, column `d`. -/
abbrev sumS (b : Fin 19) (d : Fin 256) : EReal := Spec.seg (fun n => x1 (ix1 n)) (fun n => x0 (ix2 n d)) b
abbrev sumQ (b : Fin 19) (d : Fin 256) : EReal := Spec.seg (fun n => x1 (ix1 n)) (fun n => x0 (ix2 n d) * x0 (ix2 n d)) b
abbrev sumN (b : Fin 19) : EReal := Spec.seg (fun n => x1 (ix1 n)) (fun _ => 1) b

/-- The pattern `0x3F800000` denotes one. -/
theorem ofBits_one_f32 : Ideal.ofBits .f32 0x3F800000#32 = (1 : EReal) := by
  simp [Ideal.ofBits, Ideal.ieee, -EReal.coe_mul]; norm_num

/-- A column index built from a row number reads the labels at that row. -/
theorem idx_col (n : Fin 131072) :
    Cert.ReferenceIdeal.Read.idx_main_v2 (ix2 n (0 : Fin 1)) = ix1 n := by
  funext a; match a with | ⟨0, _⟩ => rfl

/-- The count scatter at class `b`: the number of rows labelled `b`. -/
theorem v3_apply (b : Fin 19) :
    Cert.ReferenceIdeal.Read.val_main_v3 (F := Ideal) x1 (ix1 b) = sumN x1 b := by
  unfold Cert.ReferenceIdeal.Read.val_main_v3
  refine (SegmentScatter.elemScatterAdd_apply (B := 19) (N := 131072) _ _ _ _ b).trans ?_
  rw [Cert.ReferenceIdeal.Read.val_main_v1_apply, Cert.ReferenceIdeal.Read.val_main_cst_0_apply, Ideal.ofBits_def,
    Ideal.ofBits_zero_f32, zero_add]
  unfold sumN Spec.seg
  refine Finset.sum_congr rfl fun n _ => ?_
  rw [Cert.ReferenceIdeal.Read.val_main_v2_apply, idx_col, Cert.ReferenceIdeal.Read.val_main_v0_apply,
    Cert.ReferenceIdeal.Read.val_main_cst_apply, Ideal.ofBits_def, ofBits_one_f32]

/-- The same for the two row scatters' index columns. -/
theorem idx_col5 (n : Fin 131072) :
    Cert.ReferenceIdeal.Read.idx_main_v5 (ix2 n (0 : Fin 1)) = ix1 n := by
  funext a; match a with | ⟨0, _⟩ => rfl
theorem idx_col9 (n : Fin 131072) :
    Cert.ReferenceIdeal.Read.idx_main_v9 (ix2 n (0 : Fin 1)) = ix1 n := by
  funext a; match a with | ⟨0, _⟩ => rfl

/-- The row-sum scatter at class `b`, column `d`: the sum of column `d` over the rows labelled `b`. -/
theorem v6_apply (b : Fin 19) (d : Fin 256) :
    Cert.ReferenceIdeal.Read.val_main_v6 (F := Ideal) x0 x1 (ix2 b d) = sumS x0 x1 b d := by
  unfold Cert.ReferenceIdeal.Read.val_main_v6
  refine (SegmentScatter.rowScatterAdd_apply (B := 19) (D := 256) (N := 131072) _ _ _ _ b d).trans ?_
  rw [Cert.ReferenceIdeal.Read.val_main_v4_apply, Cert.ReferenceIdeal.Read.val_main_cst_1_apply, Ideal.ofBits_def,
    Ideal.ofBits_zero_f32, zero_add]
  unfold sumS Spec.seg
  refine Finset.sum_congr rfl fun n _ => ?_
  rw [Cert.ReferenceIdeal.Read.val_main_v5_apply, idx_col5]

/-- The scatter of the squares at class `b`, column `d`: the sum of the squares of column `d` over the rows
    labelled `b`. -/
theorem v10_apply (b : Fin 19) (d : Fin 256) :
    Cert.ReferenceIdeal.Read.val_main_v10 (F := Ideal) x0 x1 (ix2 b d) = sumQ x0 x1 b d := by
  unfold Cert.ReferenceIdeal.Read.val_main_v10
  refine (SegmentScatter.rowScatterAdd_apply (B := 19) (D := 256) (N := 131072) _ _ _ _ b d).trans ?_
  rw [Cert.ReferenceIdeal.Read.val_main_v8_apply, Cert.ReferenceIdeal.Read.val_main_cst_2_apply, Ideal.ofBits_def,
    Ideal.ofBits_zero_f32, zero_add]
  unfold sumQ Spec.seg
  refine Finset.sum_congr rfl fun n _ => ?_
  rw [Cert.ReferenceIdeal.Read.val_main_v9_apply, idx_col9, Cert.ReferenceIdeal.Read.val_main_v7_apply]
  rfl

/-! ### Where the broadcasts read: entry `(b, d)` of a row-constant array reads column entry `(b, 0)`, which reads
    entry `b` of the vector. -/

theorem idx_v14 (b : Fin 19) (d : Fin 256) :
    Cert.ReferenceIdeal.Read.idx_main_v14 (ix2 b d) = ix2 b (0 : Fin 1) := by
  funext a; match a with | ⟨0, _⟩ => rfl | ⟨1, _⟩ => rfl
theorem idx_v21 (b : Fin 19) (d : Fin 256) :
    Cert.ReferenceIdeal.Read.idx_main_v21 (ix2 b d) = ix2 b (0 : Fin 1) := by
  funext a; match a with | ⟨0, _⟩ => rfl | ⟨1, _⟩ => rfl
theorem idx_v25 (b : Fin 19) (d : Fin 256) :
    Cert.ReferenceIdeal.Read.idx_main_v25 (ix2 b d) = ix2 b (0 : Fin 1) := by
  funext a; match a with | ⟨0, _⟩ => rfl | ⟨1, _⟩ => rfl
theorem idx_v41 (b : Fin 19) (d : Fin 256) :
    Cert.ReferenceIdeal.Read.idx_main_v41 (ix2 b d) = ix2 b (0 : Fin 1) := by
  funext a; match a with | ⟨0, _⟩ => rfl | ⟨1, _⟩ => rfl
theorem idx_v45 (b : Fin 19) (d : Fin 256) :
    Cert.ReferenceIdeal.Read.idx_main_v45 (ix2 b d) = ix2 b (0 : Fin 1) := by
  funext a; match a with | ⟨0, _⟩ => rfl | ⟨1, _⟩ => rfl
theorem idx_v47 (b : Fin 19) (d : Fin 256) :
    Cert.ReferenceIdeal.Read.idx_main_v47 (ix2 b d) = ix2 b (0 : Fin 1) := by
  funext a; match a with | ⟨0, _⟩ => rfl | ⟨1, _⟩ => rfl
theorem idx_v53 (b : Fin 19) (d : Fin 256) :
    Cert.ReferenceIdeal.Read.idx_main_v53 (ix2 b d) = ix2 b (0 : Fin 1) := by
  funext a; match a with | ⟨0, _⟩ => rfl | ⟨1, _⟩ => rfl
theorem idx_v55 (b : Fin 19) (d : Fin 256) :
    Cert.ReferenceIdeal.Read.idx_main_v55 (ix2 b d) = ix2 b (0 : Fin 1) := by
  funext a; match a with | ⟨0, _⟩ => rfl | ⟨1, _⟩ => rfl
theorem idx_v13 (b : Fin 19) :
    Cert.ReferenceIdeal.Read.idx_main_v13 (ix2 b (0 : Fin 1)) = ix1 b := by
  funext a; match a with | ⟨0, _⟩ => rfl
theorem idx_v20 (b : Fin 19) :
    Cert.ReferenceIdeal.Read.idx_main_v20 (ix2 b (0 : Fin 1)) = ix1 b := by
  funext a; match a with | ⟨0, _⟩ => rfl
theorem idx_v35 (b : Fin 19) :
    Cert.ReferenceIdeal.Read.idx_main_v35 (ix2 b (0 : Fin 1)) = ix1 b := by
  funext a; match a with | ⟨0, _⟩ => rfl

theorem ref_cov (b : Fin 19) (d : Fin 256) :
    Cert.ReferenceIdeal.Read.val_main_v50 (F := Ideal) x0 x1 x2 x3 x4 (ix2 b d)
      = Spec.covNew (sumS x0 x1 b d) (sumQ x0 x1 b d) (sumN x1 b) (x2 (ix2 b d)) (x3 (ix2 b d)) (x4 (ix1 b)) := by
  simp only [
    Cert.ReferenceIdeal.Read.val_main_v50_apply, Cert.ReferenceIdeal.Read.val_main_v49_apply,
    Cert.ReferenceIdeal.Read.val_main_v46_apply, Cert.ReferenceIdeal.Read.val_main_v45_apply,
    Cert.ReferenceIdeal.Read.val_main_v44_apply, Cert.ReferenceIdeal.Read.val_main_v43_apply,
    Cert.ReferenceIdeal.Read.val_main_cst_10_apply, Cert.ReferenceIdeal.Read.val_main_v48_apply,
    Cert.ReferenceIdeal.Read.val_main_v26_apply, Cert.ReferenceIdeal.Read.val_main_v24_apply,
    Cert.ReferenceIdeal.Read.val_main_v19_apply, Cert.ReferenceIdeal.Read.val_main_v18_apply,
    Cert.ReferenceIdeal.Read.val_main_v17_apply, Cert.ReferenceIdeal.Read.val_main_v16_apply,
    Cert.ReferenceIdeal.Read.val_main_cst_4_apply, Cert.ReferenceIdeal.Read.val_main_v23_apply,
    Cert.ReferenceIdeal.Read.val_main_v22_apply, Cert.ReferenceIdeal.Read.val_main_v21_apply,
    Cert.ReferenceIdeal.Read.val_main_v20_apply, Cert.ReferenceIdeal.Read.val_main_v25_apply,
    Cert.ReferenceIdeal.Read.val_main_v47_apply, Cert.ReferenceIdeal.Read.val_main_v42_apply,
    Cert.ReferenceIdeal.Read.val_main_v41_apply, Cert.ReferenceIdeal.Read.val_main_v38_apply,
    Cert.ReferenceIdeal.Read.val_main_v37_apply, Cert.ReferenceIdeal.Read.val_main_v36_apply,
    Cert.ReferenceIdeal.Read.val_main_cst_9_apply, Cert.ReferenceIdeal.Read.val_main_v40_apply,
    Cert.ReferenceIdeal.Read.val_main_v39_apply, Cert.ReferenceIdeal.Read.val_main_v35_apply,
    Cert.ReferenceIdeal.Read.val_main_v34_apply, Cert.ReferenceIdeal.Read.val_main_v29_apply,
    Cert.ReferenceIdeal.Read.val_main_v27_apply, Cert.ReferenceIdeal.Read.val_main_v28_apply,
    Cert.ReferenceIdeal.Read.val_main_cst_5_apply, Cert.ReferenceIdeal.Read.val_main_v33_apply,
    Cert.ReferenceIdeal.Read.val_main_v32_apply, Cert.ReferenceIdeal.Read.val_main_v31_apply,
    Cert.ReferenceIdeal.Read.val_main_v30_apply, Cert.ReferenceIdeal.Read.val_main_cst_6_apply,
    Cert.ReferenceIdeal.Read.val_main_call0_v1_apply, Cert.ReferenceIdeal.Read.val_main_call0_v0_apply,
    Cert.ReferenceIdeal.Read.val_main_cst_7_apply, Cert.ReferenceIdeal.Read.val_main_call1_v1_apply,
    Cert.ReferenceIdeal.Read.val_main_call1_v0_apply, Cert.ReferenceIdeal.Read.val_main_cst_8_apply,
    Cert.ReferenceIdeal.Read.val_main_v15_apply, Cert.ReferenceIdeal.Read.val_main_v14_apply,
    Cert.ReferenceIdeal.Read.val_main_v13_apply, Cert.ReferenceIdeal.Read.val_main_v12_apply,
    Cert.ReferenceIdeal.Read.val_main_v11_apply, Cert.ReferenceIdeal.Read.val_main_cst_3_apply, idx_v45, idx_v47,
    idx_v41, idx_v25, idx_v21, idx_v20, idx_v35, idx_v14, idx_v13, v3_apply, v6_apply, v10_apply]
  rfl

theorem ref_ave (b : Fin 19) (d : Fin 256) :
    Cert.ReferenceIdeal.Read.val_main_v57 (F := Ideal) x0 x1 x3 x4 (ix2 b d)
      = Spec.aveNew (sumS x0 x1 b d) (sumN x1 b) (x3 (ix2 b d)) (x4 (ix1 b)) := by
  simp only [
    Cert.ReferenceIdeal.Read.val_main_v57_apply, Cert.ReferenceIdeal.Read.val_main_v54_apply,
    Cert.ReferenceIdeal.Read.val_main_v56_apply, Cert.ReferenceIdeal.Read.val_main_v53_apply,
    Cert.ReferenceIdeal.Read.val_main_v52_apply, Cert.ReferenceIdeal.Read.val_main_v51_apply,
    Cert.ReferenceIdeal.Read.val_main_cst_11_apply, Cert.ReferenceIdeal.Read.val_main_v55_apply,
    Cert.ReferenceIdeal.Read.val_main_v35_apply, Cert.ReferenceIdeal.Read.val_main_v34_apply,
    Cert.ReferenceIdeal.Read.val_main_v29_apply, Cert.ReferenceIdeal.Read.val_main_v27_apply,
    Cert.ReferenceIdeal.Read.val_main_v28_apply, Cert.ReferenceIdeal.Read.val_main_cst_5_apply,
    Cert.ReferenceIdeal.Read.val_main_v33_apply, Cert.ReferenceIdeal.Read.val_main_v32_apply,
    Cert.ReferenceIdeal.Read.val_main_v31_apply, Cert.ReferenceIdeal.Read.val_main_v30_apply,
    Cert.ReferenceIdeal.Read.val_main_cst_6_apply, Cert.ReferenceIdeal.Read.val_main_call0_v1_apply,
    Cert.ReferenceIdeal.Read.val_main_call0_v0_apply, Cert.ReferenceIdeal.Read.val_main_cst_7_apply,
    Cert.ReferenceIdeal.Read.val_main_call1_v1_apply, Cert.ReferenceIdeal.Read.val_main_call1_v0_apply,
    Cert.ReferenceIdeal.Read.val_main_cst_8_apply, Cert.ReferenceIdeal.Read.val_main_v15_apply,
    Cert.ReferenceIdeal.Read.val_main_v14_apply, Cert.ReferenceIdeal.Read.val_main_v13_apply,
    Cert.ReferenceIdeal.Read.val_main_v12_apply, Cert.ReferenceIdeal.Read.val_main_v11_apply,
    Cert.ReferenceIdeal.Read.val_main_cst_3_apply, idx_v53, idx_v55, idx_v35, idx_v14, idx_v13, v3_apply, v6_apply]
  rfl

theorem ref_amt (b : Fin 19) :
    Cert.ReferenceIdeal.Read.val_main_v58 (F := Ideal) x1 x4 (ix1 b)
      = Spec.amtNew (sumN x1 b) (x4 (ix1 b)) := by
  rw [Cert.ReferenceIdeal.Read.val_main_v58_apply, v3_apply]
  rfl

end Cert.ReferenceIdeal.RefValue

end
-- ==== Proof.SegChunks.lean ====
/-
  A class's sum over all 131072 rows is the sum of the two cores' running sums after their thirty-two chunks each: the
  rows are the 64 chunks of 2048 consecutive rows laid end to end, and addition on the extended reals is commutative and
  associative.
-/
import proofs.«414262_j69063074120047_3_alg».proof.Proof.Spec
import Mathlib.Algebra.BigOperators.Fin
import Mathlib.Algebra.BigOperators.Group.Finset.Defs
import Mathlib.Data.Fintype.BigOperators

open scoped BigOperators

noncomputable section

namespace Cert.Spec

/-- A core's running sum after its first `n` chunks, `n` at most thirty-two, is the sum of those `n` chunk sums. -/
theorem partialSum_le (lab : Fin 131072 → BitVec 32) (u : Fin 131072 → EReal) (b : Fin 19) (cc : Fin 2) :
    ∀ (n : ℕ) (hn : n ≤ 32),
      partialSum lab u b cc n
        = ∑ i : Fin n, chunk lab u b ⟨cc.val * 32 + i.val, by have := cc.isLt; have := i.isLt; omega⟩
  | 0, _ => by simp [partialSum]
  | n + 1, hn => by
      have hlt : n < 32 := by omega
      rw [partialSum, partialSum_le lab u b cc n (by omega), Fin.sum_univ_castSucc, dif_pos hlt]
      rfl

/-- A core's running sum after all its chunks is the sum of its thirty-two chunk sums. -/
theorem partialSum_full (lab : Fin 131072 → BitVec 32) (u : Fin 131072 → EReal) (b : Fin 19) (cc : Fin 2) :
    partialSum lab u b cc 32 = ∑ n : Fin 32, chunk lab u b ⟨cc.val * 32 + n.val, by have := cc.isLt; have := n.isLt; omega⟩ := by
  exact partialSum_le lab u b cc 32 (le_refl 32)

/-- The rows are the pairs (chunk, row within the chunk): `n ↦ (n / 2048, n % 2048)`, with inverse `rowOf`. -/
def rowEquiv : Fin 64 × Fin 2048 ≃ Fin 131072 where
  toFun x := rowOf x.1 x.2
  invFun n := (⟨n.val / 2048, by have := n.isLt; omega⟩, ⟨n.val % 2048, by omega⟩)
  left_inv := by
    rintro ⟨p, r⟩
    have hp := p.isLt
    have hr := r.isLt
    apply Prod.ext
    · apply Fin.ext
      show (p.val * 2048 + r.val) / 2048 = p.val
      omega
    · apply Fin.ext
      show (p.val * 2048 + r.val) % 2048 = r.val
      omega
  right_inv := by
    intro n
    apply Fin.ext
    show n.val / 2048 * 2048 + n.val % 2048 = n.val
    omega

/-- The class sum is the sum of its 64 chunk sums. -/
theorem seg_eq_chunks (lab : Fin 131072 → BitVec 32) (u : Fin 131072 → EReal) (b : Fin 19) :
    seg lab u b = ∑ p : Fin 64, chunk lab u b p := by
  unfold seg chunk
  rw [← Fintype.sum_prod_type'
    (f := fun (p : Fin 64) (r : Fin 2048) => if (lab (rowOf p r)).toInt = (b.val : ℤ) then u (rowOf p r) else 0)]
  exact (Fintype.sum_equiv rowEquiv _ _ (fun x => rfl)).symm

/-- The class sum is the two cores' sums added. -/
theorem seg_eq_cores (lab : Fin 131072 → BitVec 32) (u : Fin 131072 → EReal) (b : Fin 19) :
    seg lab u b = partialSum lab u b 0 32 + partialSum lab u b 1 32 := by
  rw [seg_eq_chunks, partialSum_full, partialSum_full]
  refine (Fin.sum_univ_add (a := 32) (b := 32) (fun p : Fin 64 => chunk lab u b p)).trans ?_
  refine congrArg₂ (fun x y : EReal => x + y) ?_ ?_
  · refine Finset.sum_congr rfl (fun n _ => congrArg (chunk lab u b) (Fin.ext ?_))
    show n.val = (0 : Fin 2).val * 32 + n.val
    simp
  · refine Finset.sum_congr rfl (fun n _ => congrArg (chunk lab u b) (Fin.ext ?_))
    show 32 + n.val = (1 : Fin 2).val * 32 + n.val
    simp

end Cert.Spec

end
-- ==== Proof.KernelIdealResults.lean ====
/-
  The kernel program's three results, over the extended reals, are the reference's functions of the same arguments.
  After the region the partial-sum arrays hold the two cores' full sums; the later lines add the two slots — and a class's
  sum over all rows is the two cores' sums added — and then apply to the three class sums the same update formulas as the
  reference applies to its segment sums.
-/
import proofs.«414262_j69063074120047_3_alg».proof.Proof.KernelIdealArrays
import proofs.«414262_j69063074120047_3_alg».proof.Proof.KernelTail
import proofs.«414262_j69063074120047_3_alg».proof.Proof.RefValue
import proofs.«414262_j69063074120047_3_alg».proof.Proof.SegChunks

set_option maxRecDepth 16384

open scoped BigOperators

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The device's buffers when the later lines start: the arrays of the pipeline as the write-backs left them, every
    other buffer as the region found it. -/
abbrev exitVal (c : Dev nD) : Valuation τ sig (Elt Ideal) :=
  Pipeline.withArrays spec0 c (V0 m c) fun w => (dats m 0 c).arrAt w cfg0.N

theorem exit_S (c : Dev nD) : TailValue.partS (exitVal m c) = finS m c :=
  (Pipeline.withArrays_arr spec0 launch0.win.arr_inj c _ _ 2).trans (finalS m c)
theorem exit_Q (c : Dev nD) : TailValue.partQ (exitVal m c) = finQ m c :=
  (Pipeline.withArrays_arr spec0 launch0.win.arr_inj c _ _ 3).trans (finalQ m c)
theorem exit_N (c : Dev nD) : TailValue.partN (exitVal m c) = finN m c :=
  (Pipeline.withArrays_arr spec0 launch0.win.arr_inj c _ _ 4).trans (finalN m c)
theorem exit_cov (c : Dev nD) : TailValue.inCov (exitVal m c) = m ((c : Thread nD τ).loc main_arg2) :=
  (Pipeline.withArrays_of_ne _ c (V0 m c) _ main_arg2 (by decide)).trans (V_main_arg2 m c)
theorem exit_ave (c : Dev nD) : TailValue.inAve (exitVal m c) = m ((c : Thread nD τ).loc main_arg3) :=
  (Pipeline.withArrays_of_ne _ c (V0 m c) _ main_arg3 (by decide)).trans (V_main_arg3 m c)
theorem exit_amt (c : Dev nD) : TailValue.inAmt (exitVal m c) = m ((c : Thread nD τ).loc main_arg4) :=
  (Pipeline.withArrays_of_ne _ c (V0 m c) _ main_arg4 (by decide)).trans (V_main_arg4 m c)

/-- The new covariance: the reference's function of the arguments. -/
theorem result_cov (c : Dev nD) :
    (Pipeline.afterTail₀ cfgs (dats m) 0 (V0 m) tailOps c main_v42 : S19x256.Idx → EReal)
      = Cert.ReferenceIdeal.Read.val_main_v50 (F := Ideal) (feats m c) (labels m c) (m ((c : Thread nD τ).loc main_arg2))
          (m ((c : Thread nD τ).loc main_arg3)) (m ((c : Thread nD τ).loc main_arg4)) := by
  funext j
  obtain ⟨b, d, rfl⟩ : ∃ (b : Fin 19) (d : Fin 256), j = ix2 b d := ⟨j 0, j 1, eq_ix2 j⟩
  rw [Cert.ReferenceIdeal.RefValue.ref_cov]
  refine (TailValue.tail_cov (exitVal m c) b d).trans ?_
  rw [exit_S, exit_Q, exit_N, exit_cov, exit_ave, exit_amt, finS_apply, finS_apply, finQ_apply, finQ_apply, finN_apply, finN_apply,
    ← Spec.seg_eq_cores, ← Spec.seg_eq_cores, ← Spec.seg_eq_cores]

/-- The new means. -/
theorem result_ave (c : Dev nD) :
    (Pipeline.afterTail₀ cfgs (dats m) 0 (V0 m) tailOps c main_v49 : S19x256.Idx → EReal)
      = Cert.ReferenceIdeal.Read.val_main_v57 (F := Ideal) (feats m c) (labels m c)
          (m ((c : Thread nD τ).loc main_arg3)) (m ((c : Thread nD τ).loc main_arg4)) := by
  funext j
  obtain ⟨b, d, rfl⟩ : ∃ (b : Fin 19) (d : Fin 256), j = ix2 b d := ⟨j 0, j 1, eq_ix2 j⟩
  rw [Cert.ReferenceIdeal.RefValue.ref_ave]
  refine (TailValue.tail_ave (exitVal m c) b d).trans ?_
  rw [exit_S, exit_N, exit_ave, exit_amt, finS_apply, finS_apply, finN_apply, finN_apply,
    ← Spec.seg_eq_cores, ← Spec.seg_eq_cores]

/-- The new amounts. -/
theorem result_amt (c : Dev nD) :
    (Pipeline.afterTail₀ cfgs (dats m) 0 (V0 m) tailOps c main_v51 : S19.Idx → EReal)
      = Cert.ReferenceIdeal.Read.val_main_v58 (F := Ideal) (labels m c) (m ((c : Thread nD τ).loc main_arg4)) := by
  funext j
  obtain ⟨b, rfl⟩ : ∃ (b : Fin 19), j = ix1 b := ⟨j 0, eq_ix1 j⟩
  rw [Cert.ReferenceIdeal.RefValue.ref_amt]
  refine (TailValue.tail_amt (exitVal m c) b).trans ?_
  rw [exit_N, exit_amt, finN_apply, finN_apply, ← Spec.seg_eq_cores]

/-- THE RUN, READ: every weakly fair execution of the kernel program ends with its three results at the reference's
    functions of the arguments, the arguments unchanged. -/
theorem run_results (ρ : Dev nD → PrngReg) :
    θ_run defs (onTc (τ := τ) (main (F := Ideal))) ⟨m, fun _ => 0, ρ⟩ (fun r => ∀ c : Dev nD,
      r.2.mem ((c.tc : Thread nD τ).loc main_v42) = Cert.ReferenceIdeal.Read.val_main_v50 (F := Ideal) (feats m c) (labels m c) (m ((c : Thread nD τ).loc main_arg2)) (m ((c : Thread nD τ).loc main_arg3)) (m ((c : Thread nD τ).loc main_arg4))
      ∧ r.2.mem ((c.tc : Thread nD τ).loc main_v49) = Cert.ReferenceIdeal.Read.val_main_v57 (F := Ideal) (feats m c) (labels m c) (m ((c : Thread nD τ).loc main_arg3)) (m ((c : Thread nD τ).loc main_arg4))
      ∧ r.2.mem ((c.tc : Thread nD τ).loc main_v51) = Cert.ReferenceIdeal.Read.val_main_v58 (F := Ideal) (labels m c) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v42 (Pipeline.mem_restRefs_of main_v42 (by decide) (by decide))).trans (result_cov m c),
     ((h c).2 main_v49 (Pipeline.mem_restRefs_of main_v49 (by decide) (by decide))).trans (result_ave m c),
     ((h c).2 main_v51 (Pipeline.mem_restRefs_of main_v51 (by decide) (by decide))).trans (result_amt m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.Hand

end
-- ==== Proof.lean ====
/-
  Equivalence, over the extended reals, of the two-core class-statistics kernel and its segment-sum reference.

  The kernel walks the 131072 feature rows in sixteen blocks of 8192, eight to a core, each block in four chunks of
  2048 rows. For every chunk it forms the one-hot of the chunk's labels against the nineteen class indices and adds to
  three accumulators the one-hot's product with the rows, with their squares, and its lane count; a core clears its
  accumulators at its first block and writes them out after its last. The host then adds the two cores' partial sums
  and applies the update formulas (mean, squared deviations over the clamped count, blending weight, the three blended
  results). The reference takes the same three sums as segment sums — a scatter-add by label, an update whose label is
  outside 0..18 dropped, exactly as no class index matches it in the kernel's one-hot — and applies the same formulas in
  the same order. On the extended reals a change of float format is the identity, the one-hot product `(1 or 0)·x` is
  `x` or `0`, and a sum may be taken in any grouping, so the two programs compute the same three arrays; the inputs'
  finiteness is not needed.

  The frames: the kernel program at either instance runs to the end with its arguments unchanged (the accumulators'
  contents after every grid point stated by recursion on the point, the chunk loop gone through by its invariant); the
  reference's frame is its run with the results dropped. The idealization rewrote nothing, so `preserves` is trivial.
-/
import proofs.«414262_j69063074120047_3_alg».proof.Defs
import proofs.«414262_j69063074120047_3_alg».proof.Proof.Gen.Kernel
import proofs.«414262_j69063074120047_3_alg».proof.Proof.Gen.KernelIdeal
import proofs.«414262_j69063074120047_3_alg».proof.Proof.Gen.ReferenceIdeal
import proofs.«414262_j69063074120047_3_alg».proof.Proof.Gen.Pre_finite_inputs
import proofs.«414262_j69063074120047_3_alg».proof.Proof.Gen.ReferenceIdeal.Run
import proofs.«414262_j69063074120047_3_alg».proof.Proof.Gen.ReferenceIdeal.Read
import proofs.«414262_j69063074120047_3_alg».proof.Proof.KernelFrame
import proofs.«414262_j69063074120047_3_alg».proof.Proof.KernelIdealResults
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- From memories agreeing on the arguments both programs end with the same three arrays: the reference's functions of
    the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, Cert.KernelIdeal.Hand.run_results m ρ, ?_⟩
  refine (θ_run Cert.ReferenceIdeal.defs _ _).mono (fun _ h c => ?_) (Cert.ReferenceIdeal.Value.run (F := Ideal) m' ρ')
  obtain ⟨a0, a1, a2, a3, a4⟩ := hagree c
  obtain ⟨r0, r1, r2, k0, k1, k2, k3, k4⟩ := h c
  refine ⟨r0.trans ?_, r1.trans ?_, r2.trans ?_, k0, k1, k2, k3, k4⟩
  · rw [Cert.ReferenceIdeal.Read.val_main_v50_eq, a0, a1, a2, a3, a4]
  · rw [Cert.ReferenceIdeal.Read.val_main_v57_eq, a0, a1, a3, a4]
  · rw [Cert.ReferenceIdeal.Read.val_main_v58_eq, a1, a4]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
